-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x24x512x512 : Shape := ⟨4, ![8, 24, 512, 512]⟩
abbrev S8x512x512 : Shape := ⟨3, ![8, 512, 512]⟩
abbrev S8x16x384 : Shape := ⟨3, ![8, 16, 384]⟩
abbrev S_ : Shape := ⟨0, ![]⟩

class Facts : Prop where
  slices_S8x512x512_S8x16x384_0_0_0 : S8x512x512.Slices ![0, 0, 0] S8x16x384
  bcast_S_S8x24x512x512 : S_.BroadcastsInDim S8x24x512x512 (![] : Fin 0 → Fin S8x24x512x512.rank)
  reducesTo_S8x24x512x512_S_d0_1_2_3 : S8x24x512x512.ReducesTo [0, 1, 2, 3] S_
  h_S_ : 0 < S_.numel
  bcast_S_S8x16x384 : S_.BroadcastsInDim S8x16x384 (![] : Fin 0 → Fin S8x16x384.rank)
  reducesTo_S8x16x384_S_d0_1_2 : S8x16x384.ReducesTo [0, 1, 2] S_

variable [Facts]

def fn {F : FTy → Type} [FloatOps F] (main_arg0 : FVec F S8x24x512x512 .f32) (main_arg1 : IVec S8x512x512 32) : IVec S_ 1 :=
  let main_v0 : IVec S8x16x384 32 := (extractStridedSlice S8x16x384 ![0, 0, 0] · slices_S8x512x512_S8x16x384_0_0_0) main_arg1
  let main_v1 : FVec F S8x24x512x512 .f32 := Host.absf main_arg0
  let main_cst : FVec F S_ .f32 := constant S_ .f32 0x7F800000#32
  let main_v2 : FVec F S8x24x512x512 .f32 := broadcastInDim S8x24x512x512 ![] bcast_S_S8x24x512x512 main_cst
  let main_v3 : IVec S8x24x512x512 1 := cmpf .olt main_v1 main_v2
  let main_c : IVec S_ 1 := constantI S_ 1 1#1
  let main_v4 : IVec S_ 1 := (fun x v => Host.reduce IntOp.andi x v reducesTo_S8x24x512x512_S_d0_1_2_3 h_S_) main_v3 main_c
  let main_c_0 : IVec S_ 32 := constantI S_ 32 4294967196#32
  let main_v5 : IVec S8x16x384 32 := broadcastInDim S8x16x384 ![] bcast_S_S8x16x384 main_c_0
  let main_v6 : IVec S8x16x384 1 := cmpi .eq main_v0 main_v5
  let main_c_1 : IVec S_ 32 := constantI S_ 32 0#32
  let main_v7 : IVec S8x16x384 32 := broadcastInDim S8x16x384 ![] bcast_S_S8x16x384 main_c_1
  let main_v8 : IVec S8x16x384 1 := cmpi .sge main_v0 main_v7
  let main_c_2 : IVec S_ 32 := constantI S_ 32 1024#32
  let main_v9 : IVec S8x16x384 32 := broadcastInDim S8x16x384 ![] bcast_S_S8x16x384 main_c_2
  let main_v10 : IVec S8x16x384 1 := cmpi .slt main_v0 main_v9
  let main_v11 : IVec S8x16x384 1 := andi main_v8 main_v10
  let main_v12 : IVec S8x16x384 1 := ori main_v6 main_v11
  let main_c_3 : IVec S_ 1 := constantI S_ 1 1#1
  let main_v13 : IVec S_ 1 := (fun x v => Host.reduce IntOp.andi x v reducesTo_S8x16x384_S_d0_1_2 h_S_) main_v12 main_c_3
  let main_v14 : IVec S_ 1 := andi main_v4 main_v13
  main_v14
-- ==== Kernel.lean ====
abbrev S8x24x512x512 : Shape := ⟨4, ![8, 24, 512, 512]⟩
abbrev S8x512x512 : Shape := ⟨3, ![8, 512, 512]⟩
abbrev S8x16x384 : Shape := ⟨3, ![8, 16, 384]⟩
abbrev S8x16x24x16 : Shape := ⟨4, ![8, 16, 24, 16]⟩
abbrev S24x8x16x16 : Shape := ⟨4, ![24, 8, 16, 16]⟩
abbrev S8x16x16 : Shape := ⟨3, ![8, 16, 16]⟩
abbrev S4x1x512x512 : Shape := ⟨4, ![4, 1, 512, 512]⟩
abbrev S1x4x16x16 : Shape := ⟨4, ![1, 4, 16, 16]⟩
abbrev S4x16x16 : Shape := ⟨3, ![4, 16, 16]⟩
abbrev S16x16x1024 : Shape := ⟨3, ![16, 16, 1024]⟩
abbrev S1x1x512x512 : Shape := ⟨4, ![1, 1, 512, 512]⟩
abbrev S512x512 : Shape := ⟨2, ![512, 512]⟩
abbrev S32x16x32x16 : Shape := ⟨4, ![32, 16, 32, 16]⟩
abbrev S16x16x32x32 : Shape := ⟨4, ![16, 16, 32, 32]⟩
abbrev S16x16 : Shape := ⟨2, ![16, 16]⟩
abbrev S16x16x1 : Shape := ⟨3, ![16, 16, 1]⟩
abbrev S1x1x16x16 : Shape := ⟨4, ![1, 1, 16, 16]⟩
abbrev S1x16x16 : Shape := ⟨3, ![1, 16, 16]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S8x24x512x512, .f32⟩
  | .hbm, ⟨1, _⟩ => ⟨S8x512x512, .i32⟩
  | .hbm, ⟨2, _⟩ => ⟨S8x16x384, .i32⟩
  | .hbm, ⟨3, _⟩ => ⟨S8x16x24x16, .i32⟩
  | .hbm, ⟨4, _⟩ => ⟨S24x8x16x16, .i32⟩
  | .hbm, ⟨5, _⟩ => ⟨S8x16x16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4x1x512x512, .f32⟩
  | .local _ .vmem, ⟨1, _⟩ => ⟨S4x1x512x512, .f32⟩
  | .local _ .vmem, ⟨2, _⟩ => ⟨S1x4x16x16, .i32⟩
  | .local _ .vmem, ⟨3, _⟩ => ⟨S1x4x16x16, .i32⟩
  | .local _ .vmem, ⟨4, _⟩ => ⟨S4x16x16, .f32⟩
  | .local _ .vmem, ⟨5, _⟩ => ⟨S4x16x16, .f32⟩
  | _, _ => ⟨S8x24x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_off1 (k0_t1 : Fin k0_t1_loop.trips) : Fin 4 → Nat :=
  let c0_i32_1 : BitVec 32 := 0#32
  let c1_i32 : BitVec 32 := 1#32
  let arg5 : BitVec 32 := Scf.iv c0_i32_1 c1_i32 k0_t1
  let v5 : Index := Scalar.indexCast arg5
  let c0 : Index := 0#32
  let c0_3 : Index := 0#32
  let c0_4 : Index := 0#32
  ![v5.toNat, 0, 0, 0]
def k0_off2 (k0_t1 : Fin k0_t1_loop.trips) : Fin 4 → Nat :=
  let c0_6 : Index := 0#32
  let c0_i32_1 : BitVec 32 := 0#32
  let c1_i32 : BitVec 32 := 1#32
  let arg5 : BitVec 32 := Scf.iv c0_i32_1 c1_i32 k0_t1
  let v20 : Index := Scalar.indexCast arg5
  let c0_7 : Index := 0#32
  let c0_8 : Index := 0#32
  ![0, v20.toNat, 0, 0]
def k0_off3 (k0_t1 : Fin k0_t1_loop.trips) : Fin 3 → Nat :=
  let c0_i32_1 : BitVec 32 := 0#32
  let c1_i32 : BitVec 32 := 1#32
  let arg5 : BitVec 32 := Scf.iv c0_i32_1 c1_i32 k0_t1
  let v34 : Index := Scalar.indexCast arg5
  let c0_12 : Index := 0#32
  let c0_13 : Index := 0#32
  ![v34.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x16x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S8x512x512_S8x16x384_0_0_0 : S8x512x512.Slices ![0, 0, 0] S8x16x384
  shapeCasts_S8x16x384_S8x16x24x16 : S8x16x384.ShapeCasts S8x16x24x16
  transposes_S8x16x24x16_S24x8x16x16_2_0_1_3 : S8x16x24x16.Transposes [2, 0, 1, 3] S24x8x16x16
  inb_S4x16x16_S4x16x16_0_0_0 : ∀ a, (![0, 0, 0] : Fin 3 → Nat) a + S4x16x16.size a ≤ S4x16x16.size a
  h_S4x16x16 : 0 < S4x16x16.numel
  iota_S16x16x1024_d2_w32 : S16x16x1024.Iotas .tc 32 [2]
  h_S1x1x512x512 : 0 < S1x1x512x512.numel
  shapeCasts_S1x1x512x512_S512x512 : S1x1x512x512.ShapeCasts S512x512
  shapeCasts_S512x512_S32x16x32x16 : S512x512.ShapeCasts S32x16x32x16
  transposes_S32x16x32x16_p1_3_0_2_S16x16x32x32 : S32x16x32x16.Transposes [1, 3, 0, 2] S16x16x32x32
  shapeCasts_S16x16x32x32_S16x16x1024 : S16x16x32x32.ShapeCasts S16x16x1024
  reduces_S16x16x1024_S16x16 : S16x16x1024.Reduces [2] S16x16
  shapeCasts_S16x16_S16x16x1 : S16x16.ShapeCasts S16x16x1
  broadcasts_S16x16x1_S16x16x1024 : S16x16x1.Broadcasts S16x16x1024
  shapeCasts_S16x16x1_S16x16 : S16x16x1.ShapeCasts S16x16
  h_S1x1x16x16 : 0 < S1x1x16x16.numel
  shapeCasts_S1x1x16x16_S16x16 : S1x1x16x16.ShapeCasts S16x16
  h_S1x16x16 : 0 < S1x16x16.numel
  shapeCasts_S1x16x16_S16x16 : S1x16x16.ShapeCasts S16x16
  shapeCasts_S16x16_S1x16x16 : S16x16.ShapeCasts S1x16x16
  reducesTo_S8x16x16_S_d0_1_2 : S8x16x16.ReducesTo [0, 1, 2] S_
  h_S_ : 0 < S_.numel
  hrank0 : 0 < grid0.rank
  k0_t1_ok : k0_t1_loop.OK
  k0_off1_inb : ∀ k0_t1 : Fin k0_t1_loop.trips, ∀ a, (k0_off1 k0_t1) a + S1x1x512x512.size a ≤ S4x1x512x512.size a
  k0_off2_inb : ∀ k0_t1 : Fin k0_t1_loop.trips, ∀ a, (k0_off2 k0_t1) a + S1x1x16x16.size a ≤ S1x4x16x16.size a
  k0_off3_inb : ∀ k0_t1 : Fin k0_t1_loop.trips, ∀ a, (k0_off3 k0_t1) a + S1x16x16.size a ≤ S4x16x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x512x512.size a ≤ S8x24x512x512.size a
  hwx0_0 : ∀ i : grid0.Coords, EltTy.bits .f32 = 32 ∨ (Rect.block (s := S8x24x512x512) S4x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x16x16.size a ≤ S24x8x16x16.size a
  hwx0_1 : ∀ i : grid0.Coords, EltTy.bits .i32 = 32 ∨ (Rect.block (s := S24x8x16x16) S1x4x16x16.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x16x16.size a ≤ S8x16x16.size a
  hwx0_2 : ∀ i : grid0.Coords, EltTy.bits .f32 = 32 ∨ (Rect.block (s := S8x16x16) S4x16x16.size (cc0_transform_2 i) (hinb0_2 i)).WholeWords (EltTy.packing .f32)

variable [Facts₀]

abbrev win0_0 : Pipeline.Window sig grid0 :=
  Pipeline.Window.ofSpec (Memref.whole main_arg0) S4x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x16x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x24x512x512 : Shape := ⟨4, ![8, 24, 512, 512]⟩
abbrev S8x512x512 : Shape := ⟨3, ![8, 512, 512]⟩
abbrev S8x1x512x512 : Shape := ⟨4, ![8, 1, 512, 512]⟩
abbrev S8x24x32x16x32x16 : Shape := ⟨6, ![8, 24, 32, 16, 32, 16]⟩
abbrev S8x32x32x16x16x24 : Shape := ⟨6, ![8, 32, 32, 16, 16, 24]⟩
abbrev S8x1024x256x24 : Shape := ⟨4, ![8, 1024, 256, 24]⟩
abbrev S8x24x1024x256 : Shape := ⟨4, ![8, 24, 1024, 256]⟩
abbrev S8x1x32x16x32x16 : Shape := ⟨6, ![8, 1, 32, 16, 32, 16]⟩
abbrev S8x32x32x16x16x1 : Shape := ⟨6, ![8, 32, 32, 16, 16, 1]⟩
abbrev S8x1024x256x1 : Shape := ⟨4, ![8, 1024, 256, 1]⟩
abbrev S8x1024x256 : Shape := ⟨3, ![8, 1024, 256]⟩
abbrev S8x24x256 : Shape := ⟨3, ![8, 24, 256]⟩
abbrev S_ : Shape := ⟨0, ![]⟩
abbrev S8x24x1x256 : Shape := ⟨4, ![8, 24, 1, 256]⟩
abbrev S8x24x1x256x1 : Shape := ⟨5, ![8, 24, 1, 256, 1]⟩
abbrev S1 : Shape := ⟨1, ![1]⟩
abbrev S1x1x1x1x1 : Shape := ⟨5, ![1, 1, 1, 1, 1]⟩
abbrev S8x256 : Shape := ⟨2, ![8, 256]⟩

abbrev nBuf : Space → Nat
  | .hbm => 72
  | .vmem => 0
  | .smem => 0
  | _ => 0

abbrev bufTy : (tb : Table) → Fin (tcTables nBuf tb) → BufTy
  | .hbm, ⟨0, _⟩ => ⟨S8x24x512x512, .f32⟩
  | .hbm, ⟨1, _⟩ => ⟨S8x512x512, .i32⟩
  | .hbm, ⟨2, _⟩ => ⟨S8x1x512x512, .i32⟩
  | .hbm, ⟨3, _⟩ => ⟨S8x24x32x16x32x16, .f32⟩
  | .hbm, ⟨4, _⟩ => ⟨S8x32x32x16x16x24, .f32⟩
  | .hbm, ⟨5, _⟩ => ⟨S8x1024x256x24, .f32⟩
  | .hbm, ⟨6, _⟩ => ⟨S8x24x1024x256, .f32⟩
  | .hbm, ⟨7, _⟩ => ⟨S8x1x32x16x32x16, .i32⟩
  | .hbm, ⟨8, _⟩ => ⟨S8x32x32x16x16x1, .i32⟩
  | .hbm, ⟨9, _⟩ => ⟨S8x1024x256x1, .i32⟩
  | .hbm, ⟨10, _⟩ => ⟨S8x1024x256, .i32⟩
  | .hbm, ⟨11, _⟩ => ⟨S8x24x256, .i32⟩
  | .hbm, ⟨12, _⟩ => ⟨S_, .f32⟩
  | .hbm, ⟨13, _⟩ => ⟨S8x24x256, .f32⟩
  | .hbm, ⟨14, _⟩ => ⟨S_, .f32⟩
  | .hbm, ⟨15, _⟩ => ⟨S8x24x256, .f32⟩
  | .hbm, ⟨16, _⟩ => ⟨S8x24x256, .f32⟩
  | .hbm, ⟨17, _⟩ => ⟨S8x24x1x256, .f32⟩
  | .hbm, ⟨18, _⟩ => ⟨S8x24x1024x256, .f32⟩
  | .hbm, ⟨19, _⟩ => ⟨S8x24x1024x256, .f32⟩
  | .hbm, ⟨20, _⟩ => ⟨S8x24x1024x256, .f32⟩
  | .hbm, ⟨21, _⟩ => ⟨S_, .f32⟩
  | .hbm, ⟨22, _⟩ => ⟨S8x24x256, .f32⟩
  | .hbm, ⟨23, _⟩ => ⟨S8x24x1x256, .f32⟩
  | .hbm, ⟨24, _⟩ => ⟨S8x24x1x256, .f32⟩
  | .hbm, ⟨25, _⟩ => ⟨S8x24x1024x256, .f32⟩
  | .hbm, ⟨26, _⟩ => ⟨S8x24x1024x256, .f32⟩
  | .hbm, ⟨27, _⟩ => ⟨S_, .i32⟩
  | .hbm, ⟨28, _⟩ => ⟨S8x24x256, .i32⟩
  | .hbm, ⟨29, _⟩ => ⟨S8x24x256, .i1⟩
  | .hbm, ⟨30, _⟩ => ⟨S_, .i32⟩
  | .hbm, ⟨31, _⟩ => ⟨S_, .i32⟩
  | .hbm, ⟨32, _⟩ => ⟨S8x24x256, .i32⟩
  | .hbm, ⟨33, _⟩ => ⟨S8x24x256, .i32⟩
  | .hbm, ⟨34, _⟩ => ⟨S8x24x1x256, .i32⟩
  | .hbm, ⟨35, _⟩ => ⟨S_, .i32⟩
  | .hbm, ⟨36, _⟩ => ⟨S8x24x1x256, .i32⟩
  | .hbm, ⟨37, _⟩ => ⟨S8x24x1x256, .i1⟩
  | .hbm, ⟨38, _⟩ => ⟨S_, .i32⟩
  | .hbm, ⟨39, _⟩ => ⟨S8x24x1x256, .i32⟩
  | .hbm, ⟨40, _⟩ => ⟨S8x24x1x256, .i32⟩
  | .hbm, ⟨41, _⟩ => ⟨S8x24x1x256, .i32⟩
  | .hbm, ⟨42, _⟩ => ⟨S8x24x1x256x1, .i32⟩
  | .hbm, ⟨43, _⟩ => ⟨S1, .i32⟩
  | .hbm, ⟨44, _⟩ => ⟨S_, .i32⟩
  | .hbm, ⟨45, _⟩ => ⟨S8x24x1x256x1, .i32⟩
  | .hbm, ⟨46, _⟩ => ⟨S8x24x1x256x1, .i1⟩
  | .hbm, ⟨47, _⟩ => ⟨S1x1x1x1x1, .i32⟩
  | .hbm, ⟨48, _⟩ => ⟨S8x24x1x256x1, .i32⟩
  | .hbm, ⟨49, _⟩ => ⟨S8x24x1x256x1, .i1⟩
  | .hbm, ⟨50, _⟩ => ⟨S8x24x1x256x1, .i1⟩
  | .hbm, ⟨51, _⟩ => ⟨S_, .i1⟩
  | .hbm, ⟨52, _⟩ => ⟨S8x24x1x256, .i1⟩
  | .hbm, ⟨53, _⟩ => ⟨S8x24x1x256, .f32⟩
  | .hbm, ⟨54, _⟩ => ⟨S_, .f32⟩
  | .hbm, ⟨55, _⟩ => ⟨S8x24x1x256, .f32⟩
  | .hbm, ⟨56, _⟩ => ⟨S8x24x1x256, .f32⟩
  | .hbm, ⟨57, _⟩ => ⟨S8x24x256, .f32⟩
  | .hbm, ⟨58, _⟩ => ⟨S8x24x256, .f32⟩
  | .hbm, ⟨59, _⟩ => ⟨S_, .i32⟩
  | .hbm, ⟨60, _⟩ => ⟨S8x24x256, .i32⟩
  | .hbm, ⟨61, _⟩ => ⟨S8x24x256, .i1⟩
  | .hbm, ⟨62, _⟩ => ⟨S_, .f32⟩
  | .hbm, ⟨63, _⟩ => ⟨S_, .f32⟩
  | .hbm, ⟨64, _⟩ => ⟨S8x24x256, .f32⟩
  | .hbm, ⟨65, _⟩ => ⟨S8x24x256, .f32⟩
  | .hbm, ⟨66, _⟩ => ⟨S_, .f32⟩
  | .hbm, ⟨67, _⟩ => ⟨S8x256, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8x24x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_v13 : Ref sig .tc := ⟨.hbm, 33, rfl⟩
abbrev main_v14 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_c_1 : Ref sig .tc := ⟨.hbm, 59, rfl⟩
abbrev main_v18 : Ref sig .tc := ⟨.hbm, 60, rfl⟩
abbrev main_v19 : Ref sig .tc := ⟨.hbm, 61, rfl⟩
abbrev main_cst : Ref sig .tc := ⟨.hbm, 62, rfl⟩
abbrev main_call3_v0 : Ref sig .tc := ⟨.hbm, 63, rfl⟩
abbrev main_call3_v1 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_cst_3 : Ref sig .tc := ⟨.hbm, 68, rfl⟩
abbrev main_v22 : Ref sig .tc := ⟨.hbm, 69, rfl⟩
abbrev main_cst_4 : Ref sig .tc := ⟨.hbm, 70, rfl⟩
abbrev main_v23 : Ref sig .tc := ⟨.hbm, 71, rfl⟩

abbrev nD : Nat := 1
abbrev τ : Topo := Topo.v7x

variable {F : FTy → Type} [FloatOps F]

class Facts₀ : Prop where
  bcast_S8x512x512_S8x1x512x512_0_2_3 : S8x512x512.BroadcastsInDim S8x1x512x512 (![0, 2, 3] : Fin 3 → Fin S8x1x512x512.rank)
  shapeCasts_S8x24x512x512_S8x24x32x16x32x16 : S8x24x512x512.ShapeCasts S8x24x32x16x32x16
  transposes_S8x24x32x16x32x16_S8x32x32x16x16x24_0_2_4_3_5_1 : S8x24x32x16x32x16.Transposes [0, 2, 4, 3, 5, 1] S8x32x32x16x16x24
  shapeCasts_S8x32x32x16x16x24_S8x1024x256x24 : S8x32x32x16x16x24.ShapeCasts S8x1024x256x24
  transposes_S8x1024x256x24_S8x24x1024x256_0_3_1_2 : S8x1024x256x24.Transposes [0, 3, 1, 2] S8x24x1024x256
  shapeCasts_S8x1x512x512_S8x1x32x16x32x16 : S8x1x512x512.ShapeCasts S8x1x32x16x32x16
  transposes_S8x1x32x16x32x16_S8x32x32x16x16x1_0_2_4_3_5_1 : S8x1x32x16x32x16.Transposes [0, 2, 4, 3, 5, 1] S8x32x32x16x16x1
  shapeCasts_S8x32x32x16x16x1_S8x1024x256x1 : S8x32x32x16x16x1.ShapeCasts S8x1024x256x1
  shapeCasts_S8x1024x256x1_S8x1024x256 : S8x1024x256x1.ShapeCasts S8x1024x256
  slices_S8x1024x256_S8x24x256_0_0_0 : S8x1024x256.Slices ![0, 0, 0] S8x24x256
  reducesTo_S8x24x1024x256_S8x24x256_d2 : S8x24x1024x256.ReducesTo [2] S8x24x256
  h_S_ : 0 < S_.numel
  bcast_S_S8x24x256 : S_.BroadcastsInDim S8x24x256 (![] : Fin 0 → Fin S8x24x256.rank)
  bcast_S8x24x256_S8x24x1x256_0_1_3 : S8x24x256.BroadcastsInDim S8x24x1x256 (![0, 1, 3] : Fin 3 → Fin S8x24x1x256.rank)
  bcast_S8x24x1x256_S8x24x1024x256_0_1_2_3 : S8x24x1x256.BroadcastsInDim S8x24x1024x256 (![0, 1, 2, 3] : Fin 4 → Fin S8x24x1024x256.rank)
  bcast_S_S8x24x1x256 : S_.BroadcastsInDim S8x24x1x256 (![] : Fin 0 → Fin S8x24x1x256.rank)
  shapeCasts_S8x24x1x256_S8x24x1x256x1 : S8x24x1x256.ShapeCasts S8x24x1x256x1
  bcast_S_S8x24x1x256x1 : S_.BroadcastsInDim S8x24x1x256x1 (![] : Fin 0 → Fin S8x24x1x256x1.rank)
  bcast_S1_S1x1x1x1x1_4 : S1.BroadcastsInDim S1x1x1x1x1 (![4] : Fin 1 → Fin S1x1x1x1x1.rank)
  bcast_S1x1x1x1x1_S8x24x1x256x1_0_1_2_3_4 : S1x1x1x1x1.BroadcastsInDim S8x24x1x256x1 (![0, 1, 2, 3, 4] : Fin 5 → Fin S8x24x1x256x1.rank)
  reducesTo_S8x24x1x256x1_S8x24x1x256_d4 : S8x24x1x256x1.ReducesTo [4] S8x24x1x256
  shapeCasts_S8x24x1x256_S8x24x256 : S8x24x1x256.ShapeCasts S8x24x256
  reducesTo_S8x24x256_S8x256_d1 : S8x24x256.ReducesTo [1] S8x256
  reducesTo_S8x256_S_d0_1 : S8x256.ReducesTo [0, 1] S_
  gather_S8x24x1024x256_S8x24x1x256x1_S8x24x1x256_n_2_013_013_2_4_1111_wf : GatherDims.WF S8x24x1024x256 S8x24x1x256x1 S8x24x1x256 [] [2] [0, 1, 3] [2] [0, 1, 3] 4 ![1, 1, 1, 1]

variable [Facts₀]

def gather_S8x24x1024x256_S8x24x1x256x1_S8x24x1x256_n_2_013_013_2_4_1111 : GatherDims S8x24x1024x256 S8x24x1x256x1 S8x24x1x256 where
  offsetDims := []
  collapsedSliceDims := [2]
  operandBatchingDims := [0, 1, 3]
  startIndicesBatchingDims := [0, 1, 3]
  startIndexMap := [2]
  indexVectorDim := 4
  sliceSizes := ![1, 1, 1, 1]
  wf := gather_S8x24x1024x256_S8x24x1x256x1_S8x24x1x256_n_2_013_013_2_4_1111_wf

class Facts : Prop extends Facts₀ where

variable [Facts]
-- ==== Proof.K.Trip.lean ====
/-
  The kernel body's loop over the four images of a block, by an invariant.

  Trip `k` loads image `k`'s plane, its labels and slot `k` of the running maximum, and stores the updated slot `k`. No trip
  touches another trip's slot, so before trip `k` the output buffer holds the entry contents with the slots below `k`
  updated one after the other; the two input buffers are only read.
-/
import proofs.«413696_j43370579755026_3_alg».proof.Proof.Gen.Kernel.Frame
import proofs.«413696_j43370579755026_3_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Trip

variable (arg2 : Memref sig .tc .vmem S4x1x512x512 .f32) (arg3 : Memref sig .tc .vmem S1x4x16x16 .i32)
  (arg4 : Memref sig .tc .vmem S4x16x16 .f32)
  (X2 : BufTy.Contents (Elt F) arg2.view.ty) (X3 : BufTy.Contents (Elt F) arg3.view.ty)

/-- What trip `k` stores, given the output buffer's contents `f4` it finds: slot `k`, at the payload of the three loads. -/
def tripPiece (f4 : BufTy.Contents (Elt F) arg4.view.ty) (k : Fin k0_t1_loop.trips) : View.Piece (Elt F) S4x16x16 .f32 :=
  ⟨Rect.unit (s := S4x16x16) (k0_off3 k) S1x16x16.size (k0_off3_inb k),
    k0_pay2 (View.readAt (Elt F) arg2.view (Rect.unit (s := S4x1x512x512) (k0_off1 k) S1x1x512x512.size (k0_off1_inb k)).toLoadRect X2)
      (View.readAt (Elt F) arg3.view (Rect.unit (s := S1x4x16x16) (k0_off2 k) S1x1x16x16.size (k0_off2_inb k)).toLoadRect X3)
      (View.readAt (Elt F) arg4.view (Rect.unit (s := S4x16x16) (k0_off3 k) S1x16x16.size (k0_off3_inb k)).toLoadRect f4)⟩

/-- The output buffer's contents before trip `k`, from the contents `G` at the loop's entry: each earlier trip's store
    over what the trips before it left. -/
def accAt (G : BufTy.Contents (Elt F) arg4.view.ty) : ℕ → BufTy.Contents (Elt F) arg4.view.ty
  | 0 => G
  | k + 1 =>
    if h : k < k0_t1_loop.trips then
      arg4.view.writes (Elt F) (accAt G k) [tripPiece arg2 arg3 arg4 X2 X3 (accAt G k) ⟨k, h⟩]
    else accAt G k

theorem accAt_succ (G : BufTy.Contents (Elt F) arg4.view.ty) (k : Fin k0_t1_loop.trips) :
    accAt arg2 arg3 arg4 X2 X3 G (k.val + 1)
      = arg4.view.writes (Elt F) (accAt arg2 arg3 arg4 X2 X3 G k.val) [tripPiece arg2 arg3 arg4 X2 X3 (accAt arg2 arg3 arg4 X2 X3 G k.val) k] := by
  rw [accAt, dif_pos k.isLt]

/-- The loop's invariant before trip `k`: the inputs as found, the output at `accAt G k`. -/
def loopInv (c : Dev nD) (G : BufTy.Contents (Elt F) arg4.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} accAt arg2 arg3 arg4 X2 X3 G k))

/-- One trip at a symbolic `k` takes the invariant at `k` to the invariant at `k + 1`. -/
theorem loop_step (c : Dev nD) (i : grid0.Coords) (harg2 : arg2.IsWhole) (harg3 : arg3.IsWhole) (harg4 : arg4.IsWhole)
    (G : BufTy.Contents (Elt F) arg4.view.ty) (E : Set ℕ) (k : Fin k0_t1_loop.trips) (acc : PUnit) :
    loopInv arg2 arg3 arg4 X2 X3 c G k.val acc
      ⊢ wp frame (wpE (defs₀ (F := F)) Variants.none (c : Thread nD τ) none) E (k0_t1_body (F := F) i arg2 harg2 arg3 harg3 arg4 harg4 k acc)
          (loopInv arg2 arg3 arg4 X2 X3 c G (k.val + 1)) := by
  have hk : k.val < 4 := k.isLt
  unfold loopInv k0_t1_body
  iintro ⟨H2, H3, H4⟩
  sl_exec
  sl_step
  isplitl [H2]; · iexact H2
  isplitl [H3]; · iexact H3
  rw [accAt_succ]
  iexact H4

end Trip

end Cert.Kernel.Body

end
-- ==== Proof.K.Out.lean ====
/-
  What the kernel body leaves in the output block, as a function of what it finds.

  With the two input blocks `x0` (four image planes) and `x1` (their labels) and the output block's contents `g` at the
  loop's entry, slot `k` of the output ends at the trip's payload of plane `k`, label plane `k` and slot `k` of `g`; no
  trip reads or writes another slot. At a block's first channel the body first stores the seed over the whole block.
-/
import proofs.«413696_j43370579755026_3_alg».proof.Proof.K.Trip
import Idealize.ShloMosaic.Lib.WholeRead
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The loop has four trips. -/
theorem trips_eq : k0_t1_loop.trips = 4 := by decide

/-- Slot `k`'s payload, from the blocks' contents: the trip's three loads read `x0`, `x1` and `g` at the load's index. -/
def slotPay (x0 : S4x1x512x512.Idx → Elt F .f32) (x1 : S1x4x16x16.Idx → Elt F .i32) (g : S4x16x16.Idx → Elt F .f32)
    (k : Fin k0_t1_loop.trips) : FVec F S1x16x16 .f32 :=
  k0_pay2 (fun x => x0 ((Rect.unit (s := S4x1x512x512) (k0_off1 k) S1x1x512x512.size (k0_off1_inb k)).toLoadRect.idx x))
    (fun x => x1 ((Rect.unit (s := S1x4x16x16) (k0_off2 k) S1x1x16x16.size (k0_off2_inb k)).toLoadRect.idx x))
    (fun x => g ((Rect.unit (s := S4x16x16) (k0_off3 k) S1x16x16.size (k0_off3_inb k)).toLoadRect.idx x))

/-- The output block after the loop: at `(n, p, q)`, slot `n`'s payload at `(0, p, q)`. -/
def bodyOut (x0 : S4x1x512x512.Idx → Elt F .f32) (x1 : S1x4x16x16.Idx → Elt F .i32) (g : S4x16x16.Idx → Elt F .f32) :
    S4x16x16.Idx → Elt F .f32 :=
  fun y => slotPay x0 x1 g ⟨(y 0).val, trips_eq ▸ (y 0).isLt⟩
    (fun a => match a with
      | ⟨0, _⟩ => (⟨0, by decide⟩ : Fin 1)
      | ⟨1, _⟩ => (⟨(y 1).val, (y 1).isLt⟩ : Fin 16)
      | ⟨2, _⟩ => (⟨(y 2).val, (y 2).isLt⟩ : Fin 16))

/-- The seed store, over any earlier contents, reads as the seed payload everywhere. -/
theorem read_seed (arg4 : Memref sig .tc .vmem S4x16x16 .f32) (d : BufTy.Contents (Elt F) arg4.view.ty) :
    arg4.view.read (Elt F) (arg4.view.writes (Elt F) d
        [(⟨Rect.unit (s := S4x16x16) ![0, 0, 0] S4x16x16.size inb_S4x16x16_S4x16x16_0_0_0, k0_pay1 (F := F)⟩ : View.Piece (Elt F) S4x16x16 .f32)])
      = k0_pay1 (F := F) := by
  funext y
  refine View.read_writes_cons_unit_of_mem arg4.view d inb_S4x16x16_S4x16x16_0_0_0 (k0_pay1 (F := F)) [] y y rfl ?_
  intro a
  match a with
  | ⟨0, _⟩ => exact (Nat.zero_add _).symm
  | ⟨1, _⟩ => exact (Nat.zero_add _).symm
  | ⟨2, _⟩ => exact (Nat.zero_add _).symm

/-- The output buffer before trip `k`: the slots below `k` hold their payloads, the others the entry contents. -/
private theorem read_accAt_aux (arg2 : Memref sig .tc .vmem S4x1x512x512 .f32) (harg2 : arg2.IsWhole)
    (arg3 : Memref sig .tc .vmem S1x4x16x16 .i32) (harg3 : arg3.IsWhole) (arg4 : Memref sig .tc .vmem S4x16x16 .f32)
    (x0 : S4x1x512x512.Idx → Elt F .f32) (x1 : S1x4x16x16.Idx → Elt F .i32)
    (G : BufTy.Contents (Elt F) arg4.view.ty) :
    ∀ k, k ≤ k0_t1_loop.trips → ∀ y : S4x16x16.Idx,
      arg4.view.read (Elt F) (accAt arg2 arg3 arg4 (harg2.unread x0) (harg3.unread x1) G k) y
        = if (y 0).val < k then bodyOut x0 x1 (arg4.view.read (Elt F) G) y else arg4.view.read (Elt F) G y := by
  intro k
  induction k with
  | zero =>
    intro _ y
    rw [if_neg (Nat.not_lt_zero _)]
    rfl
  | succ k ih =>
    intro hk y
    have h : k < k0_t1_loop.trips := hk
    have ihk := ih (Nat.le_of_lt h)
    refine (congrArg (fun f => arg4.view.read (Elt F) f y)
      (accAt_succ arg2 arg3 arg4 (harg2.unread x0) (harg3.unread x1) G ⟨k, h⟩)).trans ?_
    unfold tripPiece
    refine (View.read_writes_cons_unit arg4.view _ (k0_off3_inb ⟨k, h⟩) _ [] y (k0_off3_eq ⟨k, h⟩)).trans ?_
    have e0 : k0_off3 ⟨k, h⟩ 0 = k := by rw [k0_off3_eq]; rfl
    by_cases hy : (y 0).val = k
    · have hmem : ∀ a : Fin S4x16x16.rank,
          (![(⟨k, h⟩ : Fin k0_t1_loop.trips).val, 0, 0] : Fin 3 → ℕ) a ≤ (y a).val
            ∧ (y a).val < (![(⟨k, h⟩ : Fin k0_t1_loop.trips).val, 0, 0] : Fin 3 → ℕ) a + S1x16x16.size a := by
        intro a
        match a with
        | ⟨0, _⟩ => exact ⟨Nat.le_of_eq hy.symm, by show (y 0).val < k + 1; omega⟩
        | ⟨1, _⟩ => exact ⟨Nat.zero_le _, by
            have h1 : (y 1).val < 16 := (y 1).isLt
            show (y 1).val < 0 + 16
            omega⟩
        | ⟨2, _⟩ => exact ⟨Nat.zero_le _, by
            have h2 : (y 2).val < 16 := (y 2).isLt
            show (y 2).val < 0 + 16
            omega⟩
      rw [dif_pos hmem, if_pos (by omega)]
      have hslot : (⟨(y 0).val, trips_eq ▸ (y 0).isLt⟩ : Fin k0_t1_loop.trips) = ⟨k, h⟩ := Fin.ext hy
      unfold bodyOut
      rw [hslot]
      unfold slotPay
      have hA2 : View.readAt (Elt F) arg2.view
            (Rect.unit (s := S4x1x512x512) (k0_off1 ⟨k, h⟩) S1x1x512x512.size (k0_off1_inb ⟨k, h⟩)).toLoadRect (harg2.unread x0)
          = fun x => x0 ((Rect.unit (s := S4x1x512x512) (k0_off1 ⟨k, h⟩) S1x1x512x512.size (k0_off1_inb ⟨k, h⟩)).toLoadRect.idx x) :=
        funext fun x => harg2.readAt_unread x0 _ x
      have hA3 : View.readAt (Elt F) arg3.view
            (Rect.unit (s := S1x4x16x16) (k0_off2 ⟨k, h⟩) S1x1x16x16.size (k0_off2_inb ⟨k, h⟩)).toLoadRect (harg3.unread x1)
          = fun x => x1 ((Rect.unit (s := S1x4x16x16) (k0_off2 ⟨k, h⟩) S1x1x16x16.size (k0_off2_inb ⟨k, h⟩)).toLoadRect.idx x) :=
        funext fun x => harg3.readAt_unread x1 _ x
      have hA4 : View.readAt (Elt F) arg4.view
            (Rect.unit (s := S4x16x16) (k0_off3 ⟨k, h⟩) S1x16x16.size (k0_off3_inb ⟨k, h⟩)).toLoadRect
            (accAt arg2 arg3 arg4 (harg2.unread x0) (harg3.unread x1) G k)
          = fun x => arg4.view.read (Elt F) G
              ((Rect.unit (s := S4x16x16) (k0_off3 ⟨k, h⟩) S1x16x16.size (k0_off3_inb ⟨k, h⟩)).toLoadRect.idx x) :=
        funext fun x => by
          rw [View.readAt_apply, ihk]
          refine if_neg ?_
          show ¬ (k0_off3 ⟨k, h⟩ 0 + 1 * (x 0).val < k)
          rw [e0]
          omega
      have hloc : Rect.unitLocal (s := S4x16x16) (off := ![(⟨k, h⟩ : Fin k0_t1_loop.trips).val, 0, 0]) (size := S1x16x16.size) y hmem
          = (fun a => match a with
              | ⟨0, _⟩ => (⟨0, by decide⟩ : Fin 1)
              | ⟨1, _⟩ => (⟨(y 1).val, (y 1).isLt⟩ : Fin 16)
              | ⟨2, _⟩ => (⟨(y 2).val, (y 2).isLt⟩ : Fin 16)) := by
        funext a
        match a with
        | ⟨0, _⟩ => exact Fin.ext (by show (y 0).val - k = 0; omega)
        | ⟨1, _⟩ => exact Fin.ext (by show (y 1).val - 0 = (y 1).val; omega)
        | ⟨2, _⟩ => exact Fin.ext (by show (y 2).val - 0 = (y 2).val; omega)
      rw [hloc]
      rw [hA2, hA3]
      exact congrArg (fun c => k0_pay2 _ _ c _) hA4
    · have hnot : ¬ ∀ a : Fin S4x16x16.rank,
          (![(⟨k, h⟩ : Fin k0_t1_loop.trips).val, 0, 0] : Fin 3 → ℕ) a ≤ (y a).val
            ∧ (y a).val < (![(⟨k, h⟩ : Fin k0_t1_loop.trips).val, 0, 0] : Fin 3 → ℕ) a + S1x16x16.size a := by
        intro hall
        have h0 := hall 0
        have h1 : k ≤ (y 0).val := h0.1
        have h2 : (y 0).val < k + 1 := h0.2
        omega
      rw [dif_neg hnot, View.writes_nil]
      refine (ihk y).trans ?_
      by_cases hlt : (y 0).val < k
      · rw [if_pos hlt, if_pos (by omega)]
      · rw [if_neg hlt, if_neg (by omega)]

/-- After the four trips, from whole input memrefs held at the contents that read `x0` and `x1` and an output memref
    whose entry contents `G` read `g`, the output memref reads `bodyOut x0 x1 g`. -/
theorem read_accAt (arg2 : Memref sig .tc .vmem S4x1x512x512 .f32) (harg2 : arg2.IsWhole)
    (arg3 : Memref sig .tc .vmem S1x4x16x16 .i32) (harg3 : arg3.IsWhole) (arg4 : Memref sig .tc .vmem S4x16x16 .f32)
    (x0 : S4x1x512x512.Idx → Elt F .f32) (x1 : S1x4x16x16.Idx → Elt F .i32)
    (G : BufTy.Contents (Elt F) arg4.view.ty) :
    arg4.view.read (Elt F) (accAt arg2 arg3 arg4 (harg2.unread x0) (harg3.unread x1) G k0_t1_loop.trips)
      = bodyOut x0 x1 (arg4.view.read (Elt F) G) := by
  funext y
  refine (read_accAt_aux arg2 harg2 arg3 harg3 arg4 x0 x1 G k0_t1_loop.trips (Nat.le_refl _) y).trans ?_
  exact if_pos (trips_eq ▸ (y 0).isLt)

end Cert.Kernel.Body

end
-- ==== Proof.K.Run.lean ====
/-
  The kernel body at one grid point, run in its two cases.

  At a block's first channel (`c = 0`) the body stores the seed over the whole output block and then runs the loop; at
  every other channel it runs the loop on what the point before left there. Either way the two input blocks are only
  read, and the output block ends at `bodyOut` of the inputs and of the contents the loop started from.
-/
import proofs.«413696_j43370579755026_3_alg».proof.Proof.K.Out

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, from the grid coordinates: the channel coordinate is zero. -/
abbrev cond0 (i : grid0.Coords) : Prop := (Scalar.cmpi .ne (Scalar.extui (Scalar.cmpi .eq (BitVec.ofNat 32 (i 1).val) 0#32)) 0#32) = 1#1
/-- It holds at the points that are multiples of 24, the 24 channels being the grid's fastest axis. -/
theorem hcond0 : ∀ t : Fin cfg0.N, cond0 (grid0.coords t) ↔ t.val % 24 = 0 :=
  (by decide +kernel : ∀ t : Fin grid0.N, cond0 (grid0.coords t) ↔ t.val % 24 = 0)

set_option maxHeartbeats 1000000 in
/-- The loop and the return after it, from any contents `G` of the output buffer: the inputs are handed on as found, the
    output at the contents the four trips leave over `G`. -/
theorem loop_run (c : Dev nD) (i : grid0.Coords) (arg2 : Memref sig .tc .vmem S4x1x512x512 .f32) (harg2 : arg2.IsWhole)
    (arg3 : Memref sig .tc .vmem S1x4x16x16 .i32) (harg3 : arg3.IsWhole) (arg4 : Memref sig .tc .vmem S4x16x16 .f32) (harg4 : arg4.IsWhole)
    (X2 : BufTy.Contents (Elt F) arg2.view.ty) (X3 : BufTy.Contents (Elt F) arg3.view.ty) (G : BufTy.Contents (Elt F) arg4.view.ty)
    (E : Set ℕ) (K : PUnit → sProp 𝕄) :
    iprop((arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} G)
        ∗ (iprop((arg2.view.loc (c : Thread nD τ) ↦[arg2.view.set]{fullShare} X2) ∗ (arg3.view.loc (c : Thread nD τ) ↦[arg3.view.set]{fullShare} X3)
            ∗ (arg4.view.loc (c : Thread nD τ) ↦[arg4.view.set]{fullShare} accAt arg2 arg3 arg4 X2 X3 G k0_t1_loop.trips)) -∗ K ⟨⟩))
      ⊢ wp frame (wpE (defs₀ (F := F)) Variants.none c none) E
          (do Scf.Loop.for k0_t1_loop k0_t1_ok ⟨⟩ (k0_t1_body (F := F) i arg2 harg2 arg3 harg3 arg4 harg4); pure ⟨⟩) K := by
  iintro ⟨H0, H1, H2, Hk⟩
  sl_for (loopInv arg2 arg3 arg4 X2 X3 c G) $$ [H0 H1 H2]
  · intro k acc
    exact loop_step arg2 arg3 arg4 X2 X3 c i harg2 harg3 harg4 G E k acc
  · unfold loopInv
    isplitl [H0]; · iexact H0
    isplitl [H1]; · iexact H1
    iexact H2
  · iintro %acc HI
    unfold loopInv
    icases HI with ⟨H0, H1, H2⟩
    sl_exec
    sl_step
    iapply Hk
    isplitl [H0]; · iexact H0
    isplitl [H1]; · iexact H1
    iexact H2

set_option maxHeartbeats 1000000 in
/-- A later channel (`c ≠ 0`): the branch is not taken and the loop runs on the block `g` the point before left. -/
theorem run_later (c : Dev nD) (i : grid0.Coords) (arg2 : Memref sig .tc .vmem S4x1x512x512 .f32) (harg2 : arg2.IsWhole)
    (arg3 : Memref sig .tc .vmem S1x4x16x16 .i32) (harg3 : arg3.IsWhole) (arg4 : Memref sig .tc .vmem S4x16x16 .f32) (harg4 : arg4.IsWhole)
    (hc0 : ¬cond0 i) (x0 : Vec F S4x1x512x512 .f32) (x1 : Vec F S1x4x16x16 .i32) (g : Vec F S4x16x16 .f32) :
    ∀ (E : Set ℕ) (K : PUnit → sProp 𝕄),
      iprop(owns (c : Thread nD τ) arg2 fullShare x0 ∗ owns (c : Thread nD τ) arg3 fullShare x1 ∗ owns (c : Thread nD τ) arg4 fullShare g
          ∗ (iprop(owns (c : Thread nD τ) arg2 fullShare x0 ∗ owns (c : Thread nD τ) arg3 fullShare x1
              ∗ owns (c : Thread nD τ) arg4 fullShare (bodyOut x0 x1 g)) -∗ K ⟨⟩))
        ⊢ wp frame (wpE (defs₀ (F := F)) Variants.none c none) E (cc0__kernel i arg2 harg2 arg3 harg3 arg4 harg4) K := by
  intro E K
  simp only [cc0__kernel_eq_skeleton]; unfold cc0__kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1
  sl_exec (disch := first | exact hc0)
  iapply (loop_run c i arg2 harg2 arg3 harg3 arg4 harg4 (harg2.unread x0) (harg3.unread x1) f2 E K)
  isplitl [H0]; · iexact H0
  isplitl [H1]; · iexact H1
  isplitl [H2]; · iexact H2
  iintro ⟨H0, H1, H2⟩
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  rw [read_accAt arg2 harg2 arg3 harg3 arg4 x0 x1 f2, hf2]

set_option maxHeartbeats 1000000 in
/-- A block's first channel (`c = 0`): whatever the output buffer held, the seed is stored over all of it and the loop
    runs on the seed. -/
theorem run_first (c : Dev nD) (i : grid0.Coords) (arg2 : Memref sig .tc .vmem S4x1x512x512 .f32) (harg2 : arg2.IsWhole)
    (arg3 : Memref sig .tc .vmem S1x4x16x16 .i32) (harg3 : arg3.IsWhole) (arg4 : Memref sig .tc .vmem S4x16x16 .f32) (harg4 : arg4.IsWhole)
    (hc0 : cond0 i) (x0 : Vec F S4x1x512x512 .f32) (x1 : Vec F S1x4x16x16 .i32) :
    ∀ (E : Set ℕ) (K : PUnit → sProp 𝕄),
      iprop(owns (c : Thread nD τ) arg2 fullShare x0 ∗ owns (c : Thread nD τ) arg3 fullShare x1 ∗ (∃ d, owns (c : Thread nD τ) arg4 fullShare d)
          ∗ (iprop(owns (c : Thread nD τ) arg2 fullShare x0 ∗ owns (c : Thread nD τ) arg3 fullShare x1
              ∗ owns (c : Thread nD τ) arg4 fullShare (bodyOut x0 x1 (k0_pay1 (F := F)))) -∗ K ⟨⟩))
        ⊢ wp frame (wpE (defs₀ (F := F)) Variants.none c none) E (cc0__kernel i arg2 harg2 arg3 harg3 arg4 harg4) K := by
  intro E K
  simp only [cc0__kernel_eq_skeleton]; unfold cc0__kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc0)
  iapply (loop_run c i arg2 harg2 arg3 harg3 arg4 harg4 (harg2.unread x0) (harg3.unread x1) _ E K)
  isplitl [H0]; · iexact H0
  isplitl [H1]; · iexact H1
  isplitl [H2]; · iexact H2
  iintro ⟨H0, H1, H2⟩
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  rw [read_accAt arg2 harg2 arg3 harg3 arg4 x0 x1]
  exact congrArg (bodyOut x0 x1) (read_seed arg4 _)

end Cert.Kernel.Body

end
-- ==== Proof.K.Data.lean ====
/-
  The pipeline's proof data, the body obligation, the run and the frame.

  Output block `i` (four images) is visited at the 24 consecutive points `24 i + c`, one per channel, and written back
  after the last. What it holds after point `t` is `bodyOut` of that point's two input blocks and of the seed when
  `c = 0`, else of what point `t - 1` left: a running maximum over the channels, started from the seed.
-/
import proofs.«413696_j43370579755026_3_alg».proof.Proof.K.Run

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two input blocks at point `t`, under their literal types. -/
abbrev xblk (c : Dev nD) (t : Fin cfg0.N) : Vec F S4x1x512x512 .f32 := iblk m c 0 t
abbrev lblk (c : Dev nD) (t : Fin cfg0.N) : Vec F S1x4x16x16 .i32 := iblk m c 1 t

/-- The output block after point `t`. -/
def outAt (c : Dev nD) : (t : ℕ) → t < cfg0.N → (S4x16x16.Idx → Elt F .f32)
  | 0, h => bodyOut (xblk m c ⟨0, h⟩) (lblk m c ⟨0, h⟩) (k0_pay1 (F := F))
  | t + 1, h => bodyOut (xblk m c ⟨t + 1, h⟩) (lblk m c ⟨t + 1, h⟩)
      (if (t + 1) % 24 = 0 then k0_pay1 (F := F) else outAt c t (Nat.lt_of_succ_lt h))

theorem outAt_first (c : Dev nD) (t : Fin cfg0.N) (h0 : t.val % 24 = 0) :
    outAt m c t.val t.isLt = bodyOut (xblk m c t) (lblk m c t) (k0_pay1 (F := F)) := by
  obtain ⟨tv, ht⟩ := t
  cases tv with
  | zero => rfl
  | succ n => simp only [outAt, if_pos h0]

theorem outAt_later (c : Dev nD) (t : Fin cfg0.N) (h0 : ¬t.val % 24 = 0) :
    outAt m c t.val t.isLt
      = bodyOut (xblk m c t) (lblk m c t) (outAt m c (t.val - 1) (Nat.lt_of_le_of_lt (Nat.sub_le _ _) t.isLt)) := by
  obtain ⟨tv, ht⟩ := t
  cases tv with
  | zero => exact absurd rfl h0
  | succ n => simp only [outAt, if_neg h0]; rfl

/-- The proof data of the one pipeline on core `c`: the arrays as the region finds them; after the body at point `t`
    each input's buffer at its block and the output's at `outAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a block's first channel the output's staging buffer is fresh: the first point, or the point after a write-back. -/
theorem before0_2_first (c : Dev nD) (t : Fin cfg0.N) (h0 : t.val % 24 = 0) (d) : (dats m 0 c).before 2 t d = d := by
  have hN : t.val < 48 := lt_of_lt_of_eq t.isLt (show cfg0.N = 48 from N_0)
  refine Dat.before_out_reset _ 2 rfl t ?_ d
  by_cases ht : t.val = 0
  · exact Or.inl ht
  · exact Or.inr ⟨ht, (flush0_2 _).mpr (by dsimp only; omega)⟩

/-- At a later channel it holds what the body left at the point before: not written back in between, live and uncut. -/
theorem before0_2_later (c : Dev nD) (t : Fin cfg0.N) (h0 : ¬t.val % 24 = 0) (d) :
    (dats m 0 c).before 2 t d = outAt m c (t.val - 1) (Nat.lt_of_le_of_lt (Nat.sub_le _ _) t.isLt) := by
  have hN : t.val < 48 := lt_of_lt_of_eq t.isLt (show cfg0.N = 48 from N_0)
  rw [Dat.before_out_kept _ 2 rfl t (by omega) (Bool.eq_false_iff.mpr fun h => by have := (flush0_2 _).mp h; dsimp only at this; omega)
    (fun _ => rfl) (fun _ _ => rfl)]
  dsimp only [dats]

/-- Each window's current staging memref at point `t`, as the pipeline passes it, and its wholeness. -/
abbrev ms0_0 (t : Fin cfg0.N) : Memref sig .tc .vmem S4x1x512x512 .f32 := win0_0.stage (cfg0.slots t 0)
abbrev ms0_1 (t : Fin cfg0.N) : Memref sig .tc .vmem S1x4x16x16 .i32 := win0_1.stage (cfg0.slots t 1)
abbrev ms0_2 (t : Fin cfg0.N) : Memref sig .tc .vmem S4x16x16 .f32 := win0_2.stage (cfg0.slots t 2)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' memrefs hold their blocks; the point's channel decides the case; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 24 = 0
  · simp only [before0_2_first m c t h0]
    rw [outAt_first m c t h0]
    iintro ⟨HΦ, Ho, ⟨%d0, H0⟩, ⟨%d1, H1⟩, ⟨%d2, H2⟩⟩
    iapply ((run_first c (grid0.coords t) _ _ _ _ _ _ ((hcond0 t).mpr h0) (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before0_2_later m c t h0]
    rw [outAt_later m c t h0]
    iintro ⟨HΦ, Ho, ⟨%d0, H0⟩, ⟨%d1, H1⟩, ⟨%d2, H2⟩⟩
    iapply ((run_later c (grid0.coords t) _ _ _ _ _ _ (fun h => h0 ((hcond0 t).mp h)) (iblk m c 0 t) (iblk m c 1 t)
      (outAt m c (t.val - 1) (Nat.lt_of_le_of_lt (Nat.sub_le _ _) t.isLt))) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- At the compiled mesh, from any memory with zero counters: every weakly fair execution of @main terminates, every
    array of the pipeline ends at what its write-backs leave (`Dat.arrAt`), and every other buffer at what the host
    operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Trip.lean ====
/-
  The kernel body's loop over the four images of a block, by an invariant.

  Trip `k` loads image `k`'s plane, its labels and slot `k` of the running maximum, and stores the updated slot `k`. No trip
  touches another trip's slot, so before trip `k` the output buffer holds the entry contents with the slots below `k`
  updated one after the other; the two input buffers are only read.
-/
import proofs.«413696_j43370579755026_3_alg».proof.Proof.Gen.KernelIdeal.Frame
import proofs.«413696_j43370579755026_3_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Trip

variable (arg2 : Memref sig .tc .vmem S4x1x512x512 .f32) (arg3 : Memref sig .tc .vmem S1x4x16x16 .i32)
  (arg4 : Memref sig .tc .vmem S4x16x16 .f32)
  (X2 : BufTy.Contents (Elt F) arg2.view.ty) (X3 : BufTy.Contents (Elt F) arg3.view.ty)

/-- What trip `k` stores, given the output buffer's contents `f4` it finds: slot `k`, at the payload of the three loads. -/
def tripPiece (f4 : BufTy.Contents (Elt F) arg4.view.ty) (k : Fin k0_t1_loop.trips) : View.Piece (Elt F) S4x16x16 .f32 :=
  ⟨Rect.unit (s := S4x16x16) (k0_off3 k) S1x16x16.size (k0_off3_inb k),
    k0_pay2 (View.readAt (Elt F) arg2.view (Rect.unit (s := S4x1x512x512) (k0_off1 k) S1x1x512x512.size (k0_off1_inb k)).toLoadRect X2)
      (View.readAt (Elt F) arg3.view (Rect.unit (s := S1x4x16x16) (k0_off2 k) S1x1x16x16.size (k0_off2_inb k)).toLoadRect X3)
      (View.readAt (Elt F) arg4.view (Rect.unit (s := S4x16x16) (k0_off3 k) S1x16x16.size (k0_off3_inb k)).toLoadRect f4)⟩

/-- The output buffer's contents before trip `k`, from the contents `G` at the loop's entry: each earlier trip's store
    over what the trips before it left. -/
def accAt (G : BufTy.Contents (Elt F) arg4.view.ty) : ℕ → BufTy.Contents (Elt F) arg4.view.ty
  | 0 => G
  | k + 1 =>
    if h : k < k0_t1_loop.trips then
      arg4.view.writes (Elt F) (accAt G k) [tripPiece arg2 arg3 arg4 X2 X3 (accAt G k) ⟨k, h⟩]
    else accAt G k

theorem accAt_succ (G : BufTy.Contents (Elt F) arg4.view.ty) (k : Fin k0_t1_loop.trips) :
    accAt arg2 arg3 arg4 X2 X3 G (k.val + 1)
      = arg4.view.writes (Elt F) (accAt arg2 arg3 arg4 X2 X3 G k.val) [tripPiece arg2 arg3 arg4 X2 X3 (accAt arg2 arg3 arg4 X2 X3 G k.val) k] := by
  rw [accAt, dif_pos k.isLt]

/-- The loop's invariant before trip `k`: the inputs as found, the output at `accAt G k`. -/
def loopInv (c : Dev nD) (G : BufTy.Contents (Elt F) arg4.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} accAt arg2 arg3 arg4 X2 X3 G k))

/-- One trip at a symbolic `k` takes the invariant at `k` to the invariant at `k + 1`. -/
theorem loop_step (c : Dev nD) (i : grid0.Coords) (harg2 : arg2.IsWhole) (harg3 : arg3.IsWhole) (harg4 : arg4.IsWhole)
    (G : BufTy.Contents (Elt F) arg4.view.ty) (E : Set ℕ) (k : Fin k0_t1_loop.trips) (acc : PUnit) :
    loopInv arg2 arg3 arg4 X2 X3 c G k.val acc
      ⊢ wp frame (wpE (defs₀ (F := F)) Variants.none (c : Thread nD τ) none) E (k0_t1_body (F := F) i arg2 harg2 arg3 harg3 arg4 harg4 k acc)
          (loopInv arg2 arg3 arg4 X2 X3 c G (k.val + 1)) := by
  have hk : k.val < 4 := k.isLt
  unfold loopInv k0_t1_body
  iintro ⟨H2, H3, H4⟩
  sl_exec
  sl_step
  isplitl [H2]; · iexact H2
  isplitl [H3]; · iexact H3
  rw [accAt_succ]
  iexact H4

end Trip

end Cert.KernelIdeal.Body

end
-- ==== Proof.KI.Out.lean ====
/-
  What the kernel body leaves in the output block, as a function of what it finds.

  With the two input blocks `x0` (four image planes) and `x1` (their labels) and the output block's contents `g` at the
  loop's entry, slot `k` of the output ends at the trip's payload of plane `k`, label plane `k` and slot `k` of `g`; no
  trip reads or writes another slot. At a block's first channel the body first stores the seed over the whole block.
-/
import proofs.«413696_j43370579755026_3_alg».proof.Proof.KI.Trip
import Idealize.ShloMosaic.Lib.WholeRead
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The loop has four trips. -/
theorem trips_eq : k0_t1_loop.trips = 4 := by decide

/-- Slot `k`'s payload, from the blocks' contents: the trip's three loads read `x0`, `x1` and `g` at the load's index. -/
def slotPay (x0 : S4x1x512x512.Idx → Elt F .f32) (x1 : S1x4x16x16.Idx → Elt F .i32) (g : S4x16x16.Idx → Elt F .f32)
    (k : Fin k0_t1_loop.trips) : FVec F S1x16x16 .f32 :=
  k0_pay2 (fun x => x0 ((Rect.unit (s := S4x1x512x512) (k0_off1 k) S1x1x512x512.size (k0_off1_inb k)).toLoadRect.idx x))
    (fun x => x1 ((Rect.unit (s := S1x4x16x16) (k0_off2 k) S1x1x16x16.size (k0_off2_inb k)).toLoadRect.idx x))
    (fun x => g ((Rect.unit (s := S4x16x16) (k0_off3 k) S1x16x16.size (k0_off3_inb k)).toLoadRect.idx x))

/-- The output block after the loop: at `(n, p, q)`, slot `n`'s payload at `(0, p, q)`. -/
def bodyOut (x0 : S4x1x512x512.Idx → Elt F .f32) (x1 : S1x4x16x16.Idx → Elt F .i32) (g : S4x16x16.Idx → Elt F .f32) :
    S4x16x16.Idx → Elt F .f32 :=
  fun y => slotPay x0 x1 g ⟨(y 0).val, trips_eq ▸ (y 0).isLt⟩
    (fun a => match a with
      | ⟨0, _⟩ => (⟨0, by decide⟩ : Fin 1)
      | ⟨1, _⟩ => (⟨(y 1).val, (y 1).isLt⟩ : Fin 16)
      | ⟨2, _⟩ => (⟨(y 2).val, (y 2).isLt⟩ : Fin 16))

/-- The seed store, over any earlier contents, reads as the seed payload everywhere. -/
theorem read_seed (arg4 : Memref sig .tc .vmem S4x16x16 .f32) (d : BufTy.Contents (Elt F) arg4.view.ty) :
    arg4.view.read (Elt F) (arg4.view.writes (Elt F) d
        [(⟨Rect.unit (s := S4x16x16) ![0, 0, 0] S4x16x16.size inb_S4x16x16_S4x16x16_0_0_0, k0_pay1 (F := F)⟩ : View.Piece (Elt F) S4x16x16 .f32)])
      = k0_pay1 (F := F) := by
  funext y
  refine View.read_writes_cons_unit_of_mem arg4.view d inb_S4x16x16_S4x16x16_0_0_0 (k0_pay1 (F := F)) [] y y rfl ?_
  intro a
  match a with
  | ⟨0, _⟩ => exact (Nat.zero_add _).symm
  | ⟨1, _⟩ => exact (Nat.zero_add _).symm
  | ⟨2, _⟩ => exact (Nat.zero_add _).symm

/-- The output buffer before trip `k`: the slots below `k` hold their payloads, the others the entry contents. -/
private theorem read_accAt_aux (arg2 : Memref sig .tc .vmem S4x1x512x512 .f32) (harg2 : arg2.IsWhole)
    (arg3 : Memref sig .tc .vmem S1x4x16x16 .i32) (harg3 : arg3.IsWhole) (arg4 : Memref sig .tc .vmem S4x16x16 .f32)
    (x0 : S4x1x512x512.Idx → Elt F .f32) (x1 : S1x4x16x16.Idx → Elt F .i32)
    (G : BufTy.Contents (Elt F) arg4.view.ty) :
    ∀ k, k ≤ k0_t1_loop.trips → ∀ y : S4x16x16.Idx,
      arg4.view.read (Elt F) (accAt arg2 arg3 arg4 (harg2.unread x0) (harg3.unread x1) G k) y
        = if (y 0).val < k then bodyOut x0 x1 (arg4.view.read (Elt F) G) y else arg4.view.read (Elt F) G y := by
  intro k
  induction k with
  | zero =>
    intro _ y
    rw [if_neg (Nat.not_lt_zero _)]
    rfl
  | succ k ih =>
    intro hk y
    have h : k < k0_t1_loop.trips := hk
    have ihk := ih (Nat.le_of_lt h)
    refine (congrArg (fun f => arg4.view.read (Elt F) f y)
      (accAt_succ arg2 arg3 arg4 (harg2.unread x0) (harg3.unread x1) G ⟨k, h⟩)).trans ?_
    unfold tripPiece
    refine (View.read_writes_cons_unit arg4.view _ (k0_off3_inb ⟨k, h⟩) _ [] y (k0_off3_eq ⟨k, h⟩)).trans ?_
    have e0 : k0_off3 ⟨k, h⟩ 0 = k := by rw [k0_off3_eq]; rfl
    by_cases hy : (y 0).val = k
    · have hmem : ∀ a : Fin S4x16x16.rank,
          (![(⟨k, h⟩ : Fin k0_t1_loop.trips).val, 0, 0] : Fin 3 → ℕ) a ≤ (y a).val
            ∧ (y a).val < (![(⟨k, h⟩ : Fin k0_t1_loop.trips).val, 0, 0] : Fin 3 → ℕ) a + S1x16x16.size a := by
        intro a
        match a with
        | ⟨0, _⟩ => exact ⟨Nat.le_of_eq hy.symm, by show (y 0).val < k + 1; omega⟩
        | ⟨1, _⟩ => exact ⟨Nat.zero_le _, by
            have h1 : (y 1).val < 16 := (y 1).isLt
            show (y 1).val < 0 + 16
            omega⟩
        | ⟨2, _⟩ => exact ⟨Nat.zero_le _, by
            have h2 : (y 2).val < 16 := (y 2).isLt
            show (y 2).val < 0 + 16
            omega⟩
      rw [dif_pos hmem, if_pos (by omega)]
      have hslot : (⟨(y 0).val, trips_eq ▸ (y 0).isLt⟩ : Fin k0_t1_loop.trips) = ⟨k, h⟩ := Fin.ext hy
      unfold bodyOut
      rw [hslot]
      unfold slotPay
      have hA2 : View.readAt (Elt F) arg2.view
            (Rect.unit (s := S4x1x512x512) (k0_off1 ⟨k, h⟩) S1x1x512x512.size (k0_off1_inb ⟨k, h⟩)).toLoadRect (harg2.unread x0)
          = fun x => x0 ((Rect.unit (s := S4x1x512x512) (k0_off1 ⟨k, h⟩) S1x1x512x512.size (k0_off1_inb ⟨k, h⟩)).toLoadRect.idx x) :=
        funext fun x => harg2.readAt_unread x0 _ x
      have hA3 : View.readAt (Elt F) arg3.view
            (Rect.unit (s := S1x4x16x16) (k0_off2 ⟨k, h⟩) S1x1x16x16.size (k0_off2_inb ⟨k, h⟩)).toLoadRect (harg3.unread x1)
          = fun x => x1 ((Rect.unit (s := S1x4x16x16) (k0_off2 ⟨k, h⟩) S1x1x16x16.size (k0_off2_inb ⟨k, h⟩)).toLoadRect.idx x) :=
        funext fun x => harg3.readAt_unread x1 _ x
      have hA4 : View.readAt (Elt F) arg4.view
            (Rect.unit (s := S4x16x16) (k0_off3 ⟨k, h⟩) S1x16x16.size (k0_off3_inb ⟨k, h⟩)).toLoadRect
            (accAt arg2 arg3 arg4 (harg2.unread x0) (harg3.unread x1) G k)
          = fun x => arg4.view.read (Elt F) G
              ((Rect.unit (s := S4x16x16) (k0_off3 ⟨k, h⟩) S1x16x16.size (k0_off3_inb ⟨k, h⟩)).toLoadRect.idx x) :=
        funext fun x => by
          rw [View.readAt_apply, ihk]
          refine if_neg ?_
          show ¬ (k0_off3 ⟨k, h⟩ 0 + 1 * (x 0).val < k)
          rw [e0]
          omega
      have hloc : Rect.unitLocal (s := S4x16x16) (off := ![(⟨k, h⟩ : Fin k0_t1_loop.trips).val, 0, 0]) (size := S1x16x16.size) y hmem
          = (fun a => match a with
              | ⟨0, _⟩ => (⟨0, by decide⟩ : Fin 1)
              | ⟨1, _⟩ => (⟨(y 1).val, (y 1).isLt⟩ : Fin 16)
              | ⟨2, _⟩ => (⟨(y 2).val, (y 2).isLt⟩ : Fin 16)) := by
        funext a
        match a with
        | ⟨0, _⟩ => exact Fin.ext (by show (y 0).val - k = 0; omega)
        | ⟨1, _⟩ => exact Fin.ext (by show (y 1).val - 0 = (y 1).val; omega)
        | ⟨2, _⟩ => exact Fin.ext (by show (y 2).val - 0 = (y 2).val; omega)
      rw [hloc]
      rw [hA2, hA3]
      exact congrArg (fun c => k0_pay2 _ _ c _) hA4
    · have hnot : ¬ ∀ a : Fin S4x16x16.rank,
          (![(⟨k, h⟩ : Fin k0_t1_loop.trips).val, 0, 0] : Fin 3 → ℕ) a ≤ (y a).val
            ∧ (y a).val < (![(⟨k, h⟩ : Fin k0_t1_loop.trips).val, 0, 0] : Fin 3 → ℕ) a + S1x16x16.size a := by
        intro hall
        have h0 := hall 0
        have h1 : k ≤ (y 0).val := h0.1
        have h2 : (y 0).val < k + 1 := h0.2
        omega
      rw [dif_neg hnot, View.writes_nil]
      refine (ihk y).trans ?_
      by_cases hlt : (y 0).val < k
      · rw [if_pos hlt, if_pos (by omega)]
      · rw [if_neg hlt, if_neg (by omega)]

/-- After the four trips, from whole input memrefs held at the contents that read `x0` and `x1` and an output memref
    whose entry contents `G` read `g`, the output memref reads `bodyOut x0 x1 g`. -/
theorem read_accAt (arg2 : Memref sig .tc .vmem S4x1x512x512 .f32) (harg2 : arg2.IsWhole)
    (arg3 : Memref sig .tc .vmem S1x4x16x16 .i32) (harg3 : arg3.IsWhole) (arg4 : Memref sig .tc .vmem S4x16x16 .f32)
    (x0 : S4x1x512x512.Idx → Elt F .f32) (x1 : S1x4x16x16.Idx → Elt F .i32)
    (G : BufTy.Contents (Elt F) arg4.view.ty) :
    arg4.view.read (Elt F) (accAt arg2 arg3 arg4 (harg2.unread x0) (harg3.unread x1) G k0_t1_loop.trips)
      = bodyOut x0 x1 (arg4.view.read (Elt F) G) := by
  funext y
  refine (read_accAt_aux arg2 harg2 arg3 harg3 arg4 x0 x1 G k0_t1_loop.trips (Nat.le_refl _) y).trans ?_
  exact if_pos (trips_eq ▸ (y 0).isLt)

end Cert.KernelIdeal.Body

end
-- ==== Proof.KI.Run.lean ====
/-
  The kernel body at one grid point, run in its two cases.

  At a block's first channel (`c = 0`) the body stores the seed over the whole output block and then runs the loop; at
  every other channel it runs the loop on what the point before left there. Either way the two input blocks are only
  read, and the output block ends at `bodyOut` of the inputs and of the contents the loop started from.
-/
import proofs.«413696_j43370579755026_3_alg».proof.Proof.KI.Out

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinates: the channel coordinate is zero. -/
abbrev cond0 (i : grid0.Coords) : Prop := (Scalar.cmpi .ne (Scalar.extui (Scalar.cmpi .eq (BitVec.ofNat 32 (i 1).val) 0#32)) 0#32) = 1#1
/-- It holds at the points that are multiples of 24, the 24 channels being the grid's fastest axis. -/
theorem hcond0 : ∀ t : Fin cfg0.N, cond0 (grid0.coords t) ↔ t.val % 24 = 0 :=
  (by decide +kernel : ∀ t : Fin grid0.N, cond0 (grid0.coords t) ↔ t.val % 24 = 0)

set_option maxHeartbeats 1000000 in
/-- The loop and the return after it, from any contents `G` of the output buffer: the inputs are handed on as found, the
    output at the contents the four trips leave over `G`. -/
theorem loop_run (c : Dev nD) (i : grid0.Coords) (arg2 : Memref sig .tc .vmem S4x1x512x512 .f32) (harg2 : arg2.IsWhole)
    (arg3 : Memref sig .tc .vmem S1x4x16x16 .i32) (harg3 : arg3.IsWhole) (arg4 : Memref sig .tc .vmem S4x16x16 .f32) (harg4 : arg4.IsWhole)
    (X2 : BufTy.Contents (Elt F) arg2.view.ty) (X3 : BufTy.Contents (Elt F) arg3.view.ty) (G : BufTy.Contents (Elt F) arg4.view.ty)
    (E : Set ℕ) (K : PUnit → sProp 𝕄) :
    iprop((arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} G)
        ∗ (iprop((arg2.view.loc (c : Thread nD τ) ↦[arg2.view.set]{fullShare} X2) ∗ (arg3.view.loc (c : Thread nD τ) ↦[arg3.view.set]{fullShare} X3)
            ∗ (arg4.view.loc (c : Thread nD τ) ↦[arg4.view.set]{fullShare} accAt arg2 arg3 arg4 X2 X3 G k0_t1_loop.trips)) -∗ K ⟨⟩))
      ⊢ wp frame (wpE (defs₀ (F := F)) Variants.none c none) E
          (do Scf.Loop.for k0_t1_loop k0_t1_ok ⟨⟩ (k0_t1_body (F := F) i arg2 harg2 arg3 harg3 arg4 harg4); pure ⟨⟩) K := by
  iintro ⟨H0, H1, H2, Hk⟩
  sl_for (loopInv arg2 arg3 arg4 X2 X3 c G) $$ [H0 H1 H2]
  · intro k acc
    exact loop_step arg2 arg3 arg4 X2 X3 c i harg2 harg3 harg4 G E k acc
  · unfold loopInv
    isplitl [H0]; · iexact H0
    isplitl [H1]; · iexact H1
    iexact H2
  · iintro %acc HI
    unfold loopInv
    icases HI with ⟨H0, H1, H2⟩
    sl_exec
    sl_step
    iapply Hk
    isplitl [H0]; · iexact H0
    isplitl [H1]; · iexact H1
    iexact H2

set_option maxHeartbeats 1000000 in
/-- A later channel (`c ≠ 0`): the branch is not taken and the loop runs on the block `g` the point before left. -/
theorem run_later (c : Dev nD) (i : grid0.Coords) (arg2 : Memref sig .tc .vmem S4x1x512x512 .f32) (harg2 : arg2.IsWhole)
    (arg3 : Memref sig .tc .vmem S1x4x16x16 .i32) (harg3 : arg3.IsWhole) (arg4 : Memref sig .tc .vmem S4x16x16 .f32) (harg4 : arg4.IsWhole)
    (hc0 : ¬cond0 i) (x0 : Vec F S4x1x512x512 .f32) (x1 : Vec F S1x4x16x16 .i32) (g : Vec F S4x16x16 .f32) :
    ∀ (E : Set ℕ) (K : PUnit → sProp 𝕄),
      iprop(owns (c : Thread nD τ) arg2 fullShare x0 ∗ owns (c : Thread nD τ) arg3 fullShare x1 ∗ owns (c : Thread nD τ) arg4 fullShare g
          ∗ (iprop(owns (c : Thread nD τ) arg2 fullShare x0 ∗ owns (c : Thread nD τ) arg3 fullShare x1
              ∗ owns (c : Thread nD τ) arg4 fullShare (bodyOut x0 x1 g)) -∗ K ⟨⟩))
        ⊢ wp frame (wpE (defs₀ (F := F)) Variants.none c none) E (cc0__kernel i arg2 harg2 arg3 harg3 arg4 harg4) K := by
  intro E K
  simp only [cc0__kernel_eq_skeleton]; unfold cc0__kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1
  sl_exec (disch := first | exact hc0)
  iapply (loop_run c i arg2 harg2 arg3 harg3 arg4 harg4 (harg2.unread x0) (harg3.unread x1) f2 E K)
  isplitl [H0]; · iexact H0
  isplitl [H1]; · iexact H1
  isplitl [H2]; · iexact H2
  iintro ⟨H0, H1, H2⟩
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  rw [read_accAt arg2 harg2 arg3 harg3 arg4 x0 x1 f2, hf2]

set_option maxHeartbeats 1000000 in
/-- A block's first channel (`c = 0`): whatever the output buffer held, the seed is stored over all of it and the loop
    runs on the seed. -/
theorem run_first (c : Dev nD) (i : grid0.Coords) (arg2 : Memref sig .tc .vmem S4x1x512x512 .f32) (harg2 : arg2.IsWhole)
    (arg3 : Memref sig .tc .vmem S1x4x16x16 .i32) (harg3 : arg3.IsWhole) (arg4 : Memref sig .tc .vmem S4x16x16 .f32) (harg4 : arg4.IsWhole)
    (hc0 : cond0 i) (x0 : Vec F S4x1x512x512 .f32) (x1 : Vec F S1x4x16x16 .i32) :
    ∀ (E : Set ℕ) (K : PUnit → sProp 𝕄),
      iprop(owns (c : Thread nD τ) arg2 fullShare x0 ∗ owns (c : Thread nD τ) arg3 fullShare x1 ∗ (∃ d, owns (c : Thread nD τ) arg4 fullShare d)
          ∗ (iprop(owns (c : Thread nD τ) arg2 fullShare x0 ∗ owns (c : Thread nD τ) arg3 fullShare x1
              ∗ owns (c : Thread nD τ) arg4 fullShare (bodyOut x0 x1 (k0_pay1 (F := F)))) -∗ K ⟨⟩))
        ⊢ wp frame (wpE (defs₀ (F := F)) Variants.none c none) E (cc0__kernel i arg2 harg2 arg3 harg3 arg4 harg4) K := by
  intro E K
  simp only [cc0__kernel_eq_skeleton]; unfold cc0__kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := first | exact hc0)
  iapply (loop_run c i arg2 harg2 arg3 harg3 arg4 harg4 (harg2.unread x0) (harg3.unread x1) _ E K)
  isplitl [H0]; · iexact H0
  isplitl [H1]; · iexact H1
  isplitl [H2]; · iexact H2
  iintro ⟨H0, H1, H2⟩
  iapply Hk
  isplitl [H0]
  · iexists _; isplitr; · ipureintro; exact harg2.read_unread _
    iexact H0
  isplitl [H1]
  · iexists _; isplitr; · ipureintro; exact harg3.read_unread _
    iexact H1
  iexists _; isplitr; swap; · iexact H2
  ipureintro
  rw [read_accAt arg2 harg2 arg3 harg3 arg4 x0 x1]
  exact congrArg (bodyOut x0 x1) (read_seed arg4 _)

end Cert.KernelIdeal.Body

end
-- ==== Proof.KI.Data.lean ====
/-
  The pipeline's proof data, the body obligation, the run and the frame.

  Output block `i` (four images) is visited at the 24 consecutive points `24 i + c`, one per channel, and written back
  after the last. What it holds after point `t` is `bodyOut` of that point's two input blocks and of the seed when
  `c = 0`, else of what point `t - 1` left: a running maximum over the channels, started from the seed.
-/
import proofs.«413696_j43370579755026_3_alg».proof.Proof.KI.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two input blocks at point `t`, under their literal types. -/
abbrev xblk (c : Dev nD) (t : Fin cfg0.N) : Vec F S4x1x512x512 .f32 := iblk m c 0 t
abbrev lblk (c : Dev nD) (t : Fin cfg0.N) : Vec F S1x4x16x16 .i32 := iblk m c 1 t

/-- The output block after point `t`. -/
def outAt (c : Dev nD) : (t : ℕ) → t < cfg0.N → (S4x16x16.Idx → Elt F .f32)
  | 0, h => bodyOut (xblk m c ⟨0, h⟩) (lblk m c ⟨0, h⟩) (k0_pay1 (F := F))
  | t + 1, h => bodyOut (xblk m c ⟨t + 1, h⟩) (lblk m c ⟨t + 1, h⟩)
      (if (t + 1) % 24 = 0 then k0_pay1 (F := F) else outAt c t (Nat.lt_of_succ_lt h))

theorem outAt_first (c : Dev nD) (t : Fin cfg0.N) (h0 : t.val % 24 = 0) :
    outAt m c t.val t.isLt = bodyOut (xblk m c t) (lblk m c t) (k0_pay1 (F := F)) := by
  obtain ⟨tv, ht⟩ := t
  cases tv with
  | zero => rfl
  | succ n => simp only [outAt, if_pos h0]

theorem outAt_later (c : Dev nD) (t : Fin cfg0.N) (h0 : ¬t.val % 24 = 0) :
    outAt m c t.val t.isLt
      = bodyOut (xblk m c t) (lblk m c t) (outAt m c (t.val - 1) (Nat.lt_of_le_of_lt (Nat.sub_le _ _) t.isLt)) := by
  obtain ⟨tv, ht⟩ := t
  cases tv with
  | zero => exact absurd rfl h0
  | succ n => simp only [outAt, if_neg h0]; rfl

/-- The proof data of the one pipeline on core `c`: the arrays as the region finds them; after the body at point `t`
    each input's buffer at its block and the output's at `outAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a block's first channel the output's staging buffer is fresh: the first point, or the point after a write-back. -/
theorem before0_2_first (c : Dev nD) (t : Fin cfg0.N) (h0 : t.val % 24 = 0) (d) : (dats m 0 c).before 2 t d = d := by
  have hN : t.val < 48 := lt_of_lt_of_eq t.isLt (show cfg0.N = 48 from N_0)
  refine Dat.before_out_reset _ 2 rfl t ?_ d
  by_cases ht : t.val = 0
  · exact Or.inl ht
  · exact Or.inr ⟨ht, (flush0_2 _).mpr (by dsimp only; omega)⟩

/-- At a later channel it holds what the body left at the point before: not written back in between, live and uncut. -/
theorem before0_2_later (c : Dev nD) (t : Fin cfg0.N) (h0 : ¬t.val % 24 = 0) (d) :
    (dats m 0 c).before 2 t d = outAt m c (t.val - 1) (Nat.lt_of_le_of_lt (Nat.sub_le _ _) t.isLt) := by
  have hN : t.val < 48 := lt_of_lt_of_eq t.isLt (show cfg0.N = 48 from N_0)
  rw [Dat.before_out_kept _ 2 rfl t (by omega) (Bool.eq_false_iff.mpr fun h => by have := (flush0_2 _).mp h; dsimp only at this; omega)
    (fun _ => rfl) (fun _ _ => rfl)]
  dsimp only [dats]

/-- Each window's current staging memref at point `t`, as the pipeline passes it, and its wholeness. -/
abbrev ms0_0 (t : Fin cfg0.N) : Memref sig .tc .vmem S4x1x512x512 .f32 := win0_0.stage (cfg0.slots t 0)
abbrev ms0_1 (t : Fin cfg0.N) : Memref sig .tc .vmem S1x4x16x16 .i32 := win0_1.stage (cfg0.slots t 1)
abbrev ms0_2 (t : Fin cfg0.N) : Memref sig .tc .vmem S4x16x16 .f32 := win0_2.stage (cfg0.slots t 2)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' memrefs hold their blocks; the point's channel decides the case; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 24 = 0
  · simp only [before0_2_first m c t h0]
    rw [outAt_first m c t h0]
    iintro ⟨HΦ, Ho, ⟨%d0, H0⟩, ⟨%d1, H1⟩, ⟨%d2, H2⟩⟩
    iapply ((run_first c (grid0.coords t) _ _ _ _ _ _ ((hcond0 t).mpr h0) (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before0_2_later m c t h0]
    rw [outAt_later m c t h0]
    iintro ⟨HΦ, Ho, ⟨%d0, H0⟩, ⟨%d1, H1⟩, ⟨%d2, H2⟩⟩
    iapply ((run_later c (grid0.coords t) _ _ _ _ _ _ (fun h => h0 ((hcond0 t).mp h)) (iblk m c 0 t) (iblk m c 1 t)
      (outAt m c (t.val - 1) (Nat.lt_of_le_of_lt (Nat.sub_le _ _) t.isLt))) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- At the compiled mesh, from any memory with zero counters: every weakly fair execution of @main terminates, every
    array of the pipeline ends at what its write-backs leave (`Dat.arrAt`), and every other buffer at what the host
    operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.RefRunHand.lean ====
/-
  The reference's run, read back by hand: every weakly fair execution of the reference terminates without a fault with
  its result at the last stage of its seventy host operations — each stage a named function of the two arguments — and
  the arguments as launched. Dropping the result gives the reference's frame.

  The seventy operations are cut into eight consecutive stretches. For each stretch, from any buffer contents that hold
  the stages the stretch reads, the contents after the stretch hold the stages that later stretches read; the facts are
  carried from one stretch to the next, and the last one is the result's.
-/
import proofs.«413696_j43370579755026_3_alg».proof.Defs
import proofs.«413696_j43370579755026_3_alg».proof.Proof.ReadP
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second's over the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Contents moved to a typed reference's buffer type and back are the contents. -/
private theorem ofBuf_toBuf {T : BufTy} (x : TRef sig T) (v : T.Contents (Elt F)) : x.ofBuf (x.toBuf v) = v := by
  obtain ⟨r, h, a, b⟩ := x
  subst h
  rfl

/-! ## Operations 1–10: the two patch re-layouts -/

/-- Operations 1–10: the patch re-layout of the scores and that of the labels, the latter cut to its first 24 rows. -/
abbrev opsA : List (HloOp τ sig (Elt F)) :=
  [ unary main_arg1 main_v0 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    reshape main_arg0 main_v1 rfl shapeCasts_S8x24x512x512_S8x24x32x16x32x16,
    unary main_v1 main_v2 ((transpose S8x32x32x16x16x24 [0, 2, 4, 3, 5, 1] · transposes_S8x24x32x16x32x16_S8x32x32x16x16x24_0_2_4_3_5_1) : (⟨S8x24x32x16x32x16, .f32⟩ : BufTy).Contents (Elt F) → (⟨S8x32x32x16x16x24, .f32⟩ : BufTy).Contents (Elt F)),
    reshape main_v2 main_v3 rfl shapeCasts_S8x32x32x16x16x24_S8x1024x256x24,
    unary main_v3 main_v4 ((transpose S8x24x1024x256 [0, 3, 1, 2] · transposes_S8x1024x256x24_S8x24x1024x256_0_3_1_2) : (⟨S8x1024x256x24, .f32⟩ : BufTy).Contents (Elt F) → (⟨S8x24x1024x256, .f32⟩ : BufTy).Contents (Elt F)),
    reshape main_v0 main_v5 rfl shapeCasts_S8x1x512x512_S8x1x32x16x32x16,
    unary main_v5 main_v6 ((transpose S8x32x32x16x16x1 [0, 2, 4, 3, 5, 1] · transposes_S8x1x32x16x32x16_S8x32x32x16x16x1_0_2_4_3_5_1) : (⟨S8x1x32x16x32x16, .i32⟩ : BufTy).Contents (Elt F) → (⟨S8x32x32x16x16x1, .i32⟩ : BufTy).Contents (Elt F)),
    reshape main_v6 main_v7 rfl shapeCasts_S8x32x32x16x16x1_S8x1024x256x1,
    reshape main_v7 main_v8 rfl shapeCasts_S8x1024x256x1_S8x1024x256,
    unary main_v8 main_v9 ((extractStridedSlice S8x24x256 ![0, 0, 0] · slices_S8x1024x256_S8x24x256_0_0_0) : (⟨S8x1024x256, .i32⟩ : BufTy).Contents (Elt F) → (⟨S8x24x256, .i32⟩ : BufTy).Contents (Elt F)) ]

/-- After them the re-laid scores and labels are the stages of the two arguments. -/
theorem stageA (V : Valuation τ sig (Elt F)) :
    after opsA V (main_v4 : DevRef τ sig) = ReadP.val_main_v4 (F := F) (V (main_arg0 : DevRef τ sig))
    ∧ after opsA V (main_v9 : DevRef τ sig) = ReadP.val_main_v9 (F := F) (V (main_arg1 : DevRef τ sig)) := by
  refine ⟨?_, ?_⟩
  · after_results_simp
    rfl
  · after_results_simp
    rfl

/-! ## Operations 11–25: the log-softmax along the group axis -/

/-- Operations 11–25: the maximum along the group axis, the shifted scores, the logarithm of the sum of their exponentials, and the difference. -/
abbrev opsB : List (HloOp τ sig (Elt F)) :=
  [ TRef.nullary (TRef.of (T := ⟨S_, .f32⟩) main_call0_cst) (constant S_ .f32 0xFF800000#32),
    TRef.binary (TRef.of (T := ⟨S8x24x1024x256, .f32⟩) main_v4) (TRef.of (T := ⟨S_, .f32⟩) main_call0_cst) (TRef.of (T := ⟨S8x24x256, .f32⟩) main_call0_v0) (fun x v => Host.reduce FloatOps.maximumf x v reducesTo_S8x24x1024x256_S8x24x256_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S8x24x256, .f32⟩) main_call0_v1) (broadcastInDim S8x24x256 ![] bcast_S_S8x24x256),
    TRef.binary (TRef.of (T := ⟨S8x24x256, .f32⟩) main_call0_v1) (TRef.of (T := ⟨S8x24x256, .f32⟩) main_call0_v0) (TRef.of (T := ⟨S8x24x256, .f32⟩) main_call0_v2) maximumf,
    TRef.unary (TRef.of (T := ⟨S8x24x256, .f32⟩) main_call0_v2) (TRef.of (T := ⟨S8x24x1x256, .f32⟩) main_call0_v3) (broadcastInDim S8x24x1x256 ![0, 1, 3] bcast_S8x24x256_S8x24x1x256_0_1_3),
    TRef.unary (TRef.of (T := ⟨S8x24x1x256, .f32⟩) main_call0_v3) (TRef.of (T := ⟨S8x24x1024x256, .f32⟩) main_call0_v4) (broadcastInDim S8x24x1024x256 ![0, 1, 2, 3] bcast_S8x24x1x256_S8x24x1024x256_0_1_2_3),
    TRef.binary (TRef.of (T := ⟨S8x24x1024x256, .f32⟩) main_v4) (TRef.of (T := ⟨S8x24x1024x256, .f32⟩) main_call0_v4) (TRef.of (T := ⟨S8x24x1024x256, .f32⟩) main_call0_v5) subf,
    TRef.unary (TRef.of (T := ⟨S8x24x1024x256, .f32⟩) main_call0_v5) (TRef.of (T := ⟨S8x24x1024x256, .f32⟩) main_call0_v6) Host.exp,
    TRef.nullary (TRef.of (T := ⟨S_, .f32⟩) main_call0_cst_1) (constant S_ .f32 0x00000000#32),
    TRef.binary (TRef.of (T := ⟨S8x24x1024x256, .f32⟩) main_call0_v6) (TRef.of (T := ⟨S_, .f32⟩) main_call0_cst_1) (TRef.of (T := ⟨S8x24x256, .f32⟩) main_call0_v7) (fun x v => Host.reduceAdd x v reducesTo_S8x24x1024x256_S8x24x256_d2 h_S_),
    TRef.unary (TRef.of (T := ⟨S8x24x256, .f32⟩) main_call0_v7) (TRef.of (T := ⟨S8x24x1x256, .f32⟩) main_call0_v8) (broadcastInDim S8x24x1x256 ![0, 1, 3] bcast_S8x24x256_S8x24x1x256_0_1_3),
    TRef.unary (TRef.of (T := ⟨S8x24x1x256, .f32⟩) main_call0_v8) (TRef.of (T := ⟨S8x24x1x256, .f32⟩) main_call0_v9) Host.log,
    TRef.unary (TRef.of (T := ⟨S8x24x1x256, .f32⟩) main_call0_v9) (TRef.of (T := ⟨S8x24x1024x256, .f32⟩) main_call0_v10) (broadcastInDim S8x24x1024x256 ![0, 1, 2, 3] bcast_S8x24x1x256_S8x24x1024x256_0_1_2_3),
    TRef.binary (TRef.of (T := ⟨S8x24x1024x256, .f32⟩) main_call0_v5) (TRef.of (T := ⟨S8x24x1024x256, .f32⟩) main_call0_v10) (TRef.of (T := ⟨S8x24x1024x256, .f32⟩) main_v10) subf ]

/-- After them the log-softmax is its stage. -/
theorem stageB (V : Valuation τ sig (Elt F)) (x0 : (⟨S8x24x512x512, .f32⟩ : BufTy).Contents (Elt F)) (h4 : V (main_v4 : DevRef τ sig) = ReadP.val_main_v4 (F := F) x0) :
    after opsB V (main_v10 : DevRef τ sig) = ReadP.val_main_v10 (F := F) x0 := by
  after_results_simp
  rw [h4]
  simp only [ofBuf_toBuf]
  rfl

theorem keepB_main_v9 (V : Valuation τ sig (Elt F)) : after opsB V (main_v9 : DevRef τ sig) = V (main_v9 : DevRef τ sig) := by
  after_results_simp

/-! ## Operations 26–33: the ignore index replaced by class 0 -/

/-- Operations 26–33: the labels compared with the ignore index, class 0 selected there, and an axis of extent 1 inserted. -/
abbrev opsC : List (HloOp τ sig (Elt F)) :=
  [ nullary main_c (constantI S_ 32 4294967196#32),
    unary main_c main_v11 (broadcastInDim S8x24x256 ![] bcast_S_S8x24x256 : (⟨S_, .i32⟩ : BufTy).Contents (Elt F) → (⟨S8x24x256, .i32⟩ : BufTy).Contents (Elt F)),
    binary main_v9 main_v11 main_v12 (cmpi .eq : (⟨S8x24x256, .i32⟩ : BufTy).Contents (Elt F) → (⟨S8x24x256, .i32⟩ : BufTy).Contents (Elt F) → (⟨S8x24x256, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S8x24x256, .i32⟩) main_call1_v1) (broadcastInDim S8x24x256 ![] bcast_S_S8x24x256),
    TRef.ternary (TRef.of (T := ⟨S8x24x256, .i1⟩) main_v12) (TRef.of (T := ⟨S8x24x256, .i32⟩) main_call1_v1) (TRef.of (T := ⟨S8x24x256, .i32⟩) main_v9) (TRef.of (T := ⟨S8x24x256, .i32⟩) main_v13) select,
    unary main_v13 main_v14 (broadcastInDim S8x24x1x256 ![0, 1, 3] bcast_S8x24x256_S8x24x1x256_0_1_3 : (⟨S8x24x256, .i32⟩ : BufTy).Contents (Elt F) → (⟨S8x24x1x256, .i32⟩ : BufTy).Contents (Elt F)) ]

theorem stageC (V : Valuation τ sig (Elt F)) (x1 : (⟨S8x512x512, .i32⟩ : BufTy).Contents (Elt F)) (h9 : V (main_v9 : DevRef τ sig) = ReadP.val_main_v9 (F := F) x1) :
    after opsC V (main_v14 : DevRef τ sig) = ReadP.val_main_v14 (F := F) x1 := by
  after_results_simp
  rw [h9]
  rfl

theorem keepC_main_v9 (V : Valuation τ sig (Elt F)) : after opsC V (main_v9 : DevRef τ sig) = V (main_v9 : DevRef τ sig) := by
  after_results_simp

theorem keepC_main_v10 (V : Valuation τ sig (Elt F)) : after opsC V (main_v10 : DevRef τ sig) = V (main_v10 : DevRef τ sig) := by
  after_results_simp

/-! ## Operations 34–41: the index wrap -/

/-- Operations 34–41: a negative index has 1024 added, and a trailing axis of extent 1 is appended. -/
abbrev opsD : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8x24x1x256, .i32⟩) main_call2_v0) (broadcastInDim S8x24x1x256 ![] bcast_S_S8x24x1x256),
    TRef.binary (TRef.of (T := ⟨S8x24x1x256, .i32⟩) main_v14) (TRef.of (T := ⟨S8x24x1x256, .i32⟩) main_call2_v0) (TRef.of (T := ⟨S8x24x1x256, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S8x24x1x256, .i32⟩) main_call2_v2) (broadcastInDim S8x24x1x256 ![] bcast_S_S8x24x1x256),
    TRef.binary (TRef.of (T := ⟨S8x24x1x256, .i32⟩) main_v14) (TRef.of (T := ⟨S8x24x1x256, .i32⟩) main_call2_v2) (TRef.of (T := ⟨S8x24x1x256, .i32⟩) main_call2_v3) addi,
    TRef.ternary (TRef.of (T := ⟨S8x24x1x256, .i1⟩) main_call2_v1) (TRef.of (T := ⟨S8x24x1x256, .i32⟩) main_call2_v3) (TRef.of (T := ⟨S8x24x1x256, .i32⟩) main_v14) (TRef.of (T := ⟨S8x24x1x256, .i32⟩) main_call2_v4) select,
    TRef.reshape (TRef.of (T := ⟨S8x24x1x256, .i32⟩) main_call2_v4) (TRef.of (T := ⟨S8x24x1x256x1, .i32⟩) main_call2_v5) rfl shapeCasts_S8x24x1x256_S8x24x1x256x1 ]

theorem stageD (V : Valuation τ sig (Elt F)) (x1 : (⟨S8x512x512, .i32⟩ : BufTy).Contents (Elt F)) (h14 : V (main_v14 : DevRef τ sig) = ReadP.val_main_v14 (F := F) x1) :
    after opsD V (main_call2_v5 : DevRef τ sig) = ReadP.val_main_call2_v5 (F := F) x1 := by
  after_results_simp
  rw [h14]
  rfl

theorem keepD_main_v9 (V : Valuation τ sig (Elt F)) : after opsD V (main_v9 : DevRef τ sig) = V (main_v9 : DevRef τ sig) := by
  after_results_simp

theorem keepD_main_v10 (V : Valuation τ sig (Elt F)) : after opsD V (main_v10 : DevRef τ sig) = V (main_v10 : DevRef τ sig) := by
  after_results_simp

/-! ## Operations 42–51: the range mask -/

/-- Operations 42–51: whether the wrapped index lies in `[0, 1023]`, folded over the trailing axis. -/
abbrev opsE : List (HloOp τ sig (Elt F)) :=
  [ TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S8x24x1x256x1, .i32⟩) main_call2_v6) (broadcastInDim S8x24x1x256x1 ![] bcast_S_S8x24x1x256x1),
    TRef.binary (TRef.of (T := ⟨S8x24x1x256x1, .i32⟩) main_call2_v5) (TRef.of (T := ⟨S8x24x1x256x1, .i32⟩) main_call2_v6) (TRef.of (T := ⟨S8x24x1x256x1, .i1⟩) main_call2_v7) (cmpi .sge),
    TRef.unary (TRef.of (T := ⟨S1, .i32⟩) main_call2_c_1) (TRef.of (T := ⟨S1x1x1x1x1, .i32⟩) main_call2_v8) (broadcastInDim S1x1x1x1x1 ![4] bcast_S1_S1x1x1x1x1_4),
    TRef.unary (TRef.of (T := ⟨S1x1x1x1x1, .i32⟩) main_call2_v8) (TRef.of (T := ⟨S8x24x1x256x1, .i32⟩) main_call2_v9) (broadcastInDim S8x24x1x256x1 ![0, 1, 2, 3, 4] bcast_S1x1x1x1x1_S8x24x1x256x1_0_1_2_3_4),
    TRef.binary (TRef.of (T := ⟨S8x24x1x256x1, .i32⟩) main_call2_v5) (TRef.of (T := ⟨S8x24x1x256x1, .i32⟩) main_call2_v9) (TRef.of (T := ⟨S8x24x1x256x1, .i1⟩) main_call2_v10) (cmpi .sle),
    TRef.binary (TRef.of (T := ⟨S8x24x1x256x1, .i1⟩) main_call2_v7) (TRef.of (T := ⟨S8x24x1x256x1, .i1⟩) main_call2_v10) (TRef.of (T := ⟨S8x24x1x256x1, .i1⟩) main_call2_v11) andi,
    TRef.nullary (TRef.of (T := ⟨S_, .i1⟩) main_call2_c_3) (constantI S_ 1 1#1),
    TRef.binary (TRef.of (T := ⟨S8x24x1x256x1, .i1⟩) main_call2_v11) (TRef.of (T := ⟨S_, .i1⟩) main_call2_c_3) (TRef.of (T := ⟨S8x24x1x256, .i1⟩) main_call2_v12) (fun x v => Host.reduce IntOp.andi x v reducesTo_S8x24x1x256x1_S8x24x1x256_d4 h_S_) ]

attribute [local irreducible] Host.reduce Host.gather in
theorem stageE (V : Valuation τ sig (Elt F)) (x1 : (⟨S8x512x512, .i32⟩ : BufTy).Contents (Elt F)) (h5 : V (main_call2_v5 : DevRef τ sig) = ReadP.val_main_call2_v5 (F := F) x1) :
    after opsE V (main_call2_v12 : DevRef τ sig) = ReadP.val_main_call2_v12 (F := F) x1 := by
  after_results_simp
  rw [h5]
  simp only [ofBuf_toBuf]
  rfl

theorem keepE_main_v9 (V : Valuation τ sig (Elt F)) : after opsE V (main_v9 : DevRef τ sig) = V (main_v9 : DevRef τ sig) := by
  after_results_simp

theorem keepE_main_v10 (V : Valuation τ sig (Elt F)) : after opsE V (main_v10 : DevRef τ sig) = V (main_v10 : DevRef τ sig) := by
  after_results_simp

theorem keepE_main_call2_v5 (V : Valuation τ sig (Elt F)) : after opsE V (main_call2_v5 : DevRef τ sig) = V (main_call2_v5 : DevRef τ sig) := by
  after_results_simp

/-! ## Operations 52–57: the gather, its mask and the negation -/

/-- Operations 52–57: the log-softmax gathered at the wrapped index, replaced by NaN outside the range, the unit axis dropped, negated. -/
abbrev opsF : List (HloOp τ sig (Elt F)) :=
  [ TRef.binary (TRef.of (T := ⟨S8x24x1024x256, .f32⟩) main_v10) (TRef.of (T := ⟨S8x24x1x256x1, .i32⟩) main_call2_v5) (TRef.of (T := ⟨S8x24x1x256, .f32⟩) main_call2_v13) (fun x i => Host.gather gather_S8x24x1024x256_S8x24x1x256x1_S8x24x1x256_n_2_013_013_2_4_1111 x i),
    TRef.nullary (TRef.of (T := ⟨S_, .f32⟩) main_call2_cst) (constant S_ .f32 0x7FC00000#32),
    TRef.unary (TRef.of (T := ⟨S_, .f32⟩) main_call2_cst) (TRef.of (T := ⟨S8x24x1x256, .f32⟩) main_call2_v14) (broadcastInDim S8x24x1x256 ![] bcast_S_S8x24x1x256),
    TRef.ternary (TRef.of (T := ⟨S8x24x1x256, .i1⟩) main_call2_v12) (TRef.of (T := ⟨S8x24x1x256, .f32⟩) main_call2_v13) (TRef.of (T := ⟨S8x24x1x256, .f32⟩) main_call2_v14) (TRef.of (T := ⟨S8x24x1x256, .f32⟩) main_v15) select,
    reshape main_v15 main_v16 rfl shapeCasts_S8x24x1x256_S8x24x256,
    unary main_v16 main_v17 (Host.negf : (⟨S8x24x256, .f32⟩ : BufTy).Contents (Elt F) → (⟨S8x24x256, .f32⟩ : BufTy).Contents (Elt F)) ]

attribute [local irreducible] Host.reduce Host.gather in
theorem stageF (V : Valuation τ sig (Elt F)) (x0 : (⟨S8x24x512x512, .f32⟩ : BufTy).Contents (Elt F)) (x1 : (⟨S8x512x512, .i32⟩ : BufTy).Contents (Elt F)) (h10 : V (main_v10 : DevRef τ sig) = ReadP.val_main_v10 (F := F) x0)
    (h5 : V (main_call2_v5 : DevRef τ sig) = ReadP.val_main_call2_v5 (F := F) x1)
    (h12 : V (main_call2_v12 : DevRef τ sig) = ReadP.val_main_call2_v12 (F := F) x1) :
    after opsF V (main_v17 : DevRef τ sig) = ReadP.val_main_v17 (F := F) x0 x1 := by
  after_results_simp
  rw [h10, h5, h12]
  simp only [ofBuf_toBuf]
  rfl

theorem keepF_main_v9 (V : Valuation τ sig (Elt F)) : after opsF V (main_v9 : DevRef τ sig) = V (main_v9 : DevRef τ sig) := by
  after_results_simp

/-! ## Operations 58–64: zero at the ignore index -/

/-- Operations 58–64: the labels compared with the ignore index again, and zero selected there. -/
abbrev opsG : List (HloOp τ sig (Elt F)) :=
  [ nullary main_c_1 (constantI S_ 32 4294967196#32),
    unary main_c_1 main_v18 (broadcastInDim S8x24x256 ![] bcast_S_S8x24x256 : (⟨S_, .i32⟩ : BufTy).Contents (Elt F) → (⟨S8x24x256, .i32⟩ : BufTy).Contents (Elt F)),
    binary main_v9 main_v18 main_v19 (cmpi .eq : (⟨S8x24x256, .i32⟩ : BufTy).Contents (Elt F) → (⟨S8x24x256, .i32⟩ : BufTy).Contents (Elt F) → (⟨S8x24x256, .i1⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S8x24x256, .f32⟩) main_call3_v1) (broadcastInDim S8x24x256 ![] bcast_S_S8x24x256),
    TRef.ternary (TRef.of (T := ⟨S8x24x256, .i1⟩) main_v19) (TRef.of (T := ⟨S8x24x256, .f32⟩) main_call3_v1) (TRef.of (T := ⟨S8x24x256, .f32⟩) main_v17) (TRef.of (T := ⟨S8x24x256, .f32⟩) main_v20) select ]

theorem stageG (V : Valuation τ sig (Elt F)) (x0 : (⟨S8x24x512x512, .f32⟩ : BufTy).Contents (Elt F)) (x1 : (⟨S8x512x512, .i32⟩ : BufTy).Contents (Elt F)) (h9 : V (main_v9 : DevRef τ sig) = ReadP.val_main_v9 (F := F) x1)
    (h17 : V (main_v17 : DevRef τ sig) = ReadP.val_main_v17 (F := F) x0 x1) :
    after opsG V (main_v20 : DevRef τ sig) = ReadP.val_main_v20 (F := F) x0 x1 := by
  after_results_simp
  rw [h9, h17]
  rfl

/-! ## Operations 65–70: the maximum over the channels and the mean -/

/-- Operations 65–70: the maximum over the 24 channels, the sum over all entries, and the division by 2048. -/
abbrev opsH : List (HloOp τ sig (Elt F)) :=
  [ nullary main_cst_2 (constant S_ .f32 0xFF800000#32),
    binary main_v20 main_cst_2 main_v21 ((fun x v => Host.reduce FloatOps.maximumf x v reducesTo_S8x24x256_S8x256_d1 h_S_) : (⟨S8x24x256, .f32⟩ : BufTy).Contents (Elt F) → (⟨S_, .f32⟩ : BufTy).Contents (Elt F) → (⟨S8x256, .f32⟩ : BufTy).Contents (Elt F)),
    nullary main_cst_3 (constant S_ .f32 0x00000000#32),
    binary main_v21 main_cst_3 main_v22 ((fun x v => Host.reduceAdd x v reducesTo_S8x256_S_d0_1 h_S_) : (⟨S8x256, .f32⟩ : BufTy).Contents (Elt F) → (⟨S_, .f32⟩ : BufTy).Contents (Elt F) → (⟨S_, .f32⟩ : BufTy).Contents (Elt F)),
    nullary main_cst_4 (constant S_ .f32 0x45000000#32),
    binary main_v22 main_cst_4 main_v23 (Host.divf : (⟨S_, .f32⟩ : BufTy).Contents (Elt F) → (⟨S_, .f32⟩ : BufTy).Contents (Elt F) → (⟨S_, .f32⟩ : BufTy).Contents (Elt F)) ]

theorem stageH (V : Valuation τ sig (Elt F)) (x0 : (⟨S8x24x512x512, .f32⟩ : BufTy).Contents (Elt F)) (x1 : (⟨S8x512x512, .i32⟩ : BufTy).Contents (Elt F)) (h20 : V (main_v20 : DevRef τ sig) = ReadP.val_main_v20 (F := F) x0 x1) :
    after opsH V (main_v23 : DevRef τ sig) = ReadP.val_main_v23 (F := F) x0 x1 := by
  after_results_simp
  rw [h20]
  rfl

/-! ## The whole line -/

/-- @main's 70 operations, in order (a called function's operations stand in its call's place). -/
abbrev ops : List (HloOp τ sig (Elt F)) :=
  [ unary main_arg1 main_v0 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    reshape main_arg0 main_v1 rfl shapeCasts_S8x24x512x512_S8x24x32x16x32x16,
    unary main_v1 main_v2 ((transpose S8x32x32x16x16x24 [0, 2, 4, 3, 5, 1] · transposes_S8x24x32x16x32x16_S8x32x32x16x16x24_0_2_4_3_5_1) : (⟨S8x24x32x16x32x16, .f32⟩ : BufTy).Contents (Elt F) → (⟨S8x32x32x16x16x24, .f32⟩ : BufTy).Contents (Elt F)),
    reshape main_v2 main_v3 rfl shapeCasts_S8x32x32x16x16x24_S8x1024x256x24,
    unary main_v3 main_v4 ((transpose S8x24x1024x256 [0, 3, 1, 2] · transposes_S8x1024x256x24_S8x24x1024x256_0_3_1_2) : (⟨S8x1024x256x24, .f32⟩ : BufTy).Contents (Elt F) → (⟨S8x24x1024x256, .f32⟩ : BufTy).Contents (Elt F)),
    reshape main_v0 main_v5 rfl shapeCasts_S8x1x512x512_S8x1x32x16x32x16,
    unary main_v5 main_v6 ((transpose S8x32x32x16x16x1 [0, 2, 4, 3, 5, 1] · transposes_S8x1x32x16x32x16_S8x32x32x16x16x1_0_2_4_3_5_1) : (⟨S8x1x32x16x32x16, .i32⟩ : BufTy).Contents (Elt F) → (⟨S8x32x32x16x16x1, .i32⟩ : BufTy).Contents (Elt F)),
    reshape main_v6 main_v7 rfl shapeCasts_S8x32x32x16x16x1_S8x1024x256x1,
    reshape main_v7 main_v8 rfl shapeCasts_S8x1024x256x1_S8x1024x256,
    unary main_v8 main_v9 ((extractStridedSlice S8x24x256 ![0, 0, 0] · slices_S8x1024x256_S8x24x256_0_0_0) : (⟨S8x1024x256, .i32⟩ : BufTy).Contents (Elt F) → (⟨S8x24x256, .i32⟩ : BufTy).Contents (Elt F)),
    TRef.nullary (TRef.of (T := ⟨S_, .f32⟩) main_call0_cst) (constant S_ .f32 0xFF800000#32),
    TRef.binary (TRef.of (T := ⟨S8x24x1024x256, .f32⟩) main_v4) (TRef.of (T := ⟨S_, .f32⟩) main_call0_cst) (TRef.of (T := ⟨S8x24x256, .f32⟩) main_call0_v0) (fun x v => Host.reduce FloatOps.maximumf x v reducesTo_S8x24x1024x256_S8x24x256_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S8x24x256, .f32⟩) main_call0_v1) (broadcastInDim S8x24x256 ![] bcast_S_S8x24x256),
    TRef.binary (TRef.of (T := ⟨S8x24x256, .f32⟩) main_call0_v1) (TRef.of (T := ⟨S8x24x256, .f32⟩) main_call0_v0) (TRef.of (T := ⟨S8x24x256, .f32⟩) main_call0_v2) maximumf,
    TRef.unary (TRef.of (T := ⟨S8x24x256, .f32⟩) main_call0_v2) (TRef.of (T := ⟨S8x24x1x256, .f32⟩) main_call0_v3) (broadcastInDim S8x24x1x256 ![0, 1, 3] bcast_S8x24x256_S8x24x1x256_0_1_3),
    TRef.unary (TRef.of (T := ⟨S8x24x1x256, .f32⟩) main_call0_v3) (TRef.of (T := ⟨S8x24x1024x256, .f32⟩) main_call0_v4) (broadcastInDim S8x24x1024x256 ![0, 1, 2, 3] bcast_S8x24x1x256_S8x24x1024x256_0_1_2_3),
    TRef.binary (TRef.of (T := ⟨S8x24x1024x256, .f32⟩) main_v4) (TRef.of (T := ⟨S8x24x1024x256, .f32⟩) main_call0_v4) (TRef.of (T := ⟨S8x24x1024x256, .f32⟩) main_call0_v5) subf,
    TRef.unary (TRef.of (T := ⟨S8x24x1024x256, .f32⟩) main_call0_v5) (TRef.of (T := ⟨S8x24x1024x256, .f32⟩) main_call0_v6) Host.exp,
    TRef.nullary (TRef.of (T := ⟨S_, .f32⟩) main_call0_cst_1) (constant S_ .f32 0x00000000#32),
    TRef.binary (TRef.of (T := ⟨S8x24x1024x256, .f32⟩) main_call0_v6) (TRef.of (T := ⟨S_, .f32⟩) main_call0_cst_1) (TRef.of (T := ⟨S8x24x256, .f32⟩) main_call0_v7) (fun x v => Host.reduceAdd x v reducesTo_S8x24x1024x256_S8x24x256_d2 h_S_),
    TRef.unary (TRef.of (T := ⟨S8x24x256, .f32⟩) main_call0_v7) (TRef.of (T := ⟨S8x24x1x256, .f32⟩) main_call0_v8) (broadcastInDim S8x24x1x256 ![0, 1, 3] bcast_S8x24x256_S8x24x1x256_0_1_3),
    TRef.unary (TRef.of (T := ⟨S8x24x1x256, .f32⟩) main_call0_v8) (TRef.of (T := ⟨S8x24x1x256, .f32⟩) main_call0_v9) Host.log,
    TRef.unary (TRef.of (T := ⟨S8x24x1x256, .f32⟩) main_call0_v9) (TRef.of (T := ⟨S8x24x1024x256, .f32⟩) main_call0_v10) (broadcastInDim S8x24x1024x256 ![0, 1, 2, 3] bcast_S8x24x1x256_S8x24x1024x256_0_1_2_3),
    TRef.binary (TRef.of (T := ⟨S8x24x1024x256, .f32⟩) main_call0_v5) (TRef.of (T := ⟨S8x24x1024x256, .f32⟩) main_call0_v10) (TRef.of (T := ⟨S8x24x1024x256, .f32⟩) main_v10) subf,
    nullary main_c (constantI S_ 32 4294967196#32),
    unary main_c main_v11 (broadcastInDim S8x24x256 ![] bcast_S_S8x24x256 : (⟨S_, .i32⟩ : BufTy).Contents (Elt F) → (⟨S8x24x256, .i32⟩ : BufTy).Contents (Elt F)),
    binary main_v9 main_v11 main_v12 (cmpi .eq : (⟨S8x24x256, .i32⟩ : BufTy).Contents (Elt F) → (⟨S8x24x256, .i32⟩ : BufTy).Contents (Elt F) → (⟨S8x24x256, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S8x24x256, .i32⟩) main_call1_v1) (broadcastInDim S8x24x256 ![] bcast_S_S8x24x256),
    TRef.ternary (TRef.of (T := ⟨S8x24x256, .i1⟩) main_v12) (TRef.of (T := ⟨S8x24x256, .i32⟩) main_call1_v1) (TRef.of (T := ⟨S8x24x256, .i32⟩) main_v9) (TRef.of (T := ⟨S8x24x256, .i32⟩) main_v13) select,
    unary main_v13 main_v14 (broadcastInDim S8x24x1x256 ![0, 1, 3] bcast_S8x24x256_S8x24x1x256_0_1_3 : (⟨S8x24x256, .i32⟩ : BufTy).Contents (Elt F) → (⟨S8x24x1x256, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8x24x1x256, .i32⟩) main_call2_v0) (broadcastInDim S8x24x1x256 ![] bcast_S_S8x24x1x256),
    TRef.binary (TRef.of (T := ⟨S8x24x1x256, .i32⟩) main_v14) (TRef.of (T := ⟨S8x24x1x256, .i32⟩) main_call2_v0) (TRef.of (T := ⟨S8x24x1x256, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S8x24x1x256, .i32⟩) main_call2_v2) (broadcastInDim S8x24x1x256 ![] bcast_S_S8x24x1x256),
    TRef.binary (TRef.of (T := ⟨S8x24x1x256, .i32⟩) main_v14) (TRef.of (T := ⟨S8x24x1x256, .i32⟩) main_call2_v2) (TRef.of (T := ⟨S8x24x1x256, .i32⟩) main_call2_v3) addi,
    TRef.ternary (TRef.of (T := ⟨S8x24x1x256, .i1⟩) main_call2_v1) (TRef.of (T := ⟨S8x24x1x256, .i32⟩) main_call2_v3) (TRef.of (T := ⟨S8x24x1x256, .i32⟩) main_v14) (TRef.of (T := ⟨S8x24x1x256, .i32⟩) main_call2_v4) select,
    TRef.reshape (TRef.of (T := ⟨S8x24x1x256, .i32⟩) main_call2_v4) (TRef.of (T := ⟨S8x24x1x256x1, .i32⟩) main_call2_v5) rfl shapeCasts_S8x24x1x256_S8x24x1x256x1,
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S8x24x1x256x1, .i32⟩) main_call2_v6) (broadcastInDim S8x24x1x256x1 ![] bcast_S_S8x24x1x256x1),
    TRef.binary (TRef.of (T := ⟨S8x24x1x256x1, .i32⟩) main_call2_v5) (TRef.of (T := ⟨S8x24x1x256x1, .i32⟩) main_call2_v6) (TRef.of (T := ⟨S8x24x1x256x1, .i1⟩) main_call2_v7) (cmpi .sge),
    TRef.unary (TRef.of (T := ⟨S1, .i32⟩) main_call2_c_1) (TRef.of (T := ⟨S1x1x1x1x1, .i32⟩) main_call2_v8) (broadcastInDim S1x1x1x1x1 ![4] bcast_S1_S1x1x1x1x1_4),
    TRef.unary (TRef.of (T := ⟨S1x1x1x1x1, .i32⟩) main_call2_v8) (TRef.of (T := ⟨S8x24x1x256x1, .i32⟩) main_call2_v9) (broadcastInDim S8x24x1x256x1 ![0, 1, 2, 3, 4] bcast_S1x1x1x1x1_S8x24x1x256x1_0_1_2_3_4),
    TRef.binary (TRef.of (T := ⟨S8x24x1x256x1, .i32⟩) main_call2_v5) (TRef.of (T := ⟨S8x24x1x256x1, .i32⟩) main_call2_v9) (TRef.of (T := ⟨S8x24x1x256x1, .i1⟩) main_call2_v10) (cmpi .sle),
    TRef.binary (TRef.of (T := ⟨S8x24x1x256x1, .i1⟩) main_call2_v7) (TRef.of (T := ⟨S8x24x1x256x1, .i1⟩) main_call2_v10) (TRef.of (T := ⟨S8x24x1x256x1, .i1⟩) main_call2_v11) andi,
    TRef.nullary (TRef.of (T := ⟨S_, .i1⟩) main_call2_c_3) (constantI S_ 1 1#1),
    TRef.binary (TRef.of (T := ⟨S8x24x1x256x1, .i1⟩) main_call2_v11) (TRef.of (T := ⟨S_, .i1⟩) main_call2_c_3) (TRef.of (T := ⟨S8x24x1x256, .i1⟩) main_call2_v12) (fun x v => Host.reduce IntOp.andi x v reducesTo_S8x24x1x256x1_S8x24x1x256_d4 h_S_),
    TRef.binary (TRef.of (T := ⟨S8x24x1024x256, .f32⟩) main_v10) (TRef.of (T := ⟨S8x24x1x256x1, .i32⟩) main_call2_v5) (TRef.of (T := ⟨S8x24x1x256, .f32⟩) main_call2_v13) (fun x i => Host.gather gather_S8x24x1024x256_S8x24x1x256x1_S8x24x1x256_n_2_013_013_2_4_1111 x i),
    TRef.nullary (TRef.of (T := ⟨S_, .f32⟩) main_call2_cst) (constant S_ .f32 0x7FC00000#32),
    TRef.unary (TRef.of (T := ⟨S_, .f32⟩) main_call2_cst) (TRef.of (T := ⟨S8x24x1x256, .f32⟩) main_call2_v14) (broadcastInDim S8x24x1x256 ![] bcast_S_S8x24x1x256),
    TRef.ternary (TRef.of (T := ⟨S8x24x1x256, .i1⟩) main_call2_v12) (TRef.of (T := ⟨S8x24x1x256, .f32⟩) main_call2_v13) (TRef.of (T := ⟨S8x24x1x256, .f32⟩) main_call2_v14) (TRef.of (T := ⟨S8x24x1x256, .f32⟩) main_v15) select,
    reshape main_v15 main_v16 rfl shapeCasts_S8x24x1x256_S8x24x256,
    unary main_v16 main_v17 (Host.negf : (⟨S8x24x256, .f32⟩ : BufTy).Contents (Elt F) → (⟨S8x24x256, .f32⟩ : BufTy).Contents (Elt F)),
    nullary main_c_1 (constantI S_ 32 4294967196#32),
    unary main_c_1 main_v18 (broadcastInDim S8x24x256 ![] bcast_S_S8x24x256 : (⟨S_, .i32⟩ : BufTy).Contents (Elt F) → (⟨S8x24x256, .i32⟩ : BufTy).Contents (Elt F)),
    binary main_v9 main_v18 main_v19 (cmpi .eq : (⟨S8x24x256, .i32⟩ : BufTy).Contents (Elt F) → (⟨S8x24x256, .i32⟩ : BufTy).Contents (Elt F) → (⟨S8x24x256, .i1⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S8x24x256, .f32⟩) main_call3_v1) (broadcastInDim S8x24x256 ![] bcast_S_S8x24x256),
    TRef.ternary (TRef.of (T := ⟨S8x24x256, .i1⟩) main_v19) (TRef.of (T := ⟨S8x24x256, .f32⟩) main_call3_v1) (TRef.of (T := ⟨S8x24x256, .f32⟩) main_v17) (TRef.of (T := ⟨S8x24x256, .f32⟩) main_v20) select,
    nullary main_cst_2 (constant S_ .f32 0xFF800000#32),
    binary main_v20 main_cst_2 main_v21 ((fun x v => Host.reduce FloatOps.maximumf x v reducesTo_S8x24x256_S8x256_d1 h_S_) : (⟨S8x24x256, .f32⟩ : BufTy).Contents (Elt F) → (⟨S_, .f32⟩ : BufTy).Contents (Elt F) → (⟨S8x256, .f32⟩ : BufTy).Contents (Elt F)),
    nullary main_cst_3 (constant S_ .f32 0x00000000#32),
    binary main_v21 main_cst_3 main_v22 ((fun x v => Host.reduceAdd x v reducesTo_S8x256_S_d0_1 h_S_) : (⟨S8x256, .f32⟩ : BufTy).Contents (Elt F) → (⟨S_, .f32⟩ : BufTy).Contents (Elt F) → (⟨S_, .f32⟩ : BufTy).Contents (Elt F)),
    nullary main_cst_4 (constant S_ .f32 0x45000000#32),
    binary main_v22 main_cst_4 main_v23 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., reshape_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub ..⟩

/-- The line is its eight stretches, one after the other. -/
theorem ops_split : (ops : List (HloOp τ sig (Elt F))) = opsA ++ (opsB ++ (opsC ++ (opsD ++ (opsE ++ (opsF ++ (opsG ++ opsH)))))) := rfl

/-- After the whole line the result buffer holds the last stage of what the two argument buffers held: the stretches'
    facts, each handed to the next. -/
theorem after_ops (V : Valuation τ sig (Elt F)) :
    after ops V (main_v23 : DevRef τ sig) = ReadP.val_main_v23 (F := F) (V (main_arg0 : DevRef τ sig)) (V (main_arg1 : DevRef τ sig)) := by
  rw [ops_split, after_app, after_app, after_app, after_app, after_app, after_app, after_app]
  obtain ⟨a4, a9⟩ := stageA V
  generalize after opsA V = VA at a4 a9 ⊢
  have b10 := stageB VA _ a4
  have b9 := (keepB_main_v9 VA).trans a9
  generalize after opsB VA = VB at b10 b9 ⊢
  have c14 := stageC VB _ b9
  have c9 := (keepC_main_v9 VB).trans b9
  have c10 := (keepC_main_v10 VB).trans b10
  generalize after opsC VB = VC at c14 c9 c10 ⊢
  have d5 := stageD VC _ c14
  have d9 := (keepD_main_v9 VC).trans c9
  have d10 := (keepD_main_v10 VC).trans c10
  generalize after opsD VC = VD at d5 d9 d10 ⊢
  have e12 := stageE VD _ d5
  have e9 := (keepE_main_v9 VD).trans d9
  have e10 := (keepE_main_v10 VD).trans d10
  have e5 := (keepE_main_call2_v5 VD).trans d5
  generalize after opsE VD = VE at e12 e9 e10 e5 ⊢
  have f17 := stageF VE _ _ e10 e5 e12
  have f9 := (keepF_main_v9 VE).trans e9
  generalize after opsF VE = VF at f17 f9 ⊢
  have g20 := stageG VF _ _ f9 f17
  generalize after opsG VF = VG at g20 ⊢
  exact stageH VG _ _ g20

/-- No operation writes the first argument. -/
theorem after_ops_arg0 (V : Valuation τ sig (Elt F)) : after ops V (main_arg0 : DevRef τ sig) = V (main_arg0 : DevRef τ sig) := by
  after_results_simp

/-- No operation writes the second argument. -/
theorem after_ops_arg1 (V : Valuation τ sig (Elt F)) : after ops V (main_arg1 : DevRef τ sig) = V (main_arg1 : DevRef τ sig) := by
  after_results_simp

/-- The run: the result buffer ends at the last stage of the two arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = Cert.ReferenceIdeal.ReadP.val_main_v23 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono
    (fun _ h c => ⟨(h c main_v23).trans (after_ops _), (h c main_arg0).trans (after_ops_arg0 _), (h c main_arg1).trans (after_ops_arg1 _)⟩)
    (run_seq scopedRefs_eq scopedSems_eq defs main (fun _ => ops) main_eq (fun _ => ops_sub) m ρ)

end Cert.ReferenceIdeal.RunHand

end
-- ==== Proof.KI.Blocks.lean ====
/-
  The pipeline's blocks at image coordinates.

  Point `t = 24 i + c` works on images `4 i … 4 i + 3` and channel `c`: its score block is
  `x[4 i + k, c, ·, ·]`, `k < 4`; its label block is `lab2[c, 4 i + k, ·, ·]`, where `lab2` is the label array as @main
  re-lays it before the region, `lab2[c, n, p, q] = label[n, p, 16 c + q]`; its output block is rows `4 i … 4 i + 3`.
-/
import proofs.«413696_j43370579755026_3_alg».proof.Proof.KI.Data
import Idealize.ShloMosaic.Lib.Pipeline.Value
import Idealize.ShloMosaic.Lib.ValueLayout
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The image a point's slot `k` holds, and the point's channel. -/
def nOf (t : Fin cfg0.N) (k : Fin 4) : Fin 8 :=
  ⟨4 * (t.val / 24) + k.val, by have h : t.val < 48 := lt_of_lt_of_eq t.isLt N_0; have := k.isLt; omega⟩
def chOf (t : Fin cfg0.N) : Fin 24 := ⟨t.val % 24, Nat.mod_lt _ (by decide)⟩

/-- The printed index maps over the grid: the block indices of the three windows at point `t`. -/
theorem idx_facts : ∀ t : Fin cfg0.N,
    win0_0.index t (0 : Fin 4) = t.val / 24 ∧ win0_0.index t (1 : Fin 4) = t.val % 24
    ∧ win0_0.index t (2 : Fin 4) = 0 ∧ win0_0.index t (3 : Fin 4) = 0
    ∧ win0_1.index t (0 : Fin 4) = t.val % 24 ∧ win0_1.index t (1 : Fin 4) = t.val / 24
    ∧ win0_1.index t (2 : Fin 4) = 0 ∧ win0_1.index t (3 : Fin 4) = 0
    ∧ win0_2.index t (0 : Fin 3) = t.val / 24 ∧ win0_2.index t (1 : Fin 3) = 0 ∧ win0_2.index t (2 : Fin 3) = 0 :=
  (by decide +kernel : ∀ t : Fin grid0.N, _)

/-- The score block at `(k, 0, r, s)` is the score array at image `nOf t k`, channel `chOf t`. -/
theorem xblk_apply (c : Dev nD) (t : Fin cfg0.N) (k : Fin 4) (r s : Fin 512) :
    xblk m c t (ix4 k (0 : Fin 1) r s)
      = (V m c main_arg0 : S8x24x512x512.Idx → Elt F .f32) (ix4 (nOf t k) (chOf t) r s) := by
  obtain ⟨e0, e1, e2, e3, -⟩ := idx_facts t
  show (V m c main_arg0 : S8x24x512x512.Idx → Elt F .f32) (((cfg0.win 0).blk t).view.emb (ix4 k (0 : Fin 1) r s)) = _
  refine congrArg _ ?_
  funext a; apply Fin.ext
  match a with
  | ⟨0, _⟩ => show win0_0.index t (0 : Fin 4) * 4 + 1 * k.val = 4 * (t.val / 24) + k.val; omega
  | ⟨1, _⟩ => show win0_0.index t (1 : Fin 4) * 1 + 1 * 0 = t.val % 24; omega
  | ⟨2, _⟩ => show win0_0.index t (2 : Fin 4) * 512 + 1 * r.val = r.val; omega
  | ⟨3, _⟩ => show win0_0.index t (3 : Fin 4) * 512 + 1 * s.val = s.val; omega

/-- The label block at `(0, k, p, q)` is the re-laid label array at channel `chOf t`, image `nOf t k`. -/
theorem lblk_apply (c : Dev nD) (t : Fin cfg0.N) (k : Fin 4) (p q : Fin 16) :
    lblk m c t (ix4 (0 : Fin 1) k p q)
      = (V m c main_v2 : S24x8x16x16.Idx → Elt F .i32) (ix4 (chOf t) (nOf t k) p q) := by
  obtain ⟨-, -, -, -, e0, e1, e2, e3, -⟩ := idx_facts t
  show (V m c main_v2 : S24x8x16x16.Idx → Elt F .i32) (((cfg0.win 1).blk t).view.emb (ix4 (0 : Fin 1) k p q)) = _
  refine congrArg _ ?_
  funext a; apply Fin.ext
  match a with
  | ⟨0, _⟩ => show win0_1.index t (0 : Fin 4) * 1 + 1 * 0 = t.val % 24; omega
  | ⟨1, _⟩ => show win0_1.index t (1 : Fin 4) * 4 + 1 * k.val = 4 * (t.val / 24) + k.val; omega
  | ⟨2, _⟩ => show win0_1.index t (2 : Fin 4) * 16 + 1 * p.val = p.val; omega
  | ⟨3, _⟩ => show win0_1.index t (3 : Fin 4) * 16 + 1 * q.val = q.val; omega

/-- The re-laid label array as the region finds it: `lab2[c, n, p, q] = label[n, p, 16 c + q]`. -/
theorem v2_apply (c : Dev nD) (ch : Fin 24) (n : Fin 8) (p q : Fin 16) :
    (V m c main_v2 : S24x8x16x16.Idx → Elt F .i32) (ix4 ch n p q)
      = (m ((c : Thread nD τ).loc main_arg1) : S8x512x512.Idx → Elt F .i32)
          (ix3 n (⟨p.val, by have := p.isLt; omega⟩ : Fin 512) (⟨16 * ch.val + q.val, by have := ch.isLt; have := q.isLt; omega⟩ : Fin 512)) := by
  show StableHlo.after (List.flatten [hostOps0]) (fun b => m (c, b)) (Proc.devRef .tc main_v2) (ix4 ch n p q) = _
  simp only [hostOps0, List.flatten_cons, List.flatten_nil, List.append_nil, List.cons_append, List.nil_append]
  after_results
  have hch : ch.val < 24 := ch.isLt
  have hq : q.val < 16 := q.isLt
  -- the transpose [2, 0, 1, 3]: [24,8,16,16] at (ch, n, p, q) reads [8,16,24,16] at (n, p, ch, q)
  refine (transpose_apply _ _ _ _ (ix4 n p ch q)
    (fun b => match b with | ⟨0, _⟩ => rfl | ⟨1, _⟩ => rfl | ⟨2, _⟩ => rfl | ⟨3, _⟩ => rfl)).trans ?_
  show shapeCast S8x16x24x16
      (extractStridedSlice S8x16x384 ![0, 0, 0] (m (c, Proc.devRef .tc main_arg1)) slices_S8x512x512_S8x16x384_0_0_0)
      shapeCasts_S8x16x384_S8x16x24x16 (ix4 n p ch q) = _
  -- the reshape: [8,16,24,16] at (n, p, ch, q) reads [8,16,384] at (n, p, 16 ch + q)
  refine (shapeCast_apply _ _ _ (ix3 n p (⟨16 * ch.val + q.val, by omega⟩ : Fin 384)) (by
      rw [Shape.rowMajor_val_three, Shape.rowMajor_val_four]
      show (n.val * 16 + p.val) * 384 + (16 * ch.val + q.val) = ((n.val * 16 + p.val) * 24 + ch.val) * 16 + q.val
      omega)).trans ?_
  -- the slice at offset (0, 0, 0): the same coordinates in [8,512,512]
  exact extractStridedSlice_apply _ _ _ _ _ (fun a => match a with
    | ⟨0, _⟩ => by show n.val = 0 + n.val; omega
    | ⟨1, _⟩ => by show p.val = 0 + p.val; omega
    | ⟨2, _⟩ => by show 16 * ch.val + q.val = 0 + (16 * ch.val + q.val); omega)

end Cert.KernelIdeal.Body

end
-- ==== Proof.Spec.lean ====
/-
  The two programs on one softmax group, as plain functions on the extended reals.

  A group is the 1024 logits `v l`, `l = 32 h + w`, that one class channel holds at a fixed offset `(p, q)` inside the
  16 × 16 patches: `v l = x[n, c, 16 h + p, 16 w + q]`. Its label is the word `b = label[n, p, 16 c + q]`.
  With `M = max_l v l` and `S = Σ_l exp (v l - M)`:
  * the kernel's loss of the group is `(M + log S) - Σ_l [l = b] v l`, the selected logit taken by a one-hot sum;
  * the reference's is `-((v b - M) - log S)`, the selected logit taken by an index;
  both are `0` at the ignore index `-100`. The result is, per `(n, p, q)`, the maximum of the loss over the 24 channels —
  the kernel's running from the finite seed `-1e30`, the reference's from `-∞` — and then the mean over `(n, p, q)`.
-/
import Idealize.ShloMosaic.PureOps.Ideal
import Idealize.ShloMosaic.Lib.ValueIdx

noncomputable section

open scoped BigOperators

namespace Cert.Spec

open Idealize.ShloMosaic Idealize.ShloMosaic.ValueIdx

/-- The ignore index `-100` as a 32-bit word. -/
abbrev ignoreW : BitVec 32 := 4294967196#32

/-- The running maximum's seed, the f32 nearest `-1e30`, as an extended real. -/
abbrev seedV : EReal := Ideal.ofBits .f32 0xF149F2CA#32

/-- A label word that the cross-entropy accepts: the ignore index, or a class index below 1024. -/
def LabelOK (b : BitVec 32) : Prop := b = ignoreW ∨ b.toNat < 1024

/-- The group's maximum, folded from `-∞`. -/
def rowMax (v : Fin 1024 → EReal) : EReal := (Finset.univ : Finset (Fin 1024)).fold max ⊥ v

/-- The group's sum of exponentials, shifted by its maximum. -/
def sumExp (v : Fin 1024 → EReal) : EReal := ∑ l : Fin 1024, Ideal.exp (v l - rowMax v)

/-- The class a label word names (its value below 1024; any word is mapped inside the group). -/
def pick (b : BitVec 32) : Fin 1024 := ⟨b.toNat % 1024, Nat.mod_lt _ (by decide)⟩

/-- The kernel's loss of one group: log-sum-exp minus the logit selected by a one-hot sum; `0` at the ignore index. -/
def nllK (v : Fin 1024 → EReal) (b : BitVec 32) : EReal :=
  if b = ignoreW then 0
  else (rowMax v + Ideal.log (sumExp v)) - ∑ l : Fin 1024, (if BitVec.ofNat 32 l.val = b then v l else 0)

/-- The reference's loss of one group: minus the log-softmax at the labelled class; `0` at the ignore index. -/
def nllR (v : Fin 1024 → EReal) (b : BitVec 32) : EReal :=
  if b = ignoreW then 0
  else -((v (pick b) - rowMax v) - Ideal.log (sumExp v))

/-- Row `16 h + p` of the image for the coarse cell `l = 32 h + w`. -/
def grow (l : Fin 1024) (p : Fin 16) : Fin 512 :=
  ⟨16 * (l.val / 32) + p.val, by have := l.isLt; have := p.isLt; omega⟩

/-- Column `16 w + q` of the image for the coarse cell `l = 32 h + w`. -/
def gcol (l : Fin 1024) (q : Fin 16) : Fin 512 :=
  ⟨16 * (l.val % 32) + q.val, by have := l.isLt; have := q.isLt; omega⟩

/-- The score array's shape and the label array's. -/
abbrev SX : Shape := ⟨4, ![8, 24, 512, 512]⟩
abbrev SL : Shape := ⟨3, ![8, 512, 512]⟩

/-- The group of image `n`, channel `c`, offset `(p, q)`. -/
def logits (x : SX.Idx → EReal) (n : Fin 8) (c : Fin 24) (p q : Fin 16) : Fin 1024 → EReal :=
  fun l => x (ix4 n c (grow l p) (gcol l q))

/-- Its label: row `p`, column `16 c + q` of image `n`'s label plane. -/
def lbl (lab : SL.Idx → BitVec 32) (n : Fin 8) (c : Fin 24) (p q : Fin 16) : BitVec 32 :=
  lab (ix3 n (⟨p.val, by have := p.isLt; omega⟩ : Fin 512)
    (⟨16 * c.val + q.val, by have := c.isLt; have := q.isLt; omega⟩ : Fin 512))

/-- The kernel's entry `(n, p, q)`: the maximum over the channels, from the seed. -/
def outK (x : SX.Idx → EReal) (lab : SL.Idx → BitVec 32) (n : Fin 8) (p q : Fin 16) : EReal :=
  (Finset.univ : Finset (Fin 24)).fold max seedV (fun c => nllK (logits x n c p q) (lbl lab n c p q))

/-- The reference's entry `(n, p, q)`: the maximum over the channels, from `-∞`. -/
def outR (x : SX.Idx → EReal) (lab : SL.Idx → BitVec 32) (n : Fin 8) (p q : Fin 16) : EReal :=
  (Finset.univ : Finset (Fin 24)).fold max ⊥ (fun c => nllR (logits x n c p q) (lbl lab n c p q))

end Cert.Spec

end
-- ==== Proof.KPayload.lean ====
/-
  What one trip of the kernel's loop stores, read at an index.

  A trip loads one image plane `x6` (512 × 512), that image's 16 × 16 labels `l21` for the channel at hand and the running
  maximum `p35`, and stores `max (p35, loss)`: at `(p, q)` the loss of the group `l ↦ x6[16 (l / 32) + p, 16 (l % 32) + q]`
  under the label `l21[p, q]` — the plane re-laid as (p, q, 32 h + w), its row maximum, the shifted exponentials' sum, its
  logarithm, the one-hot selected logit, and the ignore index's zero.
-/
import proofs.«413696_j43370579755026_3_alg».proof.Proof.Gen.KernelIdeal.Skeleton
import proofs.«413696_j43370579755026_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Spec

/-- The seed store's payload is the seed at every index. -/
theorem pay1_apply (j : S4x16x16.Idx) : k0_pay1 (F := Ideal) j = seedV := by
  rfl

/-! ## The plane re-laid: one layer at a time -/

/-- The plane viewed as a matrix. -/
private theorem lay1 {α : Type} (x : S1x1x512x512.Idx → α) (h : S1x1x512x512.ShapeCasts S512x512) (r c : Fin 512) :
    shapeCast S512x512 x h (ix2 r c) = x (ix4 (0 : Fin 1) (0 : Fin 1) r c) :=
  shapeCast_apply x h _ _ (by
    rw [Shape.rowMajor_val_four, Shape.rowMajor_val_two]
    show ((0 * 1 + 0) * 512 + r.val) * 512 + c.val = r.val * 512 + c.val
    omega)

/-- The matrix split into 32 × 32 patches of 16 × 16. -/
private theorem lay2 {α : Type} (x : S512x512.Idx → α) (h : S512x512.ShapeCasts S32x16x32x16)
    (a : Fin 32) (p : Fin 16) (b : Fin 32) (q : Fin 16) (r c : Fin 512) (hr : r.val = 16 * a.val + p.val)
    (hc : c.val = 16 * b.val + q.val) :
    shapeCast S32x16x32x16 x h (ix4 a p b q) = x (ix2 r c) :=
  shapeCast_apply x h _ _ (by
    rw [Shape.rowMajor_val_four, Shape.rowMajor_val_two]
    show r.val * 512 + c.val = ((a.val * 16 + p.val) * 32 + b.val) * 16 + q.val
    omega)

/-- The patch offsets brought in front of the patch coordinates. -/
private theorem lay3 {α : Type} (x : S32x16x32x16.Idx → α) (h : S32x16x32x16.Transposes [1, 3, 0, 2] S16x16x32x32)
    (a : Fin 32) (p : Fin 16) (b : Fin 32) (q : Fin 16) :
    transpose S16x16x32x32 [1, 3, 0, 2] x h (ix4 p q a b) = x (ix4 a p b q) :=
  transpose_apply _ x h _ _ fun c => match c with | ⟨0, _⟩ => rfl | ⟨1, _⟩ => rfl | ⟨2, _⟩ => rfl | ⟨3, _⟩ => rfl

/-- The two patch coordinates flattened into one. -/
private theorem lay4 {α : Type} (x : S16x16x32x32.Idx → α) (h : S16x16x32x32.ShapeCasts S16x16x1024)
    (p q : Fin 16) (l : Fin 1024) (a b : Fin 32) (ha : a.val = l.val / 32) (hb : b.val = l.val % 32) :
    shapeCast S16x16x1024 x h (ix3 p q l) = x (ix4 p q a b) :=
  shapeCast_apply x h _ _ (by
    rw [Shape.rowMajor_val_four, Shape.rowMajor_val_three]
    show ((p.val * 16 + q.val) * 32 + a.val) * 32 + b.val = (p.val * 16 + q.val) * 1024 + l.val
    omega)

/-- The re-laid plane at `(p, q, l)` is the plane at row `16 (l / 32) + p`, column `16 (l % 32) + q`. -/
private theorem relaid_apply {α : Type} (x : S1x1x512x512.Idx → α) (p q : Fin 16) (l : Fin 1024) :
    shapeCast S16x16x1024
        (transpose S16x16x32x32 [1, 3, 0, 2]
          (shapeCast S32x16x32x16 (shapeCast S512x512 x shapeCasts_S1x1x512x512_S512x512) shapeCasts_S512x512_S32x16x32x16)
          transposes_S32x16x32x16_p1_3_0_2_S16x16x32x32)
        shapeCasts_S16x16x32x32_S16x16x1024 (ix3 p q l)
      = x (ix4 (0 : Fin 1) (0 : Fin 1) (grow l p) (gcol l q)) := by
  have hl := l.isLt
  refine (lay4 _ _ p q l ⟨l.val / 32, by omega⟩ ⟨l.val % 32, by omega⟩ rfl rfl).trans ?_
  refine (lay3 _ _ _ p _ q).trans ?_
  refine (lay2 _ _ _ p _ q (grow l p) (gcol l q) rfl rfl).trans ?_
  exact lay1 _ _ _ _

/-! ## Words and constants -/

/-- A select on an equality test of two words is the `if` on their equality. -/
private theorem select_cmpi_eq {α : Type} {w : Nat} (a b : BitVec w) (x y : α) :
    Scalar.select (IntOp.cmpi .eq a b) x y = if a = b then x else y := by
  unfold Scalar.select
  by_cases h : a = b
  · rw [if_pos h]; exact if_pos (IntOp.cmpi_eq.mpr h)
  · rw [if_neg h]; exact if_neg (fun h' => h (IntOp.cmpi_eq.mp h'))

/-- The f32 word of `-∞` is `⊥`. -/
private theorem ofBits_negInf : Ideal.ofBits .f32 0xFF800000#32 = (⊥ : EReal) := by
  simp [Ideal.ofBits, Ideal.ieee]

/-! ## The reductions along the group axis, and the column broadcast back -/

/-- The index over `(p, q)` with `k` on the reduced axis is `(p, q, k)`. -/
private theorem lift_ix (p q : Fin 16) (k : Fin 1024) :
    reduces_S16x16x1024_S16x16.lift (ix2 p q) k = ix3 p q k := by
  funext a
  match a with
  | ⟨0, _⟩ => rfl
  | ⟨1, _⟩ => rfl
  | ⟨2, _⟩ => rfl

/-- The maximum along the group axis is the group's maximum. -/
private theorem max_apply (v : FVec Ideal S16x16x1024 .f32) (p q : Fin 16) :
    multiReduction .maximumf [2] S16x16 v 0xFF800000#32 reduces_S16x16x1024_S16x16 (.inl rfl) rfl (ix2 p q)
      = rowMax (fun l => v (ix3 p q l)) := by
  refine (Ideal.multiReduction_maximumf_single v _ reduces_S16x16x1024_S16x16 _ _ (ix2 p q)).trans ?_
  show (Finset.univ : Finset (Fin 1024)).fold max (Ideal.ofBits .f32 0xFF800000#32)
      (fun k => v (reduces_S16x16x1024_S16x16.lift (ix2 p q) k)) = _
  rw [ofBits_negInf]
  unfold rowMax
  congr 1
  funext k
  exact congrArg v (lift_ix p q k)

/-- The sum along the group axis is the sum over the group. -/
private theorem sum_apply (v : FVec Ideal S16x16x1024 .f32) (p q : Fin 16) :
    multiReduction .add [2] S16x16 v 0x00000000#32 reduces_S16x16x1024_S16x16 (.inl rfl) rfl (ix2 p q)
      = ∑ l : Fin 1024, v (ix3 p q l) := by
  refine (Ideal.multiReduction_add_single v _ reduces_S16x16x1024_S16x16 _ _ (ix2 p q)).trans ?_
  show ∑ k : Fin 1024, v (reduces_S16x16x1024_S16x16.lift (ix2 p q) k) = _
  exact Finset.sum_congr rfl fun k _ => congrArg v (lift_ix p q k)

/-- A `[16, 16]` array as a column `[16, 16, 1]`, broadcast along the group axis, reads its entry `(p, q)` at every `l`. -/
private theorem column_apply {α : Type} (m : S16x16.Idx → α) (p q : Fin 16) (l : Fin 1024) :
    broadcastTo S16x16x1024 (shapeCast S16x16x1 m shapeCasts_S16x16_S16x16x1) broadcasts_S16x16x1_S16x16x1024 (ix3 p q l)
      = m (ix2 p q) := by
  refine (broadcastTo_apply _ _ (ix3 p q l) (ix3 p q (0 : Fin 1)) fun a => ?_).trans ?_
  · match a with
    | ⟨0, _⟩ => rfl
    | ⟨1, _⟩ => rfl
    | ⟨2, _⟩ => rfl
  · exact shapeCast_apply m _ _ _ (by
      rw [Shape.rowMajor_val_two, Shape.rowMajor_val_three]
      show p.val * 16 + q.val = (p.val * 16 + q.val) * 1 + 0
      omega)

/-- The label plane viewed as a matrix. -/
private theorem label_apply {α : Type} (x : S1x1x16x16.Idx → α) (p q : Fin 16) :
    shapeCast S16x16 x shapeCasts_S1x1x16x16_S16x16 (ix2 p q) = x (ix4 (0 : Fin 1) (0 : Fin 1) p q) :=
  shapeCast_apply x _ _ _ (by
    rw [Shape.rowMajor_val_four, Shape.rowMajor_val_two]
    show ((0 * 1 + 0) * 16 + p.val) * 16 + q.val = p.val * 16 + q.val
    omega)

/-! ## The loss of one group, over an arbitrary re-laid plane and label matrix -/

/-- The loss array at `(p, q)` is the kernel's loss of the group `l ↦ v (p, q, l)` under the label `lb (p, q)`. -/
private theorem loss_apply (v : FVec Ideal S16x16x1024 .f32) (lb : IVec S16x16 32) (p q : Fin 16) :
    select (cmpi .eq lb (broadcast S16x16 4294967196#32)) (broadcast S16x16 (Scalar.ofBits (F := Ideal) .f32 0x00000000#32))
        (subf
          (addf
            (shapeCast S16x16
              (shapeCast S16x16x1
                (multiReduction .maximumf [2] S16x16 v 0xFF800000#32 reduces_S16x16x1024_S16x16 (.inl rfl) rfl)
                shapeCasts_S16x16_S16x16x1)
              shapeCasts_S16x16x1_S16x16)
            (log
              (multiReduction .add [2] S16x16
                (exp
                  (subf v
                    (broadcastTo S16x16x1024
                      (shapeCast S16x16x1
                        (multiReduction .maximumf [2] S16x16 v 0xFF800000#32 reduces_S16x16x1024_S16x16 (.inl rfl) rfl)
                        shapeCasts_S16x16_S16x16x1)
                      broadcasts_S16x16x1_S16x16x1024)))
                0x00000000#32 reduces_S16x16x1024_S16x16 (.inl rfl) rfl)))
          (multiReduction .add [2] S16x16
            (select
              (cmpi .eq (iota .tc S16x16x1024 32 [2] iota_S16x16x1024_d2_w32)
                (broadcastTo S16x16x1024 (shapeCast S16x16x1 lb shapeCasts_S16x16_S16x16x1) broadcasts_S16x16x1_S16x16x1024))
              v (broadcast S16x16x1024 (Scalar.ofBits (F := Ideal) .f32 0x00000000#32)))
            0x00000000#32 reduces_S16x16x1024_S16x16 (.inl rfl) rfl))
        (ix2 p q)
      = nllK (fun l => v (ix3 p q l)) (lb (ix2 p q)) := by
  refine (select_apply _ _ _ _).trans ?_
  refine (select_cmpi_eq _ _ _ _).trans ?_
  unfold nllK
  refine if_congr Iff.rfl Ideal.ofBits_zero_f32 ?_
  refine (subf_apply _ _ _).trans (congrArg₂ (· - ·) ?_ ?_)
  · refine (addf_apply _ _ _).trans (congrArg₂ (· + ·) ?_ ?_)
    · exact (congrFun (shapeCast_shapeCast _ _ _) _).trans (max_apply v p q)
    · refine congrArg Ideal.log ((sum_apply _ p q).trans ?_)
      unfold sumExp
      refine Finset.sum_congr rfl fun l _ => ?_
      refine congrArg Ideal.exp (congrArg (v (ix3 p q l) - ·) ?_)
      exact (column_apply _ p q l).trans (max_apply v p q)
  · refine (sum_apply _ p q).trans (Finset.sum_congr rfl fun l _ => ?_)
    refine (select_apply _ _ _ _).trans ?_
    refine (select_cmpi_eq _ _ _ _).trans ?_
    refine if_congr ?_ rfl Ideal.ofBits_zero_f32
    rw [iota_single_apply, column_apply]

/-- A trip's payload at `(0, p, q)`: the running maximum there against the loss of the plane's group `(p, q)`. -/
theorem pay2_apply (x6 : Vec Ideal S1x1x512x512 .f32) (l21 : Vec Ideal S1x1x16x16 .i32) (p35 : Vec Ideal S1x16x16 .f32)
    (p q : Fin 16) :
    k0_pay2 (F := Ideal) x6 l21 p35 (ix3 (0 : Fin 1) p q)
      = max (p35 (ix3 (0 : Fin 1) p q))
          (nllK (fun l => x6 (ix4 (0 : Fin 1) (0 : Fin 1) (grow l p) (gcol l q))) (l21 (ix4 (0 : Fin 1) (0 : Fin 1) p q))) := by
  unfold k0_pay2
  refine (shapeCast_ab_1ab_apply _ _ (0 : Fin 1) p q).trans ?_
  refine (maximumf_apply _ _ _).trans ?_
  refine congrArg₂ max (shapeCast_1ab_ab_apply p35 _ p q) ?_
  refine (loss_apply _ _ p q).trans ?_
  exact congrArg₂ nllK (funext fun l => relaid_apply x6 p q l) (label_apply l21 p q)

end Cert.KernelIdeal.Pay

end
-- ==== Proof.KI.OutIdeal.lean ====
/-
  The kernel body's output block at the extended reals, entry by entry: at `(n, p, q)` the running maximum found there
  against the loss of image `n`'s group `(p, q)` of the block's channel under its label.
-/
import proofs.«413696_j43370579755026_3_alg».proof.Proof.KI.Out
import proofs.«413696_j43370579755026_3_alg».proof.Proof.KPayload
import proofs.«413696_j43370579755026_3_alg».proof.Proof.Spec

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

/-- Slot `k`'s payload at `(0, p, q)`, for `k` the slot of image `n`: the three loads' rectangles start at `(n, 0, 0, 0)`,
    `(0, n, 0, 0)` and `(n, 0, 0)`, so they read plane `n` of `x0`, label plane `n` of `x1` and slot `n` of `g`. -/
private theorem slotPay_ideal (x0 : S4x1x512x512.Idx → Elt Ideal .f32) (x1 : S1x4x16x16.Idx → Elt Ideal .i32)
    (g : S4x16x16.Idx → Elt Ideal .f32) (k : Fin k0_t1_loop.trips) (n : Fin 4) (hk : k.val = n.val) (p q : Fin 16) :
    slotPay (F := Ideal) x0 x1 g k (ix3 (0 : Fin 1) p q)
      = max (g (ix3 n p q))
          (nllK (fun l => x0 (ix4 n (0 : Fin 1) (grow l p) (gcol l q))) (x1 (ix4 (0 : Fin 1) n p q))) := by
  unfold slotPay
  refine (Cert.KernelIdeal.Pay.pay2_apply _ _ _ p q).trans ?_
  refine congrArg₂ max (congrArg g ?_) (congrArg₂ nllK (funext fun l => congrArg x0 ?_) (congrArg x1 ?_))
  · funext a
    refine Fin.ext ?_
    rw [LoadRect.idx_apply, Rect.off_unit, Rect.stride_unit, Nat.one_mul,
      show k0_off3 k a = (![k.val, 0, 0] : Fin 3 → ℕ) a from congrFun (k0_off3_eq k) a]
    match a with
    | ⟨0, _⟩ => exact hk
    | ⟨1, _⟩ => exact Nat.zero_add _
    | ⟨2, _⟩ => exact Nat.zero_add _
  · funext a
    refine Fin.ext ?_
    rw [LoadRect.idx_apply, Rect.off_unit, Rect.stride_unit, Nat.one_mul,
      show k0_off1 k a = (![k.val, 0, 0, 0] : Fin 4 → ℕ) a from congrFun (k0_off1_eq k) a]
    match a with
    | ⟨0, _⟩ => exact hk
    | ⟨1, _⟩ => rfl
    | ⟨2, _⟩ => exact Nat.zero_add _
    | ⟨3, _⟩ => exact Nat.zero_add _
  · funext a
    refine Fin.ext ?_
    rw [LoadRect.idx_apply, Rect.off_unit, Rect.stride_unit, Nat.one_mul,
      show k0_off2 k a = (![0, k.val, 0, 0] : Fin 4 → ℕ) a from congrFun (k0_off2_eq k) a]
    match a with
    | ⟨0, _⟩ => rfl
    | ⟨1, _⟩ => exact hk
    | ⟨2, _⟩ => exact Nat.zero_add _
    | ⟨3, _⟩ => exact Nat.zero_add _

/-- Entry `(n, p, q)` of the block the body leaves, at `Ideal`. -/
theorem bodyOut_ideal (x0 : S4x1x512x512.Idx → Elt Ideal .f32) (x1 : S1x4x16x16.Idx → Elt Ideal .i32)
    (g : S4x16x16.Idx → Elt Ideal .f32) (n : Fin 4) (p q : Fin 16) :
    bodyOut (F := Ideal) x0 x1 g (ix3 n p q)
      = max (g (ix3 n p q))
          (nllK (fun l => x0 (ix4 n (0 : Fin 1) (grow l p) (gcol l q))) (x1 (ix4 (0 : Fin 1) n p q))) := by
  unfold bodyOut
  refine Eq.trans (congrArg (slotPay x0 x1 g _) ?_) (slotPay_ideal x0 x1 g _ n rfl p q)
  funext a
  match a with
  | ⟨0, _⟩ => rfl
  | ⟨1, _⟩ => rfl
  | ⟨2, _⟩ => rfl

end Cert.KernelIdeal.Body

end
-- ==== Proof.KI.PointValue.lean ====
/-
  The output block after each point, at the extended reals: after point `t = 24 i + c` entry `(k, p, q)` is the maximum,
  from the seed, of the kernel's losses of image `4 i + k`'s group `(p, q)` over the channels `0 … c`.
-/
import proofs.«413696_j43370579755026_3_alg».proof.Proof.KI.Blocks
import proofs.«413696_j43370579755026_3_alg».proof.Proof.KI.OutIdeal
import proofs.«413696_j43370579755026_3_alg».proof.Proof.Spec

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

variable (m : (ℓ : Loc nD τ sig) → Buf (Elt Ideal) ℓ)

/-- The two argument arrays as launched, under the specification's types. -/
abbrev argX (c : Dev nD) : SX.Idx → EReal := m ((c : Thread nD τ).loc main_arg0)
abbrev argL (c : Dev nD) : SL.Idx → BitVec 32 := m ((c : Thread nD τ).loc main_arg1)

/-- One point: the body's block at `(k, p, q)` is the block found there against the loss of image `nOf t k`'s group
    `(p, q)` of channel `chOf t` under its label. -/
private theorem point (c : Dev nD) (t : Fin cfg0.N) (k : Fin 4) (p q : Fin 16)
    (g : S4x16x16.Idx → Elt Ideal .f32) :
    bodyOut (F := Ideal) (xblk m c t) (lblk m c t) g (ix3 k p q)
      = max (g (ix3 k p q))
          (nllK (logits (argX m c) (nOf t k) (chOf t) p q) (lbl (argL m c) (nOf t k) (chOf t) p q)) := by
  refine (bodyOut_ideal _ _ g k p q).trans ?_
  refine congrArg₂ (fun a b => max (g (ix3 k p q)) (nllK a b)) (funext fun l => ?_) ?_
  · refine (xblk_apply m c t k (grow l p) (gcol l q)).trans ?_
    rw [V_main_arg0]
    rfl
  · refine (lblk_apply m c t k p q).trans ?_
    refine (v2_apply m c (chOf t) (nOf t k) p q).trans ?_
    rfl

/-- The channels up to `a ≠ 0` are the channels up to `a - 1` and `a`. -/
private theorem filter_step (a : ℕ) (ha : a < 24) (ha0 : a ≠ 0) :
    ((Finset.univ : Finset (Fin 24)).filter fun c' => c'.val ≤ a)
      = insert (⟨a, ha⟩ : Fin 24) ((Finset.univ : Finset (Fin 24)).filter fun c' => c'.val ≤ a - 1) := by
  ext x
  simp only [Finset.mem_filter, Finset.mem_univ, true_and, Finset.mem_insert, Fin.ext_iff]
  omega

/-- The running maximum over the channels up to `a ≠ 0` is the one up to `a - 1` against channel `a`'s term. -/
private theorem fold_step (f : Fin 24 → EReal) (a : ℕ) (ha : a < 24) (ha0 : a ≠ 0) :
    ((Finset.univ : Finset (Fin 24)).filter fun c' => c'.val ≤ a).fold max seedV f
      = max (((Finset.univ : Finset (Fin 24)).filter fun c' => c'.val ≤ a - 1).fold max seedV f) (f ⟨a, ha⟩) := by
  rw [filter_step a ha ha0, Finset.fold_insert, max_comm]
  simp only [Finset.mem_filter, Finset.mem_univ, true_and]
  omega

/-- The running maximum over channel `0` alone is the seed against channel `0`'s term. -/
private theorem fold_base (f : Fin 24 → EReal) :
    ((Finset.univ : Finset (Fin 24)).filter fun c' => c'.val ≤ 0).fold max seedV f
      = max seedV (f ⟨0, by decide⟩) := by
  have hs : ((Finset.univ : Finset (Fin 24)).filter fun c' => c'.val ≤ 0) = {(⟨0, by decide⟩ : Fin 24)} := by
    ext x
    simp only [Finset.mem_filter, Finset.mem_univ, true_and, Finset.mem_singleton, Fin.ext_iff]
    omega
  rw [hs, Finset.fold_singleton, max_comm]

/-- The running maximum after point `n`, by induction on the point: a block's first channel starts from the seed, a later
    one extends what the point before left, which belongs to the same images. -/
private theorem outAt_apply_aux (c : Dev nD) (k : Fin 4) (p q : Fin 16) :
    ∀ (n : ℕ) (h : n < cfg0.N), outAt (F := Ideal) m c n h (ix3 k p q)
      = ((Finset.univ : Finset (Fin 24)).filter fun c' => c'.val ≤ n % 24).fold max seedV
          (fun c' => nllK (logits (argX m c) (nOf ⟨n, h⟩ k) c' p q) (lbl (argL m c) (nOf ⟨n, h⟩ k) c' p q)) := by
  intro n
  induction n using Nat.strong_induction_on with
  | _ n ih =>
    intro h
    have hN : n < 48 := lt_of_lt_of_eq h N_0
    by_cases h0 : n % 24 = 0
    · refine (congrFun (outAt_first m c ⟨n, h⟩ h0) (ix3 k p q)).trans ?_
      refine (point m c ⟨n, h⟩ k p q _).trans ?_
      rw [Cert.KernelIdeal.Pay.pay1_apply, h0, fold_base]
      have hc : chOf ⟨n, h⟩ = (⟨0, by decide⟩ : Fin 24) := Fin.ext h0
      rw [hc]
    · have h1 : n - 1 < n := by omega
      have hlt : n - 1 < cfg0.N := lt_trans h1 h
      refine (congrFun (outAt_later m c ⟨n, h⟩ h0) (ix3 k p q)).trans ?_
      refine (point m c ⟨n, h⟩ k p q _).trans ?_
      have hn : nOf ⟨n - 1, hlt⟩ k = nOf ⟨n, h⟩ k := by
        refine Fin.ext ?_
        show 4 * ((n - 1) / 24) + k.val = 4 * (n / 24) + k.val
        omega
      have hm : (n - 1) % 24 = n % 24 - 1 := by omega
      have hih := ih (n - 1) h1 hlt
      rw [hn, hm] at hih
      rw [fold_step _ (n % 24) (Nat.mod_lt _ (by decide)) h0]
      exact congrArg₂ max hih rfl

/-- The running maximum after point `t`. -/
theorem outAt_apply (c : Dev nD) (t : Fin cfg0.N) (k : Fin 4) (p q : Fin 16) :
    outAt (F := Ideal) m c t.val t.isLt (ix3 k p q)
      = ((Finset.univ : Finset (Fin 24)).filter fun c' => c'.val ≤ t.val % 24).fold max seedV
          (fun c' => nllK (logits (argX m c) (nOf t k) c' p q) (lbl (argL m c) (nOf t k) c' p q)) :=
  outAt_apply_aux m c k p q t.val t.isLt

end Cert.KernelIdeal.Body

end
-- ==== Proof.KI.Final.lean ====
/-
  The kernel's result, read off the run.

  Output block `i` is written back once, after its last channel, and then holds at `(k, p, q)` the maximum over all 24
  channels, from the seed, of image `4 i + k`'s losses at `(p, q)`; the two write-backs tile the result array, which
  therefore ends at `outK` of the two arguments, entry by entry. The host operations after the region sum that array
  and divide by 2048.
-/
import proofs.«413696_j43370579755026_3_alg».proof.Proof.KI.PointValue

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

variable (m : (ℓ : Loc nD τ sig) → Buf (Elt Ideal) ℓ) (ρ : Dev nD → PrngReg)

/-- The result array after the region: the kernel's entry of the two arguments at every index. -/
def G2 (c : Dev nD) : S8x16x16.Idx → EReal :=
  fun i => outK (argX m c) (argL m c) ⟨(i 0).val, (i 0).isLt⟩ ⟨(i 1).val, (i 1).isLt⟩ ⟨(i 2).val, (i 2).isLt⟩

/-- At a block's last channel every channel has been seen. -/
theorem filter_all (t : Fin cfg0.N) (h : t.val % 24 = 23) :
    ((Finset.univ : Finset (Fin 24)).filter fun c' => c'.val ≤ t.val % 24) = Finset.univ := by
  rw [h]
  ext c'
  simp only [Finset.mem_filter, Finset.mem_univ, true_and, iff_true]
  have := c'.isLt
  omega

/-- The output block at a block's last channel: the kernel's entries of its four images. -/
theorem outAt_last (c : Dev nD) (t : Fin cfg0.N) (h : t.val % 24 = 23) (y : S4x16x16.Idx) :
    outAt (F := Ideal) m c t.val t.isLt y
      = outK (argX m c) (argL m c) (nOf t ⟨(y 0).val, (y 0).isLt⟩) ⟨(y 1).val, (y 1).isLt⟩ ⟨(y 2).val, (y 2).isLt⟩ := by
  obtain ⟨k, p, q, rfl⟩ : ∃ (k : Fin 4) (p q : Fin 16), y = ix3 k p q := ⟨y 0, y 1, y 2, eq_ix3 y⟩
  rw [outAt_apply, filter_all t h]
  rfl

/-- What a write-back point writes back is its block of `G2`. -/
theorem flushed2_eq (c : Dev nD) (t : Fin cfg0.N) (hf : (cfg0.win 2).flush t = true) :
    (dats m 0 c).flushed 2 t = ((cfg0.win 2).blk t).view.read (Elt Ideal) (G2 m c) := by
  have h23 : t.val % 24 = 23 := (flush0_2 t).mp hf
  obtain ⟨-, -, -, -, -, -, -, -, e0, e1, e2⟩ := idx_facts t
  show (cfg0.win 2).cut (grid0.coords t) ((dats m 0 c).after 2 t) = _
  rw [after0_2]
  funext j
  show outAt (F := Ideal) m c t.val t.isLt j = G2 m c (((cfg0.win 2).blk t).view.emb j)
  rw [outAt_last m c t h23]
  unfold G2
  congr 1
  · apply Fin.ext
    show 4 * (t.val / 24) + (j 0).val = win0_2.index t (0 : Fin 3) * 4 + 1 * (j 0).val
    omega
  · apply Fin.ext
    show (j 1).val = win0_2.index t (1 : Fin 3) * 16 + 1 * (j 1).val
    omega
  · apply Fin.ext
    show (j 2).val = win0_2.index t (2 : Fin 3) * 16 + 1 * (j 2).val
    omega

/-- An index of the result array is in point `t`'s block iff each coordinate is in the block's range on its axis. -/
theorem mem_blk2 (t : Fin cfg0.N) (i : S8x16x16.Idx) :
    i ∈ ((cfg0.win 2).blk t).view.set ↔ ∀ a : Fin 3, win0_2.index t a * S4x16x16.size a ≤ (i a).val ∧ (i a).val < win0_2.index t a * S4x16x16.size a + S4x16x16.size a := by
  show i ∈ ((View.whole main_v3).slice (win0_2.rect t)).set ↔ _
  rw [View.set_slice_whole, Rect.mem_set_unit]
  exact Iff.rfl

/-- Every index of the result array lies in the block of its image group's write-back point. -/
theorem cover2 (i : S8x16x16.Idx) : ∃ t : Fin cfg0.N, (cfg0.win 2).flush t = true ∧ i ∈ ((cfg0.win 2).blk t).view.set := by
  have hi0 : (i 0).val < 8 := (i 0).isLt
  have hi1 : (i 1).val < 16 := (i 1).isLt
  have hi2 : (i 2).val < 16 := (i 2).isLt
  let t : Fin cfg0.N := ⟨24 * ((i 0).val / 4) + 23, by rw [show cfg0.N = 48 from N_0]; omega⟩
  have ht : t.val = 24 * ((i 0).val / 4) + 23 := rfl
  obtain ⟨-, -, -, -, -, -, -, -, e0, e1, e2⟩ := idx_facts t
  refine ⟨t, (flush0_2 t).mpr (by rw [ht]; omega), ?_⟩
  rw [mem_blk2]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 16 ≤ (i 1).val ∧ (i 1).val < win0_2.index t (1 : Fin 3) * 16 + 16; omega
  | ⟨2, _⟩ => show win0_2.index t (2 : Fin 3) * 16 ≤ (i 2).val ∧ (i 2).val < win0_2.index t (2 : Fin 3) * 16 + 16; omega

/-- The result array after the run. -/
theorem final2 (c : Dev nD) : (dats m 0 c).arrAt 2 cfg0.N = G2 m c :=
  (dats m 0 c).arrAt_eq_of_cover 2 (G2 m c) (fun t hf => flushed2_eq m c t hf) (cover2)

end Cert.KernelIdeal.Body

end
-- ==== Proof.KI.Result.lean ====
/-
  The kernel's run with its result named: the result buffer ends at the sum of the final array over all its entries,
  divided by 2048; the two arguments end as launched.
-/
import proofs.«413696_j43370579755026_3_alg».proof.Proof.KI.Final
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

variable (m : (ℓ : Loc nD τ sig) → Buf (Elt Ideal) ℓ) (ρ : Dev nD → PrngReg)

/-- The kernel's result: the host's sum of the final array, from zero, over the host's constant 2048. -/
def resK (c : Dev nD) : Buf (Elt Ideal) ((c : Thread nD τ).loc main_v5) :=
  (Host.divf (F := Ideal) (Host.reduceAdd (F := Ideal) (φ := .f32) (G2 m c) (constant (F := Ideal) S_ .f32 0#32) reducesTo_S8x16x16_S_d0_1_2 h_S_)
    (constant (F := Ideal) S_ .f32 1157627904#32) : FVec Ideal S_ .f32)

/-- The host operations after the region, applied to the arrays the region leaves, give the result buffer `resK`. -/
theorem tail_v5 (c : Dev nD) : Pipeline.afterTail₀ cfgs (dats m) 0 (V0 m) [hostOps1] c main_v5 = resK m c := by
  unfold Pipeline.afterTail₀
  show StableHlo.after hostOps1 _ (Proc.devRef .tc main_v5) = _
  after_results
  unfold resK
  have e : Pipeline.withArrays (cfgs 0).spec c (V0 m c) (fun w => (dats m 0 c).arrAt w (cfgs 0).N) (Proc.devRef .tc main_v3) = G2 m c :=
    (Pipeline.withArrays_arr spec0 launch0.win.arr_inj c _ _ 2).trans (final2 m c)
  rw [e]

/-- The value run: every weakly fair execution terminates with the result buffer at `resK` and the arguments unchanged. -/
theorem run_value : θ_run defs (onTc (τ := τ) (main (F := Ideal))) ⟨m, fun _ => 0, ρ⟩ (fun r => ∀ c : Dev nD,
      r.2.mem ((c.tc : Thread nD τ).loc main_v5) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans (tail_v5 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Body

end
-- ==== Proof.RefLayout.lean ====
/-
  The reference's two patch re-layouts, read back to image coordinates.

  The reference cuts each 512 × 512 plane into 32 × 32 patches of 16 × 16, and lists, per image and channel, the coarse
  cell `l = 32 h + w` along one axis and the offset `r = 16 p + q` inside the patch along another:
  entry `(n, c, l, r)` of the re-laid scores is `x[n, c, 16 h + p, 16 w + q]`. The labels go through the same cut with one
  channel, and only the first 24 coarse cells are kept: entry `(n, c, r)`, `c < 24`, is the label at coarse cell `(0, c)`,
  offset `(p, q)`, that is `label[n, p, 16 c + q]`.
-/
import proofs.«413696_j43370579755026_3_alg».proof.Proof.ReadP
import proofs.«413696_j43370579755026_3_alg».proof.Proof.Spec
import Idealize.ShloMosaic.Lib.Pipeline.Value
import Idealize.ShloMosaic.Lib.ValueLayout
import Idealize.ShloMosaic.Lib.ValueIdxRank6

noncomputable section

namespace Cert.ReferenceIdeal.RefLayout

open Idealize.ShloMosaic Idealize.ShloMosaic.ValueIdx Cert.ReferenceIdeal Cert.ReferenceIdeal.Gen Cert.ReferenceIdeal.ReadP Cert.Spec

/-! ### The scores -/

/-- Splitting rows and columns: row `16 h + p` is `(h, p)`, column `16 w + q` is `(w, q)`; the flat positions agree. -/
private theorem v1_read (x0 : (⟨S8x24x512x512, .f32⟩ : BufTy).Contents (Elt Ideal))
    (n : Fin 8) (c : Fin 24) (h : Fin 32) (p : Fin 16) (w : Fin 32) (q : Fin 16) :
    val_main_v1 (F := Ideal) x0 (ix6 n c h p w q)
      = x0 (ix4 n c (⟨16 * h.val + p.val, by have := h.isLt; have := p.isLt; omega⟩ : Fin 512)
          (⟨16 * w.val + q.val, by have := w.isLt; have := q.isLt; omega⟩ : Fin 512)) := by
  unfold val_main_v1
  refine shapeCast_apply x0 shapeCasts_S8x24x512x512_S8x24x32x16x32x16 (ix6 n c h p w q) _ ?_
  rw [Shape.rowMajor_val_four, Shape.rowMajor_val_six]
  have hn := n.isLt; have hc := c.isLt; have hh := h.isLt; have hp := p.isLt; have hw := w.isLt; have hq := q.isLt
  show ((n.val * 24 + c.val) * 512 + (16 * h.val + p.val)) * 512 + (16 * w.val + q.val)
    = ((((n.val * 24 + c.val) * 32 + h.val) * 16 + p.val) * 32 + w.val) * 16 + q.val
  omega

/-- The axes permuted to `(n, h, w, p, q, c)`. -/
private theorem v2_read (x0 : (⟨S8x24x512x512, .f32⟩ : BufTy).Contents (Elt Ideal))
    (n : Fin 8) (h : Fin 32) (w : Fin 32) (p : Fin 16) (q : Fin 16) (c : Fin 24) :
    val_main_v2 (F := Ideal) x0 (ix6 n h w p q c) = val_main_v1 (F := Ideal) x0 (ix6 n c h p w q) := by
  rw [val_main_v2_apply]
  refine congrArg (val_main_v1 (F := Ideal) x0) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- Merging `(h, w)` into the coarse cell `l = 32 h + w` and `(p, q)` into the offset `r = 16 p + q`. -/
private theorem v3_read (x0 : (⟨S8x24x512x512, .f32⟩ : BufTy).Contents (Elt Ideal))
    (n : Fin 8) (l : Fin 1024) (r : Fin 256) (c : Fin 24) :
    val_main_v3 (F := Ideal) x0 (ix4 n l r c)
      = val_main_v2 (F := Ideal) x0 (ix6 n (⟨l.val / 32, by have := l.isLt; omega⟩ : Fin 32)
          (⟨l.val % 32, by omega⟩ : Fin 32) (⟨r.val / 16, by have := r.isLt; omega⟩ : Fin 16)
          (⟨r.val % 16, by omega⟩ : Fin 16) c) := by
  unfold val_main_v3
  refine shapeCast_apply (val_main_v2 (F := Ideal) x0) shapeCasts_S8x32x32x16x16x24_S8x1024x256x24 (ix4 n l r c) _ ?_
  rw [Shape.rowMajor_val_four, Shape.rowMajor_val_six]
  have hn := n.isLt; have hc := c.isLt; have hl := l.isLt; have hr := r.isLt
  show ((((n.val * 32 + l.val / 32) * 32 + l.val % 32) * 16 + r.val / 16) * 16 + r.val % 16) * 24 + c.val
    = ((n.val * 1024 + l.val) * 256 + r.val) * 24 + c.val
  omega

/-- The re-laid scores at `(n, c, l, r)`: the group `(n, c, r / 16, r % 16)` at its coarse cell `l`. -/
theorem v4_apply (x0 : (⟨S8x24x512x512, .f32⟩ : BufTy).Contents (Elt Ideal)) (n : Fin 8) (c : Fin 24) (l : Fin 1024) (r : Fin 256) :
    val_main_v4 (F := Ideal) x0 (ix4 n c l r)
      = logits x0 n c (⟨r.val / 16, by have := r.isLt; omega⟩ : Fin 16) (⟨r.val % 16, by omega⟩ : Fin 16) l := by
  rw [val_main_v4_apply]
  have e : idx_main_v4 (ix4 n c l r) = ix4 n l r c := by
    funext a
    match a with
    | ⟨0, _⟩ => rfl
    | ⟨1, _⟩ => rfl
    | ⟨2, _⟩ => rfl
    | ⟨3, _⟩ => rfl
  rw [e, v3_read, v2_read, v1_read]
  rfl

/-! ### The labels -/

/-- The labels with a unit channel axis put in. -/
private theorem v0_read (x1 : (⟨S8x512x512, .i32⟩ : BufTy).Contents (Elt Ideal))
    (n : Fin 8) (z : Fin 1) (i : Fin 512) (j : Fin 512) :
    val_main_v0 (F := Ideal) x1 (ix4 n z i j) = x1 (ix3 n i j) := by
  rw [val_main_v0_apply]
  refine congrArg x1 (funext fun a => ?_)
  match a with
  | ⟨0, _⟩ => rfl
  | ⟨1, _⟩ => rfl
  | ⟨2, _⟩ => rfl

/-- Splitting rows and columns of the label plane; the flat positions agree. -/
private theorem v5_read (x1 : (⟨S8x512x512, .i32⟩ : BufTy).Contents (Elt Ideal))
    (n : Fin 8) (z : Fin 1) (h : Fin 32) (p : Fin 16) (w : Fin 32) (q : Fin 16) :
    val_main_v5 (F := Ideal) x1 (ix6 n z h p w q)
      = val_main_v0 (F := Ideal) x1 (ix4 n z (⟨16 * h.val + p.val, by have := h.isLt; have := p.isLt; omega⟩ : Fin 512)
          (⟨16 * w.val + q.val, by have := w.isLt; have := q.isLt; omega⟩ : Fin 512)) := by
  unfold val_main_v5
  refine shapeCast_apply (val_main_v0 (F := Ideal) x1) shapeCasts_S8x1x512x512_S8x1x32x16x32x16 (ix6 n z h p w q) _ ?_
  rw [Shape.rowMajor_val_four, Shape.rowMajor_val_six]
  have hn := n.isLt; have hz := z.isLt; have hh := h.isLt; have hp := p.isLt; have hw := w.isLt; have hq := q.isLt
  show ((n.val * 1 + z.val) * 512 + (16 * h.val + p.val)) * 512 + (16 * w.val + q.val)
    = ((((n.val * 1 + z.val) * 32 + h.val) * 16 + p.val) * 32 + w.val) * 16 + q.val
  omega

/-- The axes permuted to `(n, h, w, p, q, 1)`. -/
private theorem v6_read (x1 : (⟨S8x512x512, .i32⟩ : BufTy).Contents (Elt Ideal))
    (n : Fin 8) (h : Fin 32) (w : Fin 32) (p : Fin 16) (q : Fin 16) (z : Fin 1) :
    val_main_v6 (F := Ideal) x1 (ix6 n h w p q z) = val_main_v5 (F := Ideal) x1 (ix6 n z h p w q) := by
  rw [val_main_v6_apply]
  refine congrArg (val_main_v5 (F := Ideal) x1) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- Merging `(h, w)` into the coarse cell and `(p, q)` into the offset. -/
private theorem v7_read (x1 : (⟨S8x512x512, .i32⟩ : BufTy).Contents (Elt Ideal))
    (n : Fin 8) (l : Fin 1024) (r : Fin 256) (z : Fin 1) :
    val_main_v7 (F := Ideal) x1 (ix4 n l r z)
      = val_main_v6 (F := Ideal) x1 (ix6 n (⟨l.val / 32, by have := l.isLt; omega⟩ : Fin 32)
          (⟨l.val % 32, by omega⟩ : Fin 32) (⟨r.val / 16, by have := r.isLt; omega⟩ : Fin 16)
          (⟨r.val % 16, by omega⟩ : Fin 16) z) := by
  unfold val_main_v7
  refine shapeCast_apply (val_main_v6 (F := Ideal) x1) shapeCasts_S8x32x32x16x16x1_S8x1024x256x1 (ix4 n l r z) _ ?_
  rw [Shape.rowMajor_val_four, Shape.rowMajor_val_six]
  have hn := n.isLt; have hz := z.isLt; have hl := l.isLt; have hr := r.isLt
  show ((((n.val * 32 + l.val / 32) * 32 + l.val % 32) * 16 + r.val / 16) * 16 + r.val % 16) * 1 + z.val
    = ((n.val * 1024 + l.val) * 256 + r.val) * 1 + z.val
  omega

/-- The unit channel axis dropped. -/
private theorem v8_read (x1 : (⟨S8x512x512, .i32⟩ : BufTy).Contents (Elt Ideal))
    (n : Fin 8) (l : Fin 1024) (r : Fin 256) :
    val_main_v8 (F := Ideal) x1 (ix3 n l r) = val_main_v7 (F := Ideal) x1 (ix4 n l r (⟨0, Nat.one_pos⟩ : Fin 1)) := by
  unfold val_main_v8
  refine shapeCast_apply (val_main_v7 (F := Ideal) x1) shapeCasts_S8x1024x256x1_S8x1024x256 (ix3 n l r) _ ?_
  rw [Shape.rowMajor_val_four, Shape.rowMajor_val_three]
  show ((n.val * 1024 + l.val) * 256 + r.val) * 1 + 0 = (n.val * 1024 + l.val) * 256 + r.val
  omega

/-- The kept labels at `(n, c, r)`: the label of the group `(n, c, r / 16, r % 16)`. -/
theorem v9_apply (x1 : (⟨S8x512x512, .i32⟩ : BufTy).Contents (Elt Ideal)) (n : Fin 8) (c : Fin 24) (r : Fin 256) :
    val_main_v9 (F := Ideal) x1 (ix3 n c r)
      = lbl x1 n c (⟨r.val / 16, by have := r.isLt; omega⟩ : Fin 16) (⟨r.val % 16, by omega⟩ : Fin 16) := by
  rw [val_main_v9_apply]
  have e : idx_main_v9 (ix3 n c r) = ix3 n (⟨c.val, by have := c.isLt; omega⟩ : Fin 1024) r := by
    funext a
    match a with
    | ⟨0, _⟩ => rfl
    | ⟨1, _⟩ => rfl
    | ⟨2, _⟩ => rfl
  rw [e, v8_read, v7_read, v6_read, v5_read, v0_read]
  unfold lbl
  have hc := c.isLt; have hr := r.isLt
  refine congrArg x1 (funext fun a => ?_)
  match a with
  | ⟨0, _⟩ => rfl
  | ⟨1, _⟩ =>
    refine Fin.ext ?_
    show 16 * (c.val / 32) + r.val / 16 = r.val / 16
    omega
  | ⟨2, _⟩ =>
    refine Fin.ext ?_
    show 16 * (c.val % 32) + r.val % 16 = 16 * c.val + r.val % 16
    omega

end Cert.ReferenceIdeal.RefLayout

end
-- ==== Proof.RefRead.lean ====
/-
  The reference's per-entry value, read at an index: entry `(n, 16 p + q)` of the array the reference averages is the
  maximum over the 24 channels, from `-∞`, of the reference's loss of the group `(n, c, p, q)` under its label — the two
  patch re-layouts read back to image coordinates, the log-softmax as `(v - M) - log S`, and, for an accepted label, the
  index wrap, the range mask and the gather reduced to the labelled class.
-/
import proofs.«413696_j43370579755026_3_alg».proof.Proof.ReadP
import proofs.«413696_j43370579755026_3_alg».proof.Proof.RefLayout
import proofs.«413696_j43370579755026_3_alg».proof.Proof.Spec
import Idealize.ShloMosaic.Lib.Pipeline.Value
import Idealize.ShloMosaic.Lib.ValueLayout
import Idealize.ShloMosaic.PureOps.Ideal.Laws
import Idealize.ShloMosaic.PureOps.Reduce
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Gen Cert.ReferenceIdeal.ReadP Cert.Spec

private theorem red_chan : S8x24x256.Reduces [1] S8x256 := by decide
private theorem red_cell : S8x24x1024x256.Reduces [2] S8x24x256 := by decide
private theorem red_unit : S8x24x1x256x1.Reduces [4] S8x24x1x256 := by decide

/-- The offset row of a position `r = 16 p + q` inside its patch. -/
private abbrev pr (r : Fin 256) : Fin 16 := ⟨r.val / 16, by have := r.isLt; omega⟩
/-- Its offset column. -/
private abbrev qr (r : Fin 256) : Fin 16 := ⟨r.val % 16, by omega⟩

/-- The bit pattern of `-∞` reads `⊥`. -/
private theorem ofBits_neg_inf : Ideal.ofBits .f32 0xFF800000#32 = (⊥ : EReal) := by
  simp [Ideal.ofBits, Ideal.ieee]

/-- Channel `k` put back into the reduced index `(n, r)`. -/
private theorem lift_chan (h : S8x24x256.Reduces [1] S8x256) (n : Fin 8) (r : Fin 256) (k : Fin (S8x24x256.size 1)) :
    h.lift (ix2 n r) k = ix3 n (⟨k.val, k.isLt⟩ : Fin 24) r := by
  funext c; apply Fin.ext
  fin_cases c <;> rfl

/-- Coarse cell `k` put back into the reduced index `(n, c, r)`. -/
private theorem lift_cell (h : S8x24x1024x256.Reduces [2] S8x24x256) (n : Fin 8) (c : Fin 24) (r : Fin 256)
    (k : Fin (S8x24x1024x256.size 2)) :
    h.lift (ix3 n c r) k = ix4 n c (⟨k.val, k.isLt⟩ : Fin 1024) r := by
  funext a; apply Fin.ext
  fin_cases a <;> rfl

section Real

variable (x0 : (⟨S8x24x512x512, .f32⟩ : BufTy).Contents (Elt Ideal)) (n : Fin 8) (c : Fin 24) (r : Fin 256)

/-- The reduction over the coarse cells is the group's maximum. -/
private theorem rowmax_at :
    val_main_call0_v0 (F := Ideal) x0 (ix3 n c r) = rowMax (logits x0 n c (pr r) (qr r)) := by
  unfold val_main_call0_v0 rowMax
  have h0 := Host.reduce_eq_fold_single (FloatOps.maximumf (F := Ideal) (φ := .f32)) (val_main_v4 (F := Ideal) x0)
    (val_main_call0_cst (F := Ideal)) reducesTo_S8x24x1024x256_S8x24x256_d2 red_cell h_S_ (ix3 n c r)
  refine h0.trans ?_
  have hf : (val_main_v4 (F := Ideal) x0 ∘ red_cell.lift (ix3 n c r)) = (logits x0 n c (pr r) (qr r) : Fin 1024 → EReal) :=
    funext fun k => by
      show val_main_v4 (F := Ideal) x0 _ = _
      rw [lift_cell]
      exact RefLayout.v4_apply x0 n c ⟨k.val, k.isLt⟩ r
  show Finset.fold (max : EReal → EReal → EReal) (Ideal.ofBits .f32 0xFF800000#32)
    (val_main_v4 (F := Ideal) x0 ∘ red_cell.lift (ix3 n c r)) (Finset.univ : Finset (Fin 1024)) = _
  rw [ofBits_neg_inf, hf]
  rfl

/-- The maximum with `-∞` leaves the group's maximum. -/
private theorem call0_v2_at :
    val_main_call0_v2 (F := Ideal) x0 (ix3 n c r) = rowMax (logits x0 n c (pr r) (qr r)) := by
  rw [val_main_call0_v2_apply, val_main_call0_v1_apply, val_main_call0_cst_0_apply, rowmax_at]
  show max (Ideal.ofBits .f32 0xFF800000#32) _ = _
  rw [ofBits_neg_inf]; exact max_eq_right bot_le

/-- The shifted logit. -/
private theorem call0_v5_at (l : Fin 1024) :
    val_main_call0_v5 (F := Ideal) x0 (ix4 n c l r)
      = logits x0 n c (pr r) (qr r) l - rowMax (logits x0 n c (pr r) (qr r)) := by
  rw [val_main_call0_v5_apply, val_main_call0_v4_apply, val_main_call0_v3_apply]
  have hi : idx_main_call0_v3 (idx_main_call0_v4 (ix4 n c l r)) = ix3 n c r := by
    funext a; match a with | ⟨0, _⟩ => rfl | ⟨1, _⟩ => rfl | ⟨2, _⟩ => rfl
  rw [hi, call0_v2_at, RefLayout.v4_apply]
  rfl

/-- The sum of the exponentials of the shifted logits. -/
private theorem call0_v7_at :
    val_main_call0_v7 (F := Ideal) x0 (ix3 n c r) = sumExp (logits x0 n c (pr r) (qr r)) := by
  rw [val_main_call0_v7_apply]
  unfold sumExp
  show Ideal.ofBits .f32 0x00000000#32 + _ = _
  rw [Ideal.ofBits_zero_f32, zero_add]
  refine Finset.sum_congr rfl fun k _ => ?_
  have hi : idx_main_call0_v7 (ix3 n c r) k = ix4 n c k r := by
    funext a; match a with | ⟨0, _⟩ => rfl | ⟨1, _⟩ => rfl | ⟨2, _⟩ => rfl | ⟨3, _⟩ => rfl
  rw [hi, val_main_call0_v6_apply, call0_v5_at]
  rfl

/-- The log-softmax at coarse cell `l`. -/
private theorem v10_at (l : Fin 1024) :
    val_main_v10 (F := Ideal) x0 (ix4 n c l r)
      = (logits x0 n c (pr r) (qr r) l - rowMax (logits x0 n c (pr r) (qr r)))
          - Ideal.log (sumExp (logits x0 n c (pr r) (qr r))) := by
  rw [val_main_v10_apply, call0_v5_at, val_main_call0_v10_apply, val_main_call0_v9_apply, val_main_call0_v8_apply]
  have hi : idx_main_call0_v8 (idx_main_call0_v10 (ix4 n c l r)) = ix3 n c r := by
    funext a; match a with | ⟨0, _⟩ => rfl | ⟨1, _⟩ => rfl | ⟨2, _⟩ => rfl
  rw [hi, call0_v7_at]
  rfl

end Real

/-- The unit coordinate put back into the reduced index `(n, c, 0, r)`. -/
private theorem lift_unit (h : S8x24x1x256x1.Reduces [4] S8x24x1x256) (n : Fin 8) (c : Fin 24) (r : Fin 256)
    (k : Fin (S8x24x1x256x1.size 4)) :
    h.lift (ix4 n c (0 : Fin 1) r) k = ix5 n c (0 : Fin 1) r (0 : Fin 1) := by
  funext a; apply Fin.ext
  match a with
  | ⟨0, _⟩ => rfl
  | ⟨1, _⟩ => rfl
  | ⟨2, _⟩ => rfl
  | ⟨3, _⟩ => rfl
  | ⟨4, _⟩ => exact Nat.lt_one_iff.mp k.isLt

local notation "gd" => gather_S8x24x1024x256_S8x24x1x256x1_S8x24x1x256_n_2_013_013_2_4_1111

/-- The gather along the coarse-cell axis at `(n, c, 0, r)`: the operand at the start index there, read signed and
    clamped into `[0, 1023]`, the other three coordinates carried over. -/
private theorem gather_at (y : S8x24x1024x256.Idx → EReal) (idx : IVec S8x24x1x256x1 32) (n : Fin 8) (c : Fin 24) (r : Fin 256) :
    Host.gather gd y idx (ix4 n c (0 : Fin 1) r)
      = y (ix4 n c (⟨min (idx (ix5 n c (0 : Fin 1) r (0 : Fin 1))).toInt.toNat 1023, by omega⟩ : Fin 1024) r) := by
  have e0 : ∀ X : Fin S8x24x1x256.rank, X.val = 0 → ((ix4 n c (0 : Fin 1) r : S8x24x1x256.Idx) X).val = n.val := by
    intro X hX; obtain rfl : X = ⟨0, by decide⟩ := Fin.ext hX; rfl
  have e1 : ∀ X : Fin S8x24x1x256.rank, X.val = 1 → ((ix4 n c (0 : Fin 1) r : S8x24x1x256.Idx) X).val = c.val := by
    intro X hX; obtain rfl : X = ⟨1, by decide⟩ := Fin.ext hX; rfl
  have e2 : ∀ X : Fin S8x24x1x256.rank, X.val = 2 → ((ix4 n c (0 : Fin 1) r : S8x24x1x256.Idx) X).val = 0 := by
    intro X hX; obtain rfl : X = ⟨2, by decide⟩ := Fin.ext hX; rfl
  have e3 : ∀ X : Fin S8x24x1x256.rank, X.val = 3 → ((ix4 n c (0 : Fin 1) r : S8x24x1x256.Idx) X).val = r.val := by
    intro X hX; obtain rfl : X = ⟨3, by decide⟩ := Fin.ext hX; rfl
  unfold Host.gather
  congr 1
  funext a; apply Fin.ext
  show (gd).start _ idx a + (gd).batchCoord _ a + (gd).offCoord _ a = _
  fin_cases a
  · have ha : (0 : Fin S8x24x1024x256.rank) ∈ (gd).operandBatchingDims := by decide
    show (gd).start _ idx 0 + (gd).batchCoord _ 0 + (gd).offCoord _ 0 = n.val
    rw [GatherDims.start_batching _ _ _ _ ha,
      GatherDims.offCoord_eq_zero _ _ _ (fun h => ((GatherDims.mem_sKept _ _).1 h).2 ha)]
    unfold GatherDims.batchCoord
    rw [dif_pos ha]
    unfold GatherDims.siCoord
    simp only [Fin.val_cast, Nat.zero_add, Nat.add_zero]
    exact e0 _ rfl
  · have ha : (1 : Fin S8x24x1024x256.rank) ∈ (gd).operandBatchingDims := by decide
    show (gd).start _ idx 1 + (gd).batchCoord _ 1 + (gd).offCoord _ 1 = c.val
    rw [GatherDims.start_batching _ _ _ _ ha,
      GatherDims.offCoord_eq_zero _ _ _ (fun h => ((GatherDims.mem_sKept _ _).1 h).2 ha)]
    unfold GatherDims.batchCoord
    rw [dif_pos ha]
    unfold GatherDims.siCoord
    simp only [Fin.val_cast, Nat.zero_add, Nat.add_zero]
    exact e1 _ rfl
  · have hb : (2 : Fin S8x24x1024x256.rank) ∉ (gd).operandBatchingDims := by decide
    have hm : (2 : Fin S8x24x1024x256.rank) ∈ (gd).startIndexMap := by decide
    show (gd).start _ idx 2 + (gd).batchCoord _ 2 + (gd).offCoord _ 2 = min (idx (ix5 n c (0 : Fin 1) r (0 : Fin 1))).toInt.toNat 1023
    rw [GatherDims.batchCoord_eq_zero _ _ _ hb,
      GatherDims.offCoord_eq_zero _ _ _ (fun h => ((GatherDims.mem_sKept _ _).1 h).1 (by decide))]
    unfold GatherDims.start
    rw [dif_pos hm]
    have hsi : (gd).siIdx (ix4 n c (0 : Fin 1) r) ⟨List.idxOf (2 : Fin S8x24x1024x256.rank) (gd).startIndexMap,
        List.idxOf_lt_length_iff.2 hm⟩ = ix5 n c (0 : Fin 1) r (0 : Fin 1) := by
      funext b; apply Fin.ext
      unfold GatherDims.siIdx
      fin_cases b
      · rw [dif_neg (by decide)]; unfold GatherDims.siCoord; simp only [Fin.val_cast]; exact e0 _ rfl
      · rw [dif_neg (by decide)]; unfold GatherDims.siCoord; simp only [Fin.val_cast]; exact e1 _ rfl
      · rw [dif_neg (by decide)]; unfold GatherDims.siCoord; simp only [Fin.val_cast]; exact e2 _ rfl
      · rw [dif_neg (by decide)]; unfold GatherDims.siCoord; simp only [Fin.val_cast]; exact e3 _ rfl
      · rw [dif_pos (by decide)]; rfl
    rw [hsi]
    rfl
  · have ha : (3 : Fin S8x24x1024x256.rank) ∈ (gd).operandBatchingDims := by decide
    show (gd).start _ idx 3 + (gd).batchCoord _ 3 + (gd).offCoord _ 3 = r.val
    rw [GatherDims.start_batching _ _ _ _ ha,
      GatherDims.offCoord_eq_zero _ _ _ (fun h => ((GatherDims.mem_sKept _ _).1 h).2 ha)]
    unfold GatherDims.batchCoord
    rw [dif_pos ha]
    unfold GatherDims.siCoord
    simp only [Fin.val_cast, Nat.zero_add, Nat.add_zero]
    exact e3 _ rfl

/-- For a start index that is a class index `b < 1024` the clamp is the identity: the gather reads the operand at
    the class `b` names. -/
private theorem gather_pick (y : S8x24x1024x256.Idx → EReal) (idx : IVec S8x24x1x256x1 32) (n : Fin 8) (c : Fin 24) (r : Fin 256)
    (b : BitVec 32) (hidx : idx (ix5 n c (0 : Fin 1) r (0 : Fin 1)) = b) (hb : b.toNat < 1024) :
    Host.gather gd y idx (ix4 n c (0 : Fin 1) r) = y (ix4 n c (pick b) r) := by
  refine (gather_at y idx n c r).trans ?_
  refine congrArg (fun l => y (ix4 n c l r)) ?_
  apply Fin.ext
  show min (idx (ix5 n c (0 : Fin 1) r (0 : Fin 1))).toInt.toNat 1023 = b.toNat % 1024
  rw [hidx, StableHlo.Predicate.toInt_eq_toNat_of_lt (by omega), Int.toNat_natCast]
  omega

section Label

variable (x1 : (⟨S8x512x512, .i32⟩ : BufTy).Contents (Elt Ideal)) (n : Fin 8) (c : Fin 24) (r : Fin 256)

/-- The kept label compared with the ignore index. -/
private theorem v19_at :
    val_main_v19 (F := Ideal) x1 (ix3 n c r) = IntOp.cmpi .eq (lbl x1 n c (pr r) (qr r)) ignoreW := by
  rw [val_main_v19_apply, val_main_v18_apply, val_main_c_1_apply, RefLayout.v9_apply]

variable (hb : (lbl x1 n c (pr r) (qr r)).toNat < 1024)
include hb

/-- A class label is not the ignore index. -/
private theorem cmp_ignore_zero : IntOp.cmpi .eq (lbl x1 n c (pr r) (qr r)) ignoreW = 0#1 := by
  apply eq_zero_of_ne_one
  rw [StableHlo.Predicate.cmpi_eq_iff]
  intro h; rw [h] at hb; exact absurd hb (by decide)

/-- A class label passes the replacement of the ignore index unchanged. -/
private theorem v13_at : val_main_v13 (F := Ideal) x1 (ix3 n c r) = lbl x1 n c (pr r) (qr r) := by
  rw [val_main_v13_apply, val_main_v12_apply, val_main_v11_apply, val_main_c_apply, RefLayout.v9_apply]
  have h := cmp_ignore_zero x1 n c r hb
  show Scalar.select (IntOp.cmpi .eq (lbl x1 n c (pr r) (qr r)) ignoreW) _ (lbl x1 n c (pr r) (qr r)) = _
  rw [h, select_zero]

/-- It is not negative as a signed word, so the index wrap leaves it. -/
private theorem call2_v4_at : val_main_call2_v4 (F := Ideal) x1 (ix4 n c (0 : Fin 1) r) = lbl x1 n c (pr r) (qr r) := by
  have hi : idx_main_v14 (ix4 n c (0 : Fin 1) r) = ix3 n c r := by
    funext a; match a with | ⟨0, _⟩ => rfl | ⟨1, _⟩ => rfl | ⟨2, _⟩ => rfl
  rw [val_main_call2_v4_apply, val_main_call2_v1_apply, val_main_call2_v0_apply, val_main_call2_c_apply,
    val_main_v14_apply, hi, v13_at x1 n c r hb]
  have hlt : IntOp.cmpi .slt (lbl x1 n c (pr r) (qr r)) 0#32 = 0#1 := by
    apply eq_zero_of_ne_one
    rw [StableHlo.Predicate.slt_iff_toNat (by omega) (by decide)]
    exact Nat.not_lt_zero _
  rw [hlt, select_zero]

/-- The start index of the gather is the label. -/
private theorem call2_v5_at :
    val_main_call2_v5 (F := Ideal) x1 (ix5 n c (0 : Fin 1) r (0 : Fin 1)) = lbl x1 n c (pr r) (qr r) := by
  rw [val_main_call2_v5_apply]
  have hi : idx_main_call2_v5 (ix5 n c (0 : Fin 1) r (0 : Fin 1)) = ix4 n c (0 : Fin 1) r := by
    have hn := n.isLt; have hc := c.isLt; have hr := r.isLt
    funext a; apply Fin.ext
    match a with
    | ⟨0, _⟩ => show ((((n.val * 24 + c.val) * 1 + 0) * 256 + r.val) * 1 + 0) / 6144 = n.val; omega
    | ⟨1, _⟩ => show ((((n.val * 24 + c.val) * 1 + 0) * 256 + r.val) * 1 + 0) / 256 % 24 = c.val; omega
    | ⟨2, _⟩ => rfl
    | ⟨3, _⟩ => show ((((n.val * 24 + c.val) * 1 + 0) * 256 + r.val) * 1 + 0) % 256 = r.val; omega
  rw [hi, call2_v4_at x1 n c r hb]

/-- The range mask `0 ≤ idx ≤ 1023`, folded over its unit axis, is set. -/
private theorem call2_v12_at : val_main_call2_v12 (F := Ideal) x1 (ix4 n c (0 : Fin 1) r) = 1#1 := by
  unfold val_main_call2_v12
  have h0 := Host.reduce_eq_fold_single (IntOp.andi (w := 1)) (val_main_call2_v11 (F := Ideal) x1)
    (val_main_call2_c_3 (F := Ideal)) reducesTo_S8x24x1x256x1_S8x24x1x256_d4 red_unit h_S_ (ix4 n c (0 : Fin 1) r)
  refine h0.trans ?_
  have hf : (val_main_call2_v11 (F := Ideal) x1 ∘ red_unit.lift (ix4 n c (0 : Fin 1) r)) = fun _ : Fin 1 => 1#1 :=
    funext fun k => by
      show val_main_call2_v11 (F := Ideal) x1 _ = _
      rw [lift_unit]
      rw [val_main_call2_v11_apply, val_main_call2_v7_apply, val_main_call2_v10_apply, call2_v5_at x1 n c r hb,
        val_main_call2_v6_apply, val_main_call2_c_2_apply, val_main_call2_v9_apply, val_main_call2_v8_apply,
        val_main_call2_c_1_apply]
      have h1 : IntOp.cmpi .sge (lbl x1 n c (pr r) (qr r)) 0#32 = 1#1 :=
        (StableHlo.Predicate.sge_iff_toNat (by omega) (by decide)).2 (Nat.zero_le _)
      have h2 : IntOp.cmpi .sle (lbl x1 n c (pr r) (qr r)) 1023#32 = 1#1 :=
        (StableHlo.Predicate.sle_iff_toNat (by omega) (by decide)).2 (by show _ ≤ 1023; omega)
      rw [h1, h2]; rfl
  show Finset.fold (IntOp.andi (w := 1)) (1#1) (val_main_call2_v11 (F := Ideal) x1 ∘ red_unit.lift (ix4 n c (0 : Fin 1) r))
    (Finset.univ : Finset (Fin 1)) = _
  rw [hf]
  decide

end Label

/-- One channel's entry of the masked loss: the reference's loss of the group under its label. -/
private theorem v20_apply (x0 : (⟨S8x24x512x512, .f32⟩ : BufTy).Contents (Elt Ideal)) (x1 : (⟨S8x512x512, .i32⟩ : BufTy).Contents (Elt Ideal))
    (hl : ∀ n c p q, LabelOK (lbl x1 n c p q)) (n : Fin 8) (c : Fin 24) (r : Fin 256) :
    val_main_v20 (F := Ideal) x0 x1 (ix3 n c r)
      = nllR (logits x0 n c (pr r) (qr r)) (lbl x1 n c (pr r) (qr r)) := by
  have hi16 : idx_main_v16 (ix3 n c r) = ix4 n c (0 : Fin 1) r := by
    have hn := n.isLt; have hc := c.isLt; have hr := r.isLt
    funext a; apply Fin.ext
    match a with
    | ⟨0, _⟩ => show ((n.val * 24 + c.val) * 256 + r.val) / 6144 = n.val; omega
    | ⟨1, _⟩ => show ((n.val * 24 + c.val) * 256 + r.val) / 256 % 24 = c.val; omega
    | ⟨2, _⟩ => rfl
    | ⟨3, _⟩ => show ((n.val * 24 + c.val) * 256 + r.val) % 256 = r.val; omega
  rw [val_main_v20_apply, v19_at]
  unfold nllR
  rcases hl n c (pr r) (qr r) with hb | hb
  · -- the ignore index: the outer select takes the zero
    rw [if_pos hb, hb]
    have h1 : IntOp.cmpi .eq ignoreW ignoreW = 1#1 := StableHlo.Predicate.cmpi_eq_iff.2 rfl
    rw [h1, select_one, val_main_call3_v1_apply, val_main_call3_v0_apply, val_main_cst_apply]
    exact Ideal.ofBits_zero_f32
  · -- a class index: no wrap, the mask set, the gather at the labelled class
    have hne : ¬ lbl x1 n c (pr r) (qr r) = ignoreW := fun h => by rw [h] at hb; exact absurd hb (by decide)
    have hg : val_main_call2_v13 (F := Ideal) x0 x1 (ix4 n c (0 : Fin 1) r)
        = val_main_v10 (F := Ideal) x0 (ix4 n c (pick (lbl x1 n c (pr r) (qr r))) r) :=
      gather_pick (val_main_v10 (F := Ideal) x0) (val_main_call2_v5 (F := Ideal) x1) n c r _ (call2_v5_at x1 n c r hb) hb
    rw [if_neg hne, cmp_ignore_zero x1 n c r hb, select_zero, val_main_v17_apply, val_main_v16_apply, hi16,
      val_main_v15_apply, call2_v12_at x1 n c r hb, select_one, hg, v10_at]
    rfl

/-- Entry `(n, r)` of the reference's per-position maximum, for accepted labels. -/
theorem out_apply (x0 : (⟨S8x24x512x512, .f32⟩ : BufTy).Contents (Elt Ideal)) (x1 : (⟨S8x512x512, .i32⟩ : BufTy).Contents (Elt Ideal))
    (hl : ∀ n c p q, LabelOK (lbl x1 n c p q)) (n : Fin 8) (r : Fin 256) :
    val_main_v21 (F := Ideal) x0 x1 (ix2 n r)
      = outR x0 x1 n (⟨r.val / 16, by have := r.isLt; omega⟩ : Fin 16) (⟨r.val % 16, by omega⟩ : Fin 16) := by
  unfold val_main_v21 outR
  have h0 := Host.reduce_eq_fold_single (FloatOps.maximumf (F := Ideal) (φ := .f32)) (val_main_v20 (F := Ideal) x0 x1)
    (val_main_cst_2 (F := Ideal)) reducesTo_S8x24x256_S8x256_d1 red_chan h_S_ (ix2 n r)
  refine h0.trans ?_
  have hf : (val_main_v20 (F := Ideal) x0 x1 ∘ red_chan.lift (ix2 n r))
      = fun c : Fin 24 => nllR (logits x0 n c (pr r) (qr r)) (lbl x1 n c (pr r) (qr r)) :=
    funext fun k => by
      show val_main_v20 (F := Ideal) x0 x1 (_) = _
      rw [lift_chan]
      exact v20_apply x0 x1 hl n ⟨k.val, k.isLt⟩ r
  show Finset.fold (max : EReal → EReal → EReal) (Ideal.ofBits .f32 0xFF800000#32)
    (val_main_v20 (F := Ideal) x0 x1 ∘ red_chan.lift (ix2 n r)) (Finset.univ : Finset (Fin 24)) = _
  rw [ofBits_neg_inf, hf]
  rfl

end Cert.ReferenceIdeal.RefValue

end
-- ==== Proof.Analysis.lean ====
/-
  The mathematics that joins the two programs on one softmax group, and on the maximum over the channels.

  For finite logits `v` the group's maximum `M` is a real number attained by some logit, every `exp (v l - M)` lies in
  `(0, 1]` and one of them is `1`, so `S = Σ exp (v l - M)` is a real number `≥ 1` and `log S ≥ 0` is real. Then
  `(M + log S) - v b = -((v b - M) - log S)` is an identity of real numbers, a one-hot sum `Σ_l [l = b] v l` is `v b` for a
  class index `b < 1024`, and `M + log S ≥ M ≥ v b` makes the loss non-negative. A maximum of non-negative numbers over a
  non-empty index set is the same from any seed `≤ 0` as from `-∞`.
-/
import proofs.«413696_j43370579755026_3_alg».proof.Proof.Spec
import Mathlib.Data.Finset.Fold
import Mathlib.Data.Finset.Max
import Mathlib.Data.EReal.Operations
import Mathlib.Analysis.SpecialFunctions.Log.Basic

noncomputable section

open scoped BigOperators

namespace Cert.Spec

open Idealize.ShloMosaic

/-- The seed `-1e30` is below zero. -/
theorem seedV_le_zero : seedV ≤ 0 := by
  simp [Ideal.ofBits, Ideal.ieee, -EReal.coe_mul]

/-- A finite sum of real numbers, read in the extended reals, is the sum of their readings. -/
private theorem coe_sum_real {ι : Type} (s : Finset ι) (f : ι → ℝ) :
    (∑ l ∈ s, ((f l : ℝ) : EReal)) = ((∑ l ∈ s, f l : ℝ) : EReal) := by
  classical
  induction s using Finset.induction_on with
  | empty => simp
  | insert a s ha ih => rw [Finset.sum_insert ha, Finset.sum_insert ha, ih, EReal.coe_add]

/-- The maximum of a group of real logits is one of them, and bounds them all. -/
private theorem rowMax_real (r : Fin 1024 → ℝ) :
    ∃ m : Fin 1024, rowMax (fun l => ((r l : ℝ) : EReal)) = ((r m : ℝ) : EReal) ∧ ∀ l, r l ≤ r m := by
  obtain ⟨m, -, hm⟩ := Finset.exists_max_image (Finset.univ : Finset (Fin 1024)) r ⟨0, Finset.mem_univ _⟩
  refine ⟨m, le_antisymm ?_ ?_, fun l => hm l (Finset.mem_univ _)⟩
  · exact (Finset.fold_max_le _).2 ⟨bot_le, fun l hl => EReal.coe_le_coe_iff.2 (hm l hl)⟩
  · exact (Finset.le_fold_max _).2 (Or.inr ⟨m, Finset.mem_univ _, le_rfl⟩)

/-- For real logits the maximum `M` and `log S` are real, `log S ≥ 0`, and `M` bounds every logit. -/
private theorem group_real (r : Fin 1024 → ℝ) :
    ∃ M L : ℝ, rowMax (fun l => ((r l : ℝ) : EReal)) = (M : EReal)
      ∧ Ideal.log (sumExp (fun l => ((r l : ℝ) : EReal))) = (L : EReal) ∧ 0 ≤ L ∧ ∀ l, r l ≤ M := by
  obtain ⟨m, hM, hle⟩ := rowMax_real r
  have hS : sumExp (fun l => ((r l : ℝ) : EReal)) = ((∑ l : Fin 1024, Real.exp (r l - r m) : ℝ) : EReal) := by
    unfold sumExp
    rw [hM, ← coe_sum_real]
    refine Finset.sum_congr rfl fun l _ => ?_
    rw [← EReal.coe_sub, Ideal.exp_coe]
  have h1 : (1 : ℝ) ≤ ∑ l : Fin 1024, Real.exp (r l - r m) := by
    have hsingle : Real.exp (r m - r m) ≤ ∑ l : Fin 1024, Real.exp (r l - r m) :=
      Finset.single_le_sum (f := fun l => Real.exp (r l - r m)) (fun l _ => (Real.exp_pos _).le) (Finset.mem_univ m)
    simpa using hsingle
  refine ⟨r m, Real.log (∑ l : Fin 1024, Real.exp (r l - r m)), hM, ?_, Real.log_nonneg h1, hle⟩
  rw [hS, Ideal.log_coe, if_neg (by linarith)]

/-- A word below 1024 is the word of exactly one class index. -/
private theorem ofNat_eq_iff (b : BitVec 32) (hb : b.toNat < 1024) (l : Fin 1024) :
    BitVec.ofNat 32 l.val = b ↔ l = pick b := by
  have hl := l.isLt
  constructor
  · intro h
    subst h
    apply Fin.ext
    simp only [pick, BitVec.toNat_ofNat]
    omega
  · intro h
    subst h
    apply BitVec.eq_of_toNat_eq
    simp only [pick, BitVec.toNat_ofNat]
    omega

/-- The one-hot sum selects the labelled logit. -/
private theorem onehot_sum (v : Fin 1024 → EReal) (b : BitVec 32) (hb : b.toNat < 1024) :
    (∑ l : Fin 1024, (if BitVec.ofNat 32 l.val = b then v l else 0)) = v (pick b) := by
  have : ∀ l : Fin 1024, (if BitVec.ofNat 32 l.val = b then v l else 0) = (if l = pick b then v l else 0) := by
    intro l
    by_cases h : l = pick b
    · rw [if_pos h, if_pos ((ofNat_eq_iff b hb l).2 h)]
    · rw [if_neg h, if_neg (fun h' => h ((ofNat_eq_iff b hb l).1 h'))]
  rw [Finset.sum_congr rfl (fun l _ => this l), Finset.sum_ite_eq']
  simp

/-- A class index below 1024 is not the ignore index. -/
private theorem ne_ignore (b : BitVec 32) (hb : b.toNat < 1024) : b ≠ ignoreW := by
  intro h
  subst h
  revert hb
  decide

/-- Both losses of a real group at a class index, as real numbers. -/
private theorem losses_real (r : Fin 1024 → ℝ) (b : BitVec 32) (hb : b.toNat < 1024) :
    ∃ M L : ℝ, 0 ≤ L ∧ r (pick b) ≤ M
      ∧ nllK (fun l => ((r l : ℝ) : EReal)) b = (((M + L) - r (pick b) : ℝ) : EReal)
      ∧ nllR (fun l => ((r l : ℝ) : EReal)) b = ((-((r (pick b) - M) - L) : ℝ) : EReal) := by
  obtain ⟨M, L, hM, hL, hL0, hle⟩ := group_real r
  refine ⟨M, L, hL0, hle _, ?_, ?_⟩
  · unfold nllK
    rw [if_neg (ne_ignore b hb), onehot_sum _ b hb, hM, hL, EReal.coe_sub, EReal.coe_add]
  · unfold nllR
    rw [if_neg (ne_ignore b hb), hM, hL, EReal.coe_neg, EReal.coe_sub, EReal.coe_sub]

/-- On finite logits and an accepted label the kernel's loss of a group is the reference's. -/
theorem nllK_eq_nllR (v : Fin 1024 → EReal) (hv : ∀ l, ∃ r : ℝ, v l = (r : EReal)) (b : BitVec 32) (hb : LabelOK b) :
    nllK v b = nllR v b := by
  choose r hr using hv
  obtain rfl : v = fun l => ((r l : ℝ) : EReal) := funext hr
  rcases hb with hb | hb
  · unfold nllK nllR
    rw [if_pos hb, if_pos hb]
  · obtain ⟨M, L, -, -, hK, hR⟩ := losses_real r b hb
    rw [hK, hR]
    congr 1
    ring

/-- On finite logits and an accepted label the loss is non-negative. -/
theorem nllK_nonneg (v : Fin 1024 → EReal) (hv : ∀ l, ∃ r : ℝ, v l = (r : EReal)) (b : BitVec 32) (hb : LabelOK b) :
    0 ≤ nllK v b := by
  choose r hr using hv
  obtain rfl : v = fun l => ((r l : ℝ) : EReal) := funext hr
  rcases hb with hb | hb
  · unfold nllK
    rw [if_pos hb]
  · obtain ⟨M, L, hL0, hle, hK, -⟩ := losses_real r b hb
    rw [hK]
    exact_mod_cast (by linarith : (0 : ℝ) ≤ (M + L) - r (pick b))

/-- On finite scores and accepted labels the kernel's entry — the channels' maximum from the seed — is the reference's,
    the maximum from `-∞`. -/
theorem outK_eq_outR (x : SX.Idx → EReal) (lab : SL.Idx → BitVec 32) (hx : ∀ i, ∃ r : ℝ, x i = (r : EReal))
    (hl : ∀ n c p q, LabelOK (lbl lab n c p q)) (n : Fin 8) (p q : Fin 16) :
    outK x lab n p q = outR x lab n p q := by
  have hfin : ∀ c, ∀ l, ∃ r : ℝ, logits x n c p q l = (r : EReal) := fun c l => hx _
  have hfun : (fun c => nllR (logits x n c p q) (lbl lab n c p q))
      = (fun c => nllK (logits x n c p q) (lbl lab n c p q)) :=
    funext fun c => (nllK_eq_nllR _ (hfin c) _ (hl n c p q)).symm
  have h0 : ∀ c, 0 ≤ nllK (logits x n c p q) (lbl lab n c p q) := fun c => nllK_nonneg _ (hfin c) _ (hl n c p q)
  unfold outK outR
  rw [hfun]
  apply le_antisymm
  · refine (Finset.fold_max_le _).2 ⟨?_, fun c hc => (Finset.le_fold_max _).2 (Or.inr ⟨c, hc, le_rfl⟩)⟩
    exact (Finset.le_fold_max _).2 (Or.inr ⟨0, Finset.mem_univ _, seedV_le_zero.trans (h0 0)⟩)
  · exact (Finset.fold_max_le _).2 ⟨bot_le, fun c hc => (Finset.le_fold_max _).2 (Or.inr ⟨c, hc, le_rfl⟩)⟩

end Cert.Spec

end
-- ==== Proof.PreDecode.lean ====
/-
  The precondition, decoded: it is all ones exactly when every score is a real number and every label the loss reads —
  rows below 16 and columns below 384 of each label plane — is the ignore index or a class index below 1024.
-/
import proofs.«413696_j43370579755026_3_alg».proof.Pre_finite_inputs
import proofs.«413696_j43370579755026_3_alg».proof.Proof.Gen.Pre_finite_inputs
import proofs.«413696_j43370579755026_3_alg».proof.Proof.Spec
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs Cert.Spec

/-- The scalar shape has one index. -/
private instance : Subsingleton S_.Idx := ⟨fun a b => funext fun d => d.elim0⟩

/-- Under the precondition every score is finite and every label the loss reads is accepted. -/
theorem of_pre (x0 : FVec Ideal S8x24x512x512 .f32) (x1 : IVec S8x512x512 32)
    (h : Cert.Pre_finite_inputs.fn (F := Ideal) x0 x1 = fun _ => 1#1) :
    (∀ i : S8x24x512x512.Idx, ∃ r : ℝ, x0 i = (r : EReal)) ∧ (∀ n c p q, LabelOK (lbl x1 n c p q)) := by
  have h0 := congrFun h ValueIdx.ix0
  dsimp only [fn] at h0
  obtain ⟨hA, hB⟩ := IntOp.andi_eq_one.1 h0
  refine ⟨fun i => ?_, fun n c p q => ?_⟩
  · -- the score at `i` has absolute value below +∞
    have e := Host.reduce_andi_all _ _ _ _ _ hA i
    have htop : Ideal.ofBits .f32 0x7F800000#32 = (⊤ : EReal) := by simp [Ideal.ofBits, Ideal.ieee]
    have e' : Ideal.cmp .olt (max (x0 i : EReal) (-(x0 i : EReal))) (Ideal.ofBits .f32 0x7F800000#32) = 1#1 := e
    rw [htop] at e'
    have hlt : max (x0 i : EReal) (-(x0 i : EReal)) < ⊤ :=
      of_decide_eq_true ((StableHlo.Predicate.ofBool_eq_one_iff _).1 e')
    have h1 : (x0 i : EReal) ≠ ⊤ := fun ht => by rw [ht] at hlt; simp at hlt
    have h2 : (x0 i : EReal) ≠ ⊥ := fun hb => by rw [hb] at hlt; simp at hlt
    exact ⟨(x0 i : EReal).toReal, (EReal.coe_toReal h1 h2).symm⟩
  · -- the label at row `p`, column `16 c + q` lies in the slice, where the predicate holds
    have hc := c.isLt
    have hq := q.isLt
    have e := Host.reduce_andi_all _ _ _ _ _ hB
      (ix3 n (⟨p.val, p.isLt⟩ : Fin 16) (⟨16 * c.val + q.val, by omega⟩ : Fin 384))
    have hs : extractStridedSlice S8x16x384 ![0, 0, 0] x1 Facts.slices_S8x512x512_S8x16x384_0_0_0
        (ix3 n (⟨p.val, p.isLt⟩ : Fin 16) (⟨16 * c.val + q.val, by omega⟩ : Fin 384)) = lbl x1 n c p q := by
      unfold lbl extractStridedSlice
      refine congrArg x1 (funext fun a => Fin.ext ?_)
      match a with
      | ⟨0, _⟩ => exact Nat.zero_add _
      | ⟨1, _⟩ => exact Nat.zero_add _
      | ⟨2, _⟩ => exact Nat.zero_add _
    change IntOp.ori (IntOp.cmpi .eq (extractStridedSlice S8x16x384 ![0, 0, 0] x1 Facts.slices_S8x512x512_S8x16x384_0_0_0
        (ix3 n (⟨p.val, p.isLt⟩ : Fin 16) (⟨16 * c.val + q.val, by omega⟩ : Fin 384))) 4294967196#32)
      (IntOp.andi (IntOp.cmpi .sge (extractStridedSlice S8x16x384 ![0, 0, 0] x1 Facts.slices_S8x512x512_S8x16x384_0_0_0
        (ix3 n (⟨p.val, p.isLt⟩ : Fin 16) (⟨16 * c.val + q.val, by omega⟩ : Fin 384))) 0#32)
        (IntOp.cmpi .slt (extractStridedSlice S8x16x384 ![0, 0, 0] x1 Facts.slices_S8x512x512_S8x16x384_0_0_0
        (ix3 n (⟨p.val, p.isLt⟩ : Fin 16) (⟨16 * c.val + q.val, by omega⟩ : Fin 384))) 1024#32)) = 1#1 at e
    rw [hs] at e
    rcases IntOp.ori_eq_one.1 e with he | he
    · exact Or.inl (IntOp.cmpi_eq.1 he)
    · obtain ⟨hge, hlt⟩ := IntOp.andi_eq_one.1 he
      have hge' := IntOp.cmpi_sge.1 hge
      have hlt' := IntOp.cmpi_slt.1 hlt
      have z0 : (0#32 : BitVec 32).toInt = 0 := by decide
      have z1 : (1024#32 : BitVec 32).toInt = 1024 := by decide
      rw [z0] at hge'
      rw [z1] at hlt'
      right
      have hw := BitVec.toInt_eq_toNat_cond (lbl x1 n c p q)
      have hb := (lbl x1 n c p q).isLt
      split at hw <;> omega

end Cert.Pre_finite_inputs.Decode

end
-- ==== Proof.SumBij.lean ====
/-
  The two programs' last sums run over the same 2048 numbers: the kernel's over `(n, p, q)`, the reference's over
  `(n, 16 p + q)`.
-/
import Idealize.ShloMosaic.PureOps.Ideal
import Idealize.ShloMosaic.Lib.ValueIdx

noncomputable section

open scoped BigOperators

namespace Cert.Spec

open Idealize.ShloMosaic Idealize.ShloMosaic.ValueIdx

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- A sum over a rank-3 index set is the triple sum over the coordinates. -/
private theorem sum_idx3 {M : Type*} [AddCommMonoid M] {n0 n1 n2 : Nat} (g : (⟨3, ![n0, n1, n2]⟩ : Shape).Idx → M) :
    ∑ i, g i = ∑ a : Fin n0, ∑ b : Fin n1, ∑ c : Fin n2, g (ix3 a b c) := by
  rw [← Equiv.sum_comp (idxEquiv3 (n0 := n0) (n1 := n1) (n2 := n2)).symm g, Fintype.sum_prod_type]
  refine Finset.sum_congr rfl fun a _ => ?_
  rw [Fintype.sum_prod_type]
  rfl

/-- A number below 256 is `16 p + q` for exactly one pair `p, q` below 16: its quotient and remainder by 16. -/
private def splitEquiv : Fin 256 ≃ Fin 16 × Fin 16 where
  toFun r := (⟨r.val / 16, by have := r.isLt; omega⟩, ⟨r.val % 16, by omega⟩)
  invFun t := ⟨16 * t.1.val + t.2.val, by have := t.1.isLt; have := t.2.isLt; omega⟩
  left_inv r := by
    apply Fin.ext
    show 16 * (r.val / 16) + r.val % 16 = r.val
    omega
  right_inv t := by
    have h1 := t.1.isLt
    have h2 := t.2.isLt
    refine Prod.ext (Fin.ext ?_) (Fin.ext ?_)
    · show (16 * t.1.val + t.2.val) / 16 = t.1.val
      omega
    · show (16 * t.1.val + t.2.val) % 16 = t.2.val
      omega

/-- Summing over the index set [8, 16, 16] is summing over [8, 256] with the last coordinate split as `16 p + q`. -/
theorem sum_reindex (f : Fin 8 → Fin 16 → Fin 16 → EReal) :
    (∑ j : (⟨3, ![8, 16, 16]⟩ : Shape).Idx, f ⟨(j 0).val, (j 0).isLt⟩ ⟨(j 1).val, (j 1).isLt⟩ ⟨(j 2).val, (j 2).isLt⟩)
      = ∑ j : (⟨2, ![8, 256]⟩ : Shape).Idx,
          f ⟨(j 0).val, (j 0).isLt⟩ (⟨(j 1).val / 16, by have : (j 1).val < 256 := (j 1).isLt; omega⟩ : Fin 16)
            (⟨(j 1).val % 16, by omega⟩ : Fin 16) := by
  rw [sum_idx3, sum_idx2]
  refine Finset.sum_congr rfl fun n _ => ?_
  show (∑ p : Fin 16, ∑ q : Fin 16, f n p q)
    = ∑ r : Fin 256, f n (splitEquiv r).1 (splitEquiv r).2
  rw [Equiv.sum_comp splitEquiv (fun t : Fin 16 × Fin 16 => f n t.1 t.2), Fintype.sum_prod_type]

end Cert.Spec

end
-- ==== Proof.Alg.lean ====
/-
  The equivalence of the idealized kernel and the idealized reference.

  Both programs end by summing 2048 numbers from zero and dividing by the same constant 2048. The kernel's numbers are,
  per `(n, p, q)`, the maximum from the seed over the channels of its loss of the group `(n, c, p, q)`; the reference's
  are, per `(n, 16 p + q)`, the maximum from `-∞` of its own loss of the same group. Under the precondition every score
  is a real number and every label read is the ignore index or a class index, so the two losses agree and are
  non-negative, the two maxima agree, and the two sums run over the same numbers.
-/
import proofs.«413696_j43370579755026_3_alg».proof.Defs
import proofs.«413696_j43370579755026_3_alg».proof.Proof.KI.Result
import proofs.«413696_j43370579755026_3_alg».proof.Proof.RefRunHand
import proofs.«413696_j43370579755026_3_alg».proof.Proof.RefRead
import proofs.«413696_j43370579755026_3_alg».proof.Proof.Analysis
import proofs.«413696_j43370579755026_3_alg».proof.Proof.PreDecode
import proofs.«413696_j43370579755026_3_alg».proof.Proof.SumBij
import Idealize.ShloMosaic.PureOps.Ideal.Laws

set_option maxRecDepth 16384

noncomputable section

open scoped BigOperators

namespace Cert.Proof.Alg

open Idealize.ShloMosaic Idealize.ShloMosaic.TcCoe Idealize.SL.Sem Idealize.ShloMosaic.ValueIdx Cert.Spec

/-- The host's sum of an array over all its entries, at the extended reals: the initial value plus the sum. -/
theorem reduceAdd_all (G : Cert.KernelIdeal.S8x16x16.Idx → EReal) (i : Cert.KernelIdeal.S_.Idx) :
    Host.reduceAdd (F := Ideal) (φ := .f32) G (constant Cert.KernelIdeal.S_ .f32 0#32)
        Cert.KernelIdeal.Facts₀.reducesTo_S8x16x16_S_d0_1_2 Cert.KernelIdeal.Facts₀.h_S_ i
      = (constant (F := Ideal) Cert.KernelIdeal.S_ .f32 0#32) (Shape.Idx.first Cert.KernelIdeal.Facts₀.h_S_) + ∑ j : Cert.KernelIdeal.S8x16x16.Idx, G j := by
  simp only [Host.reduceAdd, Ideal.hostReduceAdd_def]
  exact Ideal.hostReduceAdd_total Cert.KernelIdeal.Facts₀.reducesTo_S8x16x16_S_d0_1_2 (fun b => b.elim0) G _ i

/-- Under finite scores and accepted labels the reference's result is the kernel's. -/
theorem result_eq (m : (ℓ : Loc Cert.KernelIdeal.nD Cert.KernelIdeal.τ Cert.KernelIdeal.sig) → Buf (Elt Ideal) ℓ) (c : Dev Cert.KernelIdeal.nD)
    (hx : ∀ i, ∃ r : ℝ, Cert.KernelIdeal.Body.argX m c i = (r : EReal))
    (hl : ∀ n ch p q, LabelOK (lbl (Cert.KernelIdeal.Body.argL m c) n ch p q)) :
    Cert.ReferenceIdeal.ReadP.val_main_v23 (F := Ideal) (Cert.KernelIdeal.Body.argX m c) (Cert.KernelIdeal.Body.argL m c)
      = Cert.KernelIdeal.Body.resK m c := by
  funext i
  rw [Cert.ReferenceIdeal.ReadP.val_main_v23_apply, Cert.ReferenceIdeal.ReadP.val_main_v22_apply]
  unfold Cert.KernelIdeal.Body.resK
  show FloatOps.hostDivf _ _ = FloatOps.hostDivf (Host.reduceAdd (F := Ideal) (φ := .f32) (Cert.KernelIdeal.Body.G2 m c) _ _ _ i) _
  rw [reduceAdd_all]
  have hsum : (∑ j : Cert.ReferenceIdeal.S8x256.Idx, Cert.ReferenceIdeal.ReadP.val_main_v21 (F := Ideal) (Cert.KernelIdeal.Body.argX m c) (Cert.KernelIdeal.Body.argL m c) j)
      = ∑ j : Cert.KernelIdeal.S8x16x16.Idx, Cert.KernelIdeal.Body.G2 m c j := by
    have h1 : ∀ j : Cert.ReferenceIdeal.S8x256.Idx,
        Cert.ReferenceIdeal.ReadP.val_main_v21 (F := Ideal) (Cert.KernelIdeal.Body.argX m c) (Cert.KernelIdeal.Body.argL m c) j
          = outK (Cert.KernelIdeal.Body.argX m c) (Cert.KernelIdeal.Body.argL m c) ⟨(j 0).val, (j 0).isLt⟩
              (⟨(j 1).val / 16, by have : (j 1).val < 256 := (j 1).isLt; omega⟩ : Fin 16) (⟨(j 1).val % 16, by omega⟩ : Fin 16) := by
      intro j
      obtain ⟨n, r, rfl⟩ : ∃ (n : Fin 8) (r : Fin 256), j = ix2 n r := ⟨j 0, j 1, eq_ix2 j⟩
      rw [Cert.ReferenceIdeal.RefValue.out_apply _ _ hl n r]
      exact (outK_eq_outR _ _ hx hl n _ _).symm
    rw [Finset.sum_congr rfl fun j _ => h1 j]
    exact (sum_reindex fun n p q => outK (Cert.KernelIdeal.Body.argX m c) (Cert.KernelIdeal.Body.argL m c) n p q).symm
  rw [hsum]
  rfl

/-- The equivalence. -/
theorem algebraic : Cert.algebraic_KernelIdeal_ReferenceIdeal := by
  intro m ρ m' ρ' hpre hagree
  refine ⟨fun c => Cert.KernelIdeal.Body.resK m c, Cert.KernelIdeal.Body.run_value m ρ, ?_⟩
  refine (θ_run Cert.ReferenceIdeal.defs _ _).mono (fun _ h c => ⟨(h c).1.trans ?_, (h c).2⟩)
    (Cert.ReferenceIdeal.RunHand.run (F := Ideal) m' ρ')
  rw [(hagree c).1, (hagree c).2]
  obtain ⟨hx, hl⟩ := Cert.Pre_finite_inputs.Decode.of_pre _ _ (hpre c)
  exact result_eq m c hx hl

end Cert.Proof.Alg

end
-- ==== Proof.lean ====
/-
  The certificate of the patch-wise cross-entropy kernel against its reference.

  The kernel streams each image plane once: per image `n`, channel `c` and offset `(p, q)` inside the 16 × 16 patches it
  takes the 1024 logits of the coarse 32 × 32 grid, their log-sum-exp, and subtracts the logit the label
  `label[n, p, 16 c + q]` selects by a one-hot sum (zero at the ignore index `-100`); a running maximum over the 24
  channels, started from the finite seed `-1e30` at the first channel, is kept in the output block, and the host takes
  the mean over `(n, p, q)`. The reference builds the same groups by two patch re-layouts, takes a log-softmax, picks the
  labelled class by an index, negates, maximises over the channels from `-∞` and takes the mean.
  Under the precondition — every score finite, every label the loss reads a class index below 1024 or the ignore
  index — the two losses are one real number `(M + log S) - v_b ≥ 0`, so the seed never binds, and the two means are
  sums over the same 2048 numbers.

  The three frames: the kernel body is run once, for any float instance, by a loop invariant over its four trips and
  a case split on the first channel (`Proof/KI`, and `Proof/K` for the word-level program); the reference's seventy host
  operations are run stretch by stretch over named stages (`Proof/RefRunHand`). The idealization's ledger is empty.
-/
import proofs.«413696_j43370579755026_3_alg».proof.Defs
import proofs.«413696_j43370579755026_3_alg».proof.Proof.K.Data
import proofs.«413696_j43370579755026_3_alg».proof.Proof.KI.Data
import proofs.«413696_j43370579755026_3_alg».proof.Proof.RefRunHand
import proofs.«413696_j43370579755026_3_alg».proof.Proof.Alg
import Idealize.ShloMosaic.Adequacy
import Idealize.ShloMosaic.Init

noncomputable section

namespace Cert.Proof

open Idealize.ShloMosaic Idealize.SL.Sem

/-- The reference's frame: its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

theorem claim : Cert.Claim :=
  ⟨Cert.Kernel.Gen.facts, Cert.KernelIdeal.Gen.facts, Cert.ReferenceIdeal.Gen.facts, Cert.Pre_finite_inputs.Gen.facts,
    fun m ρ _ => Cert.Kernel.Body.frame m ρ, fun m ρ _ => Cert.KernelIdeal.Body.frame m ρ, frame_ri, trivial, Alg.algebraic⟩

end Cert.Proof

end
